-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S96x262144 : Shape := ⟨2, ![96, 262144]⟩
abbrev S96x256 : Shape := ⟨2, ![96, 256]⟩
abbrev S24x4096 : Shape := ⟨2, ![24, 4096]⟩
abbrev S24x256 : Shape := ⟨2, ![24, 256]⟩
abbrev S24x16x16 : Shape := ⟨3, ![24, 16, 16]⟩
abbrev S24x16x4096 : Shape := ⟨3, ![24, 16, 4096]⟩
abbrev S24x1x4096 : Shape := ⟨3, ![24, 1, 4096]⟩
abbrev S32x3x256 : Shape := ⟨3, ![32, 3, 256]⟩
abbrev S_ : Shape := ⟨0, ![]⟩
abbrev S3x256 : Shape := ⟨2, ![3, 256]⟩

abbrev nBuf : Space → Nat
  | .hbm => 24
  | .vmem => 10
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S96x262144, .f32⟩
  | .hbm, ⟨3, _⟩ => ⟨S96x256, .f32⟩
  | .hbm, ⟨4, _⟩ => ⟨S32x3x256, .f32⟩
  | .hbm, ⟨5, _⟩ => ⟨S_, .f32⟩
  | .hbm, ⟨6, _⟩ => ⟨S3x256, .f32⟩
  | .hbm, ⟨7, _⟩ => ⟨S_, .f32⟩
  | .hbm, ⟨8, _⟩ => ⟨S3x256, .f32⟩
  | .hbm, ⟨9, _⟩ => ⟨S3x256, .f32⟩
  | .hbm, ⟨10, _⟩ => ⟨S96x262144, .f32⟩
  | .hbm, ⟨11, _⟩ => ⟨S96x256, .f32⟩
  | .hbm, ⟨12, _⟩ => ⟨S32x3x256, .f32⟩
  | .hbm, ⟨13, _⟩ => ⟨S_, .f32⟩
  | .hbm, ⟨14, _⟩ => ⟨S3x256, .f32⟩
  | .hbm, ⟨15, _⟩ => ⟨S_, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S3x256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S24x4096, .f32⟩
  | .local _ .vmem, ⟨1, _⟩ => ⟨S24x4096, .f32⟩
  | .local _ .vmem, ⟨2, _⟩ => ⟨S24x256, .f32⟩
  | .local _ .vmem, ⟨3, _⟩ => ⟨S24x256, .f32⟩
  | .local _ .vmem, ⟨4, _⟩ => ⟨S24x16x16, .f32⟩
  | .local _ .vmem, ⟨5, _⟩ => ⟨S24x4096, .f32⟩
  | .local _ .vmem, ⟨6, _⟩ => ⟨S24x4096, .f32⟩
  | .local _ .vmem, ⟨7, _⟩ => ⟨S24x256, .f32⟩
  | .local _ .vmem, ⟨8, _⟩ => ⟨S24x256, .f32⟩
  | .local _ .vmem, ⟨9, _⟩ => ⟨S24x16x16, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![4, 64], ![false, false]⟩

def k0_cond2 (i : grid0.Coords) : BitVec 1 :=
  let arg1 : BitVec 32 := BitVec.ofNat 32 (i 1).val
  let c63_i32 : BitVec 32 := 63#32
  let v35 : BitVec 1 := Scalar.cmpi .eq arg1 c63_i32
  let v36 : BitVec 32 := Scalar.extui v35
  let c0_i32_10 : BitVec 32 := 0#32
  let v37 : BitVec 1 := Scalar.cmpi .ne v36 c0_i32_10
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S24x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S24x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 64], ![false, false]⟩

def k1_cond2 (i : grid1.Coords) : BitVec 1 :=
  let arg1 : BitVec 32 := BitVec.ofNat 32 (i 1).val
  let c63_i32 : BitVec 32 := 63#32
  let v35 : BitVec 1 := Scalar.cmpi .eq arg1 c63_i32
  let v36 : BitVec 32 := Scalar.extui v35
  let c0_i32_10 : BitVec 32 := 0#32
  let v37 : BitVec 1 := Scalar.cmpi .ne v36 c0_i32_10
  v37

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S24x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S24x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

class Facts₀ : Prop where
  shapeCasts_S32x3x512x512_S96x262144 : S32x3x512x512.ShapeCasts S96x262144
  inb_S24x16x16_S24x16x16_0_0_0 : ∀ a, (![0, 0, 0] : Fin 3 → Nat) a + S24x16x16.size a ≤ S24x16x16.size a
  h_S24x16x16 : 0 < S24x16x16.numel
  shapeCasts_S24x16x16_S24x16x16 : S24x16x16.ShapeCasts S24x16x16
  inb_S24x4096_S24x4096_0_0 : ∀ a, (![0, 0] : Fin 2 → Nat) a + S24x4096.size a ≤ S24x4096.size a
  h_S24x4096 : 0 < S24x4096.numel
  shapeCasts_S24x4096_S24x4096 : S24x4096.ShapeCasts S24x4096
  iota_S24x16x4096_d1_w32 : S24x16x4096.Iotas .tc 32 [1]
  shapeCasts_S24x4096_S24x1x4096 : S24x4096.ShapeCasts S24x1x4096
  broadcasts_S24x1x4096_S24x16x4096 : S24x1x4096.Broadcasts S24x16x4096
  natLt_1_32 : 1 < 32
  bitsLt_bf16_f32 : FTy.bits .bf16 < FTy.bits .f32
  shapeCasts_S24x16x16_S24x256 : S24x16x16.ShapeCasts S24x256
  inb_S24x256_S24x256_0_0 : ∀ a, (![0, 0] : Fin 2 → Nat) a + S24x256.size a ≤ S24x256.size a
  h_S24x256 : 0 < S24x256.numel
  shapeCasts_S96x256_S32x3x256 : S96x256.ShapeCasts S32x3x256
  reducesTo_S32x3x256_S3x256_d0 : S32x3x256.ReducesTo [0] S3x256
  h_S_ : 0 < S_.numel
  bcast_S_S3x256 : S_.BroadcastsInDim S3x256 (![] : Fin 0 → Fin S3x256.rank)
  reducesTo_S3x256_S_d0_1 : S3x256.ReducesTo [0, 1] S_
  dot_S24x16x4096_S24x16x4096_S24x16x16_2_2_1_1_0_0_wf : DotDims.WF S24x16x4096 S24x16x4096 S24x16x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x4096.size a ≤ S96x262144.size a
  hwx0_0 : ∀ i : grid0.Coords, EltTy.bits .f32 = 32 ∨ (Rect.block (s := S96x262144) S24x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S24x256.size a ≤ S96x256.size a
  hwx0_1 : ∀ i : grid0.Coords, EltTy.bits .f32 = 32 ∨ (Rect.block (s := S96x256) S24x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S24x4096.size a ≤ S96x262144.size a
  hwx1_0 : ∀ i : grid1.Coords, EltTy.bits .f32 = 32 ∨ (Rect.block (s := S96x262144) S24x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S24x256.size a ≤ S96x256.size a
  hwx1_1 : ∀ i : grid1.Coords, EltTy.bits .f32 = 32 ∨ (Rect.block (s := S96x256) S24x256.size (cc1_transform_1 i) (hinb1_1 i)).WholeWords (EltTy.packing .f32)

variable [Facts₀]

def dot_S24x16x4096_S24x16x4096_S24x16x16_2_2_1_1_0_0 : DotDims S24x16x4096 S24x16x4096 S24x16x16 where
  lhsContracting := [2]
  rhsContracting := [2]
  lhsNonContracting := [1]
  rhsNonContracting := [1]
  lhsBatch := [0]
  rhsBatch := [0]
  wf := dot_S24x16x4096_S24x16x4096_S24x16x16_2_2_1_1_0_0_wf

abbrev win0_0 : Pipeline.Window sig grid0 :=
  Pipeline.Window.ofSpec (Memref.whole main_v0) S24x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S24x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v6) S24x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S24x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

class Facts : Prop extends Facts₀ where

variable [Facts]
-- ==== ReferenceIdeal.lean ====
abbrev S32x3x512x512 : Shape := ⟨4, ![32, 3, 512, 512]⟩
abbrev S_ : Shape := ⟨0, ![]⟩
abbrev S96 : Shape := ⟨1, ![96]⟩
abbrev S32x3x1x1 : Shape := ⟨4, ![32, 3, 1, 1]⟩
abbrev S25165824 : Shape := ⟨1, ![25165824]⟩
abbrev S24576 : Shape := ⟨1, ![24576]⟩
abbrev S25165824x1 : Shape := ⟨2, ![25165824, 1]⟩
abbrev S32x3x256 : Shape := ⟨3, ![32, 3, 256]⟩
abbrev S32x3 : Shape := ⟨2, ![32, 3]⟩
abbrev S32x3x1 : Shape := ⟨3, ![32, 3, 1]⟩
abbrev S3x256 : Shape := ⟨2, ![3, 256]⟩

abbrev nBuf : Space → Nat
  | .hbm => 88
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3x512x512, .f32⟩
  | .hbm, ⟨4, _⟩ => ⟨S32x3x512x512, .f32⟩
  | .hbm, ⟨5, _⟩ => ⟨S32x3x512x512, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S32x3x512x512, .i32⟩
  | .hbm, ⟨10, _⟩ => ⟨S32x3x512x512, .i32⟩
  | .hbm, ⟨11, _⟩ => ⟨S_, .i32⟩
  | .hbm, ⟨12, _⟩ => ⟨S32x3x512x512, .i32⟩
  | .hbm, ⟨13, _⟩ => ⟨S32x3x512x512, .i32⟩
  | .hbm, ⟨14, _⟩ => ⟨S96, .i32⟩
  | .hbm, ⟨15, _⟩ => ⟨S_, .i32⟩
  | .hbm, ⟨16, _⟩ => ⟨S96, .i32⟩
  | .hbm, ⟨17, _⟩ => ⟨S96, .i32⟩
  | .hbm, ⟨18, _⟩ => ⟨S32x3x1x1, .i32⟩
  | .hbm, ⟨19, _⟩ => ⟨S32x3x512x512, .i32⟩
  | .hbm, ⟨20, _⟩ => ⟨S32x3x512x512, .i32⟩
  | .hbm, ⟨21, _⟩ => ⟨S25165824, .i32⟩
  | .hbm, ⟨22, _⟩ => ⟨S_, .f32⟩
  | .hbm, ⟨23, _⟩ => ⟨S25165824, .f32⟩
  | .hbm, ⟨24, _⟩ => ⟨S_, .f32⟩
  | .hbm, ⟨25, _⟩ => ⟨S24576, .f32⟩
  | .hbm, ⟨26, _⟩ => ⟨S25165824x1, .i32⟩
  | .hbm, ⟨27, _⟩ => ⟨S24576, .f32⟩
  | .hbm, ⟨28, _⟩ => ⟨S32x3x256, .f32⟩
  | .hbm, ⟨29, _⟩ => ⟨S_, .f32⟩
  | .hbm, ⟨30, _⟩ => ⟨S32x3, .f32⟩
  | .hbm, ⟨31, _⟩ => ⟨S32x3x1, .f32⟩
  | .hbm, ⟨32, _⟩ => ⟨S_, .f32⟩
  | .hbm, ⟨33, _⟩ => ⟨S32x3x1, .f32⟩
  | .hbm, ⟨34, _⟩ => ⟨S32x3x1, .f32⟩
  | .hbm, ⟨35, _⟩ => ⟨S32x3x256, .f32⟩
  | .hbm, ⟨36, _⟩ => ⟨S32x3x256, .f32⟩
  | .hbm, ⟨37, _⟩ => ⟨S_, .f32⟩
  | .hbm, ⟨38, _⟩ => ⟨S32x3x512x512, .f32⟩
  | .hbm, ⟨39, _⟩ => ⟨S32x3x512x512, .f32⟩
  | .hbm, ⟨40, _⟩ => ⟨S32x3x512x512, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S32x3x512x512, .i32⟩
  | .hbm, ⟨45, _⟩ => ⟨S32x3x512x512, .i32⟩
  | .hbm, ⟨46, _⟩ => ⟨S_, .i32⟩
  | .hbm, ⟨47, _⟩ => ⟨S32x3x512x512, .i32⟩
  | .hbm, ⟨48, _⟩ => ⟨S32x3x512x512, .i32⟩
  | .hbm, ⟨49, _⟩ => ⟨S96, .i32⟩
  | .hbm, ⟨50, _⟩ => ⟨S_, .i32⟩
  | .hbm, ⟨51, _⟩ => ⟨S96, .i32⟩
  | .hbm, ⟨52, _⟩ => ⟨S96, .i32⟩
  | .hbm, ⟨53, _⟩ => ⟨S32x3x1x1, .i32⟩
  | .hbm, ⟨54, _⟩ => ⟨S32x3x512x512, .i32⟩
  | .hbm, ⟨55, _⟩ => ⟨S32x3x512x512, .i32⟩
  | .hbm, ⟨56, _⟩ => ⟨S25165824, .i32⟩
  | .hbm, ⟨57, _⟩ => ⟨S_, .f32⟩
  | .hbm, ⟨58, _⟩ => ⟨S25165824, .f32⟩
  | .hbm, ⟨59, _⟩ => ⟨S_, .f32⟩
  | .hbm, ⟨60, _⟩ => ⟨S24576, .f32⟩
  | .hbm, ⟨61, _⟩ => ⟨S25165824x1, .i32⟩
  | .hbm, ⟨62, _⟩ => ⟨S24576, .f32⟩
  | .hbm, ⟨63, _⟩ => ⟨S32x3x256, .f32⟩
  | .hbm, ⟨64, _⟩ => ⟨S_, .f32⟩
  | .hbm, ⟨65, _⟩ => ⟨S32x3, .f32⟩
  | .hbm, ⟨66, _⟩ => ⟨S32x3x1, .f32⟩
  | .hbm, ⟨67, _⟩ => ⟨S_, .f32⟩
  | .hbm, ⟨68, _⟩ => ⟨S32x3x1, .f32⟩
  | .hbm, ⟨69, _⟩ => ⟨S32x3x1, .f32⟩
  | .hbm, ⟨70, _⟩ => ⟨S32x3x256, .f32⟩
  | .hbm, ⟨71, _⟩ => ⟨S32x3x256, .f32⟩
  | .hbm, ⟨72, _⟩ => ⟨S_, .f32⟩
  | .hbm, ⟨73, _⟩ => ⟨S3x256, .f32⟩
  | .hbm, ⟨74, _⟩ => ⟨S_, .f32⟩
  | .hbm, ⟨75, _⟩ => ⟨S3x256, .f32⟩
  | .hbm, ⟨76, _⟩ => ⟨S3x256, .f32⟩
  | .hbm, ⟨77, _⟩ => ⟨S_, .f32⟩
  | .hbm, ⟨78, _⟩ => ⟨S3x256, .f32⟩
  | .hbm, ⟨79, _⟩ => ⟨S_, .f32⟩
  | .hbm, ⟨80, _⟩ => ⟨S3x256, .f32⟩
  | .hbm, ⟨81, _⟩ => ⟨S3x256, .f32⟩
  | .hbm, ⟨82, _⟩ => ⟨S3x256, .f32⟩
  | .hbm, ⟨83, _⟩ => ⟨S3x256, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_c_8 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v25 : Ref sig .tc := ⟨.hbm, 48, rfl⟩
abbrev main_v26 : Ref sig .tc := ⟨.hbm, 49, rfl⟩
abbrev main_c_9 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_10 : Ref sig .tc := ⟨.hbm, 57, rfl⟩
abbrev main_v33 : Ref sig .tc := ⟨.hbm, 58, rfl⟩
abbrev main_cst_11 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_12 : Ref sig .tc := ⟨.hbm, 64, rfl⟩
abbrev main_v38 : Ref sig .tc := ⟨.hbm, 65, rfl⟩
abbrev main_v39 : Ref sig .tc := ⟨.hbm, 66, rfl⟩
abbrev main_cst_13 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_14 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩
abbrev main_v46 : Ref sig .tc := ⟨.hbm, 76, rfl⟩
abbrev main_cst_16 : Ref sig .tc := ⟨.hbm, 77, rfl⟩
abbrev main_v47 : Ref sig .tc := ⟨.hbm, 78, rfl⟩
abbrev main_cst_17 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_18 : Ref sig .tc := ⟨.hbm, 84, rfl⟩
abbrev main_v52 : Ref sig .tc := ⟨.hbm, 85, rfl⟩
abbrev main_cst_19 : Ref sig .tc := ⟨.hbm, 86, rfl⟩
abbrev main_v53 : Ref sig .tc := ⟨.hbm, 87, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  bcast_S_S96 : S_.BroadcastsInDim S96 (![] : Fin 0 → Fin S96.rank)
  shapeCasts_S96_S32x3x1x1 : S96.ShapeCasts S32x3x1x1
  bcast_S32x3x1x1_S32x3x512x512_0_1_2_3 : S32x3x1x1.BroadcastsInDim S32x3x512x512 (![0, 1, 2, 3] : Fin 4 → Fin S32x3x512x512.rank)
  shapeCasts_S32x3x512x512_S25165824 : S32x3x512x512.ShapeCasts S25165824
  bcast_S_S25165824 : S_.BroadcastsInDim S25165824 (![] : Fin 0 → Fin S25165824.rank)
  bcast_S_S24576 : S_.BroadcastsInDim S24576 (![] : Fin 0 → Fin S24576.rank)
  bcast_S25165824_S25165824x1_0 : S25165824.BroadcastsInDim S25165824x1 (![0] : Fin 1 → Fin S25165824x1.rank)
  shapeCasts_S24576_S32x3x256 : S24576.ShapeCasts S32x3x256
  reducesTo_S32x3x256_S32x3_d2 : S32x3x256.ReducesTo [2] S32x3
  h_S_ : 0 < S_.numel
  bcast_S32x3_S32x3x1_0_1 : S32x3.BroadcastsInDim S32x3x1 (![0, 1] : Fin 2 → Fin S32x3x1.rank)
  bcast_S_S32x3x1 : S_.BroadcastsInDim S32x3x1 (![] : Fin 0 → Fin S32x3x1.rank)
  bcast_S32x3x1_S32x3x256_0_1_2 : S32x3x1.BroadcastsInDim S32x3x256 (![0, 1, 2] : Fin 3 → Fin S32x3x256.rank)
  reducesTo_S32x3x256_S3x256_d0 : S32x3x256.ReducesTo [0] S3x256
  bcast_S_S3x256 : S_.BroadcastsInDim S3x256 (![] : Fin 0 → Fin S3x256.rank)
  reducesTo_S3x256_S_d0_1 : S3x256.ReducesTo [0, 1] S_
  scatter_S24576_S25165824x1_S25165824_n_0_0_1_wf : ScatterDims.WF S24576 S25165824x1 S25165824 [] [0] [0] 1

variable [Facts₀]

def scatter_S24576_S25165824x1_S25165824_n_0_0_1 : ScatterDims S24576 S25165824x1 S25165824 where
  updateWindowDims := []
  insertedWindowDims := [0]
  scatterDimsToOperandDims := [0]
  indexVectorDim := 1
  wf := scatter_S24576_S25165824x1_S25165824_n_0_0_1_wf

class Facts : Prop extends Facts₀ where

variable [Facts]
-- ==== Proof.KBBody0.lean ====
/-
  The histogram kernel's body at one grid point (first pallas_call), on whole staging memrefs, at any float instance.

  A grid point `(i, k)` handles rows `24·i … 24·i+23` and pixels `4096·k … 4096·k+4095`.  The scratch `arg4` carries the
  running radix-16 counts of those rows.  At the first `k` the body clears it before accumulating; at every `k` it adds
  this block's counts (`k0_pay3`: the block's one-hot matmul added to what the scratch held); at the last `k` it also
  writes the scaled, re-laid counts (`k0_pay1`) to the output block `arg3`.  Three cases, by the two conditions.
-/
import proofs.«154098_j40140764348889_1_alg».proof.Proof.Gen.Kernel.Launch
import proofs.«154098_j40140764348889_1_alg».proof.Proof.Gen.Kernel.Skeleton
import proofs.«154098_j40140764348889_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

/-- "This is the first block along the pixel axis" (`k = 0`), as the body tests it. -/
abbrev first0 (i : grid0.Coords) : Prop :=
  (Scalar.cmpi .ne (Scalar.extui (Scalar.cmpi .eq (BitVec.ofNat 32 (i 1).val) 0#32)) 0#32) = 1#1
/-- "This is the last block along the pixel axis" (`k = 63`), as the body tests it. -/
abbrev last0 (i : grid0.Coords) : Prop := k0_cond2 i = 1#1

/-- In the linear order of the 4 × 64 grid the first blocks are the multiples of 64, -/
theorem hfirst0 : ∀ t : Fin cfg0.N, first0 (grid0.coords t) ↔ t.val % 64 = 0 :=
  (by decide +kernel : ∀ t : Fin grid0.N, first0 (grid0.coords t) ↔ t.val % 64 = 0)
/-- and the last blocks those ≡ 63. -/
theorem hlast0 : ∀ t : Fin cfg0.N, last0 (grid0.coords t) ↔ t.val % 64 = 63 :=
  (by decide +kernel : ∀ t : Fin grid0.N, last0 (grid0.coords t) ↔ t.val % 64 = 63)

/-- A store through the whole-shape rectangle at zero offsets, made last, read back through the view: its payload,
    whatever the buffer held and whatever was stored before. -/
private theorem read_writes_cons_unit_zero {Val : EltTy → Type} [∀ e, Nonempty (Val e)] {sg : RefSig} {κ : Kind} {sp : Space}
    {S : Shape} {e : EltTy} (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

set_option maxHeartbeats 1000000 in
/-- FIRST, NOT LAST: whatever the scratch held, it ends at this block's counts over a cleared scratch; the input
    block is read only; the output block is not touched. -/
theorem body0_first (c : Dev nD) (i : grid0.Coords)
    (arg2 : Memref sig .tc .vmem S24x4096 .f32) (harg2 : arg2.IsWhole) (arg3 : Memref sig .tc .vmem S24x256 .f32) (harg3 : arg3.IsWhole)
    (arg4 : Memref sig .tc .vmem S24x16x16 .f32) (harg4 : arg4.IsWhole) (hf : first0 i) (hl : ¬ last0 i)
    (x : Vec F S24x4096 .f32) (E : Set ℕ) (K : PUnit → sProp 𝕄) :
    iprop(owns (c : Thread nD τ) arg2 fullShare x ∗ (∃ d, owns (c : Thread nD τ) arg4 fullShare d)
        ∗ (iprop(owns (c : Thread nD τ) arg2 fullShare x ∗ owns (c : Thread nD τ) arg4 fullShare (k0_pay3 x (k0_pay2 (F := F)))) -∗ K ⟨⟩))
      ⊢ wp frame (wpE (defs₀ (F := F)) Variants.none c none) E (cc0__hist_kernel i arg2 harg2 arg3 harg3 arg4 harg4) K := by
  simp only [cc0__hist_kernel_eq_skeleton]; unfold cc0__hist_kernel_skel
  simp only [k0_part1_eq_skeleton]; unfold k0_part1_skel
  unfold owns
  iintro ⟨⟨%f2, %hf2, H2⟩, ⟨%d, %f4, %hf4, H4⟩, Hk⟩
  obtain rfl := harg2.eq_unread hf2; obtain rfl := harg4.eq_unread hf4
  sl_exec (disch := first | exact hf | exact hl)
  sl_step
  iapply Hk
  have hz3 : (![0, 0, 0] : Fin S24x16x16.rank → Nat) = fun _ => 0 := by funext j; fin_cases j <;> rfl
  have hz2 : (![0, 0] : Fin S24x4096.rank → Nat) = fun _ => 0 := by funext j; fin_cases j <;> rfl
  isplitl [H2]
  · iexists _; isplitr; · ipureintro; exact harg2.read_unread _
    iexact H2
  iexists _; isplitr; swap; · iexact H4
  ipureintro
  -- the scratch was stored whole twice: the later store's payload is what it reads, and the load between the two
  -- stores read the earlier store's payload, the cleared counts
  sl_unfold_words
  refine (read_writes_cons_unit_zero (S := S24x16x16) _ _ hz3 _ _ _).trans ?_
  simp only [View.readAt_eq_ld, harg2.read_unread, View.ld_unit_zero (S := S24x4096) hz2,
    View.readCov_unit_zero (S := S24x16x16) _ hz3]

set_option maxHeartbeats 1000000 in
/-- NEITHER FIRST NOR LAST: the scratch, at `a`, ends at `a` plus this block's counts. -/
theorem body0_mid (c : Dev nD) (i : grid0.Coords)
    (arg2 : Memref sig .tc .vmem S24x4096 .f32) (harg2 : arg2.IsWhole) (arg3 : Memref sig .tc .vmem S24x256 .f32) (harg3 : arg3.IsWhole)
    (arg4 : Memref sig .tc .vmem S24x16x16 .f32) (harg4 : arg4.IsWhole) (hf : ¬ first0 i) (hl : ¬ last0 i)
    (x : Vec F S24x4096 .f32) (a : Vec F S24x16x16 .f32) (E : Set ℕ) (K : PUnit → sProp 𝕄) :
    iprop(owns (c : Thread nD τ) arg2 fullShare x ∗ owns (c : Thread nD τ) arg4 fullShare a
        ∗ (iprop(owns (c : Thread nD τ) arg2 fullShare x ∗ owns (c : Thread nD τ) arg4 fullShare (k0_pay3 x a)) -∗ K ⟨⟩))
      ⊢ wp frame (wpE (defs₀ (F := F)) Variants.none c none) E (cc0__hist_kernel i arg2 harg2 arg3 harg3 arg4 harg4) K := by
  simp only [cc0__hist_kernel_eq_skeleton]; unfold cc0__hist_kernel_skel
  simp only [k0_part1_eq_skeleton]; unfold k0_part1_skel
  unfold owns
  iintro ⟨⟨%f2, %hf2, H2⟩, ⟨%f4, %hf4, H4⟩, Hk⟩
  obtain rfl := harg2.eq_unread hf2; obtain rfl := harg4.eq_unread hf4
  sl_exec (disch := first | exact hf | exact hl)
  sl_step
  iapply Hk
  have hz3 : (![0, 0, 0] : Fin S24x16x16.rank → Nat) = fun _ => 0 := by funext j; fin_cases j <;> rfl
  have hz2 : (![0, 0] : Fin S24x4096.rank → Nat) = fun _ => 0 := by funext j; fin_cases j <;> rfl
  isplitl [H2]
  · iexists _; isplitr; · ipureintro; exact harg2.read_unread _
    iexact H2
  iexists _; isplitr; swap; · iexact H4
  ipureintro
  -- the scratch was stored whole once: it reads that payload, computed from the whole input block and the whole
  -- scratch as they were
  sl_unfold_words
  refine (read_writes_cons_unit_zero (S := S24x16x16) _ _ hz3 _ _ _).trans ?_
  simp only [View.readAt_eq_ld, harg2.read_unread, harg4.read_unread, View.ld_unit_zero (S := S24x4096) hz2,
    View.ld_unit_zero (S := S24x16x16) hz3]

set_option maxHeartbeats 1000000 in
/-- LAST, NOT FIRST: the scratch ends at `a` plus this block's counts, and the output block, whatever it held, at the
    scaled re-laid counts of that. -/
theorem body0_last (c : Dev nD) (i : grid0.Coords)
    (arg2 : Memref sig .tc .vmem S24x4096 .f32) (harg2 : arg2.IsWhole) (arg3 : Memref sig .tc .vmem S24x256 .f32) (harg3 : arg3.IsWhole)
    (arg4 : Memref sig .tc .vmem S24x16x16 .f32) (harg4 : arg4.IsWhole) (hf : ¬ first0 i) (hl : last0 i)
    (x : Vec F S24x4096 .f32) (a : Vec F S24x16x16 .f32) (E : Set ℕ) (K : PUnit → sProp 𝕄) :
    iprop(owns (c : Thread nD τ) arg2 fullShare x ∗ owns (c : Thread nD τ) arg4 fullShare a ∗ (∃ d, owns (c : Thread nD τ) arg3 fullShare d)
        ∗ (iprop(owns (c : Thread nD τ) arg2 fullShare x ∗ owns (c : Thread nD τ) arg4 fullShare (k0_pay3 x a)
              ∗ owns (c : Thread nD τ) arg3 fullShare (k0_pay1 (k0_pay3 x a))) -∗ K ⟨⟩))
      ⊢ wp frame (wpE (defs₀ (F := F)) Variants.none c none) E (cc0__hist_kernel i arg2 harg2 arg3 harg3 arg4 harg4) K := by
  simp only [cc0__hist_kernel_eq_skeleton]; unfold cc0__hist_kernel_skel
  simp only [k0_part1_eq_skeleton]; unfold k0_part1_skel
  unfold owns
  iintro ⟨⟨%f2, %hf2, H2⟩, ⟨%f4, %hf4, H4⟩, ⟨%d, %f3, %hf3, H3⟩, Hk⟩
  obtain rfl := harg2.eq_unread hf2; obtain rfl := harg4.eq_unread hf4; obtain rfl := harg3.eq_unread hf3
  sl_exec (disch := first | exact hf | exact hl)
  sl_step
  iapply Hk
  have hz3 : (![0, 0, 0] : Fin S24x16x16.rank → Nat) = fun _ => 0 := by funext j; fin_cases j <;> rfl
  have hz2 : (![0, 0] : Fin S24x4096.rank → Nat) = fun _ => 0 := by funext j; fin_cases j <;> rfl
  have hz2' : (![0, 0] : Fin S24x256.rank → Nat) = fun _ => 0 := by funext j; fin_cases j <;> rfl
  isplitl [H2]
  · iexists _; isplitr; · ipureintro; exact harg2.read_unread _
    iexact H2
  isplitl [H4]
  · iexists _; isplitr; swap; · iexact H4
    ipureintro
    -- the scratch, stored whole once, reads that payload
    sl_unfold_words
    refine (read_writes_cons_unit_zero (S := S24x16x16) _ _ hz3 _ _ _).trans ?_
    simp only [View.readAt_eq_ld, harg2.read_unread, harg4.read_unread, View.ld_unit_zero (S := S24x4096) hz2,
      View.ld_unit_zero (S := S24x16x16) hz3]
  iexists _; isplitr; swap; · iexact H3
  ipureintro
  -- the output block, stored whole once, reads its payload: the scaled re-laid counts of what the scratch was
  -- loaded at after its store, that is of the store's payload
  sl_unfold_words
  refine (read_writes_cons_unit_zero (S := S24x256) _ _ hz2' _ _ _).trans ?_
  refine congrArg k0_pay1 ?_
  refine (View.readCov_unit_zero (S := S24x16x16) arg4.view hz3 _ _).trans ?_
  simp only [View.readAt_eq_ld, harg2.read_unread, harg4.read_unread, View.ld_unit_zero (S := S24x4096) hz2,
    View.ld_unit_zero (S := S24x16x16) hz3]

end Cert.Kernel.Hand

end
-- ==== Proof.KBInv0.lean ====
/-
  What the launch hands pallas_call 0's region besides its windows: the core's scoped buffers that are not that call's
  staging buffers, each whole at some contents, and the generator register.  One of them is the call's scratch
  (the first of the list); the region's invariant names its contents point by point, so the bundle is opened here, once, into
  "the scratch owned at some contents" beside the rest, and closed again.
-/
import proofs.«154098_j40140764348889_1_alg».proof.Proof.Gen.Kernel.Launch
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch as a whole memref. -/
abbrev scM0 : Memref sig .tc .vmem S24x16x16 .f32 := Memref.whole cc0_scratch0

/-- The core's scoped buffers other than this region's staging buffers and scratch, each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

/-- Everything of the launch's invariant but the scratch: the other scoped buffers at anything, the generator register. -/
def rest0 (c : Dev nD) : sProp 𝕄 := iprop(otherScoped0 (F := F) c ∗ (∃ r, prngReg c r))

/-- What the launch hands the region is the scratch owned at some contents beside that rest, -/
theorem PhiA0_open (c : Dev nD) :
    (Pipeline.ΦA spec0 c : sProp 𝕄) ⊢ iprop((∃ d, owns (c : Thread nD τ) scM0 fullShare d) ∗ rest0 (F := F) c) := by
  unfold Pipeline.ΦA rest0 otherScoped0; rw [scopedRest0_eq]; simp only [scM0, owns_whole]
  iintro ⟨⟨HS, H1, H2, H3, H4, H5⟩, Hg⟩
  isplitl [HS]; · iexact HS
  isplitl [H1 H2 H3 H4 H5]
  · isplitl [H1]; · iexact H1
    isplitl [H2]; · iexact H2
    isplitl [H3]; · iexact H3
    isplitl [H4]; · iexact H4
    iexact H5
  iexact Hg

/-- and conversely. -/
theorem PhiA0_close (c : Dev nD) :
    iprop((∃ d, owns (c : Thread nD τ) scM0 fullShare d) ∗ rest0 (F := F) c) ⊢ (Pipeline.ΦA spec0 c : sProp 𝕄) := by
  unfold Pipeline.ΦA rest0 otherScoped0; rw [scopedRest0_eq]; simp only [scM0, owns_whole]
  iintro ⟨HS, ⟨H1, H2, H3, H4, H5⟩, Hg⟩
  isplitl [HS H1 H2 H3 H4 H5]
  · isplitl [HS]; · iexact HS
    isplitl [H1]; · iexact H1
    isplitl [H2]; · iexact H2
    isplitl [H3]; · iexact H3
    isplitl [H4]; · iexact H4
    iexact H5
  iexact Hg

end Cert.Kernel.Hand

end
-- ==== Proof.KBRegion0.lean ====
/-
  The first pallas_call as a pipeline region, at any float instance: its proof data and its body obligation.

  The grid is 4 × 64, walked in row-major order, so point `t` is row tile `t / 64` and pixel block `k = t % 64`.  The scratch
  after point `t` holds the counts accumulated since the row tile's first block (`accAt0`): at a first block the block's
  counts over a cleared scratch, otherwise the block's counts added to what the point before left.  The input window's
  buffer holds the input's block; the output window's buffer is written only at a last block (`k = 63`), with the scaled
  re-laid counts of the scratch, and is written back to its array only there.  The region's invariant before a point is
  "the scratch at what the point before left" (anything before the first point), beside the other scoped buffers at
  anything and the generator register.
-/
import proofs.«154098_j40140764348889_1_alg».proof.Proof.KBBody0
import proofs.«154098_j40140764348889_1_alg».proof.Proof.KBInv0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered, per core.
variable (V : (c : Dev nD) → (b : Ref sig .tc) → Buf (Elt F) ((c : Thread nD τ).loc b))

/-! ## Blocks, memrefs, schedule facts -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds the input's block at every point (it is fetched at every point), for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it, and the scratch. -/
abbrev ms0_0 (t : Fin cfg0.N) : Memref sig .tc .vmem S24x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S24x256 .f32 := win0_1.stage (cfg0.slots t 1)
abbrev hs0_1 (t : Fin cfg0.N) : (ms0_1 t).IsWhole := hstage0_1 ((cfg0.slots t 1).cast nbuf0_1)

/-- The input window is never idle. -/
theorem liveAt0_0 : ∀ t : Fin cfg0.N, cfg0.idle 0 (grid0.coords t) = false := by decide +kernel
/-- Away from a last block the output window is idle and is not written back; -/
theorem idleAt0_1 : ∀ t : Fin cfg0.N, ¬ last0 (grid0.coords t) → cfg0.idle 1 (grid0.coords t) = true := by decide +kernel
theorem noFlush0_1 : ∀ t : Fin cfg0.N, ¬ last0 (grid0.coords t) → (cfg0.win 1).flush t = false := by decide +kernel
/-- at a last block it is live. -/
theorem liveAt0_1 : ∀ t : Fin cfg0.N, last0 (grid0.coords t) → cfg0.idle 1 (grid0.coords t) = false := by decide +kernel

/-! ## The scratch, point by point -/

/-- What the scratch holds after point `n`. -/
def accAt0 (c : Dev nD) : (n : ℕ) → n < cfg0.N → Vec F S24x16x16 .f32
  | 0, hn => k0_pay3 (iblk0 V c 0 ⟨0, hn⟩) (k0_pay2 (F := F))
  | n + 1, hn =>
    if (n + 1) % 64 = 0 then k0_pay3 (iblk0 V c 0 ⟨n + 1, hn⟩) (k0_pay2 (F := F))
    else k0_pay3 (iblk0 V c 0 ⟨n + 1, hn⟩) (accAt0 c n (Nat.lt_of_succ_lt hn))

/-- At a first block: the block's counts over a cleared scratch. -/
theorem accAt0_first (c : Dev nD) (t : Fin cfg0.N) (h : t.val % 64 = 0) :
    accAt0 V c t.val t.isLt = k0_pay3 (iblk0 V c 0 t) (k0_pay2 (F := F)) := by
  obtain ⟨n, hn⟩ := t
  cases n with
  | zero => rfl
  | succ n => exact if_pos h

/-- Elsewhere: the block's counts added to what the point before left. -/
theorem accAt0_next (c : Dev nD) (t : Fin cfg0.N) (h : ¬ t.val % 64 = 0) :
    accAt0 V c t.val t.isLt = k0_pay3 (iblk0 V c 0 t) (accAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The invariant before position `n`: what the launch hands over before the first point; afterwards the scratch at
    what the point before left. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ rest0 (F := F) c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (accAt0 V c n hn) ∗ rest0 (F := F) c) := rfl
theorem PhiS0_pos (c : Dev nD) (n : ℕ) (h : n ≤ cfg0.N) (hz : n ≠ 0) :
    PhiS0 V c n h = iprop(owns (c : Thread nD τ) scM0 fullShare (accAt0 V c (n - 1) (by omega)) ∗ rest0 (F := F) c) := by
  cases n with
  | zero => exact absurd rfl hz
  | succ n => rfl

/-! ## The proof data -/

/-- The region's proof data on core `c`: the arrays as found; after the body the input's buffer at its block and the
    output's at the scaled counts of the scratch; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = k0_pay1 (accAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point, by the block's place in its row tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  by_cases hl : t.val % 64 = 63
  · -- a last block: never a first one
    have hf : ¬ t.val % 64 = 0 := by omega
    have hz : t.val ≠ 0 := by intro h; rw [h] at hl; omega
    rw [show (dat0 V c).leavesExact 1 t = owns (c : Thread nD τ) (ms0_1 t) fullShare ((dat0 V c).after 1 t) from by
      unfold Dat.leavesExact; rw [liveAt0_1 t ((hlast0 t).mpr hl)], after0_1]
    rw [accAt0_next V c t hf, PhiS0_castSucc V c t, PhiS0_pos V c _ _ hz]
    iintro ⟨⟨HS, Hr⟩, Ho, ⟨%d0, H0⟩, ⟨%d1, H1⟩⟩
    iapply (body0_last c (grid0.coords t) _ _ _ _ _ _ (fun h => hf ((hfirst0 t).mp h)) ((hlast0 t).mpr hl) (iblk0 V c 0 t) _ Set.univ _)
    isplitl [H0]; · iexact H0
    isplitl [HS]; · iexact HS
    isplitl [H1]; · iexists _; iexact H1
    iintro ⟨H0, HS, H1⟩
    isplitl [HS Hr]
    · isplitl [HS]; · iexact HS
      iexact Hr
    isplitl [Ho]; · iexact Ho
    isplitl [H0]; · iexact H0
    iexact H1
  · rw [Dat.leavesExact_idle (dat0 V c) 1 t (idleAt0_1 t (fun h => hl ((hlast0 t).mp h))) (noFlush0_1 t (fun h => hl ((hlast0 t).mp h)))]
    by_cases hf : t.val % 64 = 0
    · -- a first block
      rw [accAt0_first V c t hf]
      by_cases hz : t.val = 0
      · rw [PhiS0_castSucc V c t, PhiS0_zero V c _ _ hz]
        iintro ⟨HP, Ho, ⟨%d0, H0⟩, ⟨%d1, H1⟩⟩
        ihave HP2 := PhiA0_open (F := F) c $$ HP
        icases HP2 with ⟨HS, Hr⟩
        iapply (body0_first c (grid0.coords t) _ _ _ _ _ _ ((hfirst0 t).mpr hf) (fun h => hl ((hlast0 t).mp h)) (iblk0 V c 0 t) Set.univ _)
        isplitl [H0]; · iexact H0
        isplitl [HS]; · iexact HS
        iintro ⟨H0, HS⟩
        isplitl [HS Hr]
        · isplitl [HS]; · iexact HS
          iexact Hr
        isplitl [Ho]; · iexact Ho
        isplitl [H0]; · iexact H0
        iexists _; iexact H1
      · rw [PhiS0_castSucc V c t, PhiS0_pos V c _ _ hz]
        iintro ⟨⟨HS, Hr⟩, Ho, ⟨%d0, H0⟩, ⟨%d1, H1⟩⟩
        iapply (body0_first c (grid0.coords t) _ _ _ _ _ _ ((hfirst0 t).mpr hf) (fun h => hl ((hlast0 t).mp h)) (iblk0 V c 0 t) Set.univ _)
        isplitl [H0]; · iexact H0
        isplitl [HS]; · iexists _; iexact HS
        iintro ⟨H0, HS⟩
        isplitl [HS Hr]
        · isplitl [HS]; · iexact HS
          iexact Hr
        isplitl [Ho]; · iexact Ho
        isplitl [H0]; · iexact H0
        iexists _; iexact H1
    · -- neither
      have hz : t.val ≠ 0 := by intro h; rw [h] at hf; exact hf (Nat.zero_mod _)
      rw [accAt0_next V c t hf, PhiS0_castSucc V c t, PhiS0_pos V c _ _ hz]
      iintro ⟨⟨HS, Hr⟩, Ho, ⟨%d0, H0⟩, ⟨%d1, H1⟩⟩
      iapply (body0_mid c (grid0.coords t) _ _ _ _ _ _ (fun h => hf ((hfirst0 t).mp h)) (fun h => hl ((hlast0 t).mp h)) (iblk0 V c 0 t) _ Set.univ _)
      isplitl [H0]; · iexact H0
      isplitl [HS]; · iexact HS
      iintro ⟨H0, HS⟩
      isplitl [HS Hr]
      · isplitl [HS]; · iexact HS
        iexact Hr
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the launch's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega)]
  iintro ⟨HS, Hr⟩
  iapply (PhiA0_close (F := F) c)
  isplitl [HS]; · iexists _; iexact HS
  iexact Hr

end Cert.Kernel.Hand

end
-- ==== Proof.KBBody1.lean ====
/-
  The histogram kernel's body at one grid point (second pallas_call), on whole staging memrefs, at any float instance.

  A grid point `(i, k)` handles rows `24·i … 24·i+23` and pixels `4096·k … 4096·k+4095`.  The scratch `arg4` carries the
  running radix-16 counts of those rows.  At the first `k` the body clears it before accumulating; at every `k` it adds
  this block's counts (`k1_pay3`: the block's one-hot matmul added to what the scratch held); at the last `k` it also
  writes the scaled, re-laid counts (`k1_pay1`) to the output block `arg3`.  Three cases, by the two conditions.
-/
import proofs.«154098_j40140764348889_1_alg».proof.Proof.Gen.Kernel.Launch
import proofs.«154098_j40140764348889_1_alg».proof.Proof.Gen.Kernel.Skeleton
import proofs.«154098_j40140764348889_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

/-- "This is the first block along the pixel axis" (`k = 0`), as the body tests it. -/
abbrev first1 (i : grid1.Coords) : Prop :=
  (Scalar.cmpi .ne (Scalar.extui (Scalar.cmpi .eq (BitVec.ofNat 32 (i 1).val) 0#32)) 0#32) = 1#1
/-- "This is the last block along the pixel axis" (`k = 63`), as the body tests it. -/
abbrev last1 (i : grid1.Coords) : Prop := k1_cond2 i = 1#1

/-- In the linear order of the 4 × 64 grid the first blocks are the multiples of 64, -/
theorem hfirst1 : ∀ t : Fin cfg1.N, first1 (grid1.coords t) ↔ t.val % 64 = 0 :=
  (by decide +kernel : ∀ t : Fin grid1.N, first1 (grid1.coords t) ↔ t.val % 64 = 0)
/-- and the last blocks those ≡ 63. -/
theorem hlast1 : ∀ t : Fin cfg1.N, last1 (grid1.coords t) ↔ t.val % 64 = 63 :=
  (by decide +kernel : ∀ t : Fin grid1.N, last1 (grid1.coords t) ↔ t.val % 64 = 63)

/-- A store through the whole-shape rectangle at zero offsets, made last, read back through the view: its payload,
    whatever the buffer held and whatever was stored before. -/
private theorem read_writes_cons_unit_zero {Val : EltTy → Type} [∀ e, Nonempty (Val e)] {sg : RefSig} {κ : Kind} {sp : Space}
    {S : Shape} {e : EltTy} (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

set_option maxHeartbeats 1000000 in
/-- FIRST, NOT LAST: whatever the scratch held, it ends at this block's counts over a cleared scratch; the input
    block is read only; the output block is not touched. -/
theorem body1_first (c : Dev nD) (i : grid1.Coords)
    (arg2 : Memref sig .tc .vmem S24x4096 .f32) (harg2 : arg2.IsWhole) (arg3 : Memref sig .tc .vmem S24x256 .f32) (harg3 : arg3.IsWhole)
    (arg4 : Memref sig .tc .vmem S24x16x16 .f32) (harg4 : arg4.IsWhole) (hf : first1 i) (hl : ¬ last1 i)
    (x : Vec F S24x4096 .f32) (E : Set ℕ) (K : PUnit → sProp 𝕄) :
    iprop(owns (c : Thread nD τ) arg2 fullShare x ∗ (∃ d, owns (c : Thread nD τ) arg4 fullShare d)
        ∗ (iprop(owns (c : Thread nD τ) arg2 fullShare x ∗ owns (c : Thread nD τ) arg4 fullShare (k1_pay3 x (k1_pay2 (F := F)))) -∗ K ⟨⟩))
      ⊢ wp frame (wpE (defs₀ (F := F)) Variants.none c none) E (cc1__hist_kernel i arg2 harg2 arg3 harg3 arg4 harg4) K := by
  simp only [cc1__hist_kernel_eq_skeleton]; unfold cc1__hist_kernel_skel
  simp only [k1_part1_eq_skeleton]; unfold k1_part1_skel
  unfold owns
  iintro ⟨⟨%f2, %hf2, H2⟩, ⟨%d, %f4, %hf4, H4⟩, Hk⟩
  obtain rfl := harg2.eq_unread hf2; obtain rfl := harg4.eq_unread hf4
  sl_exec (disch := first | exact hf | exact hl)
  sl_step
  iapply Hk
  have hz3 : (![0, 0, 0] : Fin S24x16x16.rank → Nat) = fun _ => 0 := by funext j; fin_cases j <;> rfl
  have hz2 : (![0, 0] : Fin S24x4096.rank → Nat) = fun _ => 0 := by funext j; fin_cases j <;> rfl
  isplitl [H2]
  · iexists _; isplitr; · ipureintro; exact harg2.read_unread _
    iexact H2
  iexists _; isplitr; swap; · iexact H4
  ipureintro
  -- the scratch was stored whole twice: the later store's payload is what it reads, and the load between the two
  -- stores read the earlier store's payload, the cleared counts
  sl_unfold_words
  refine (read_writes_cons_unit_zero (S := S24x16x16) _ _ hz3 _ _ _).trans ?_
  simp only [View.readAt_eq_ld, harg2.read_unread, View.ld_unit_zero (S := S24x4096) hz2,
    View.readCov_unit_zero (S := S24x16x16) _ hz3]

set_option maxHeartbeats 1000000 in
/-- NEITHER FIRST NOR LAST: the scratch, at `a`, ends at `a` plus this block's counts. -/
theorem body1_mid (c : Dev nD) (i : grid1.Coords)
    (arg2 : Memref sig .tc .vmem S24x4096 .f32) (harg2 : arg2.IsWhole) (arg3 : Memref sig .tc .vmem S24x256 .f32) (harg3 : arg3.IsWhole)
    (arg4 : Memref sig .tc .vmem S24x16x16 .f32) (harg4 : arg4.IsWhole) (hf : ¬ first1 i) (hl : ¬ last1 i)
    (x : Vec F S24x4096 .f32) (a : Vec F S24x16x16 .f32) (E : Set ℕ) (K : PUnit → sProp 𝕄) :
    iprop(owns (c : Thread nD τ) arg2 fullShare x ∗ owns (c : Thread nD τ) arg4 fullShare a
        ∗ (iprop(owns (c : Thread nD τ) arg2 fullShare x ∗ owns (c : Thread nD τ) arg4 fullShare (k1_pay3 x a)) -∗ K ⟨⟩))
      ⊢ wp frame (wpE (defs₀ (F := F)) Variants.none c none) E (cc1__hist_kernel i arg2 harg2 arg3 harg3 arg4 harg4) K := by
  simp only [cc1__hist_kernel_eq_skeleton]; unfold cc1__hist_kernel_skel
  simp only [k1_part1_eq_skeleton]; unfold k1_part1_skel
  unfold owns
  iintro ⟨⟨%f2, %hf2, H2⟩, ⟨%f4, %hf4, H4⟩, Hk⟩
  obtain rfl := harg2.eq_unread hf2; obtain rfl := harg4.eq_unread hf4
  sl_exec (disch := first | exact hf | exact hl)
  sl_step
  iapply Hk
  have hz3 : (![0, 0, 0] : Fin S24x16x16.rank → Nat) = fun _ => 0 := by funext j; fin_cases j <;> rfl
  have hz2 : (![0, 0] : Fin S24x4096.rank → Nat) = fun _ => 0 := by funext j; fin_cases j <;> rfl
  isplitl [H2]
  · iexists _; isplitr; · ipureintro; exact harg2.read_unread _
    iexact H2
  iexists _; isplitr; swap; · iexact H4
  ipureintro
  -- the scratch was stored whole once: it reads that payload, computed from the whole input block and the whole
  -- scratch as they were
  sl_unfold_words
  refine (read_writes_cons_unit_zero (S := S24x16x16) _ _ hz3 _ _ _).trans ?_
  simp only [View.readAt_eq_ld, harg2.read_unread, harg4.read_unread, View.ld_unit_zero (S := S24x4096) hz2,
    View.ld_unit_zero (S := S24x16x16) hz3]

set_option maxHeartbeats 1000000 in
/-- LAST, NOT FIRST: the scratch ends at `a` plus this block's counts, and the output block, whatever it held, at the
    scaled re-laid counts of that. -/
theorem body1_last (c : Dev nD) (i : grid1.Coords)
    (arg2 : Memref sig .tc .vmem S24x4096 .f32) (harg2 : arg2.IsWhole) (arg3 : Memref sig .tc .vmem S24x256 .f32) (harg3 : arg3.IsWhole)
    (arg4 : Memref sig .tc .vmem S24x16x16 .f32) (harg4 : arg4.IsWhole) (hf : ¬ first1 i) (hl : last1 i)
    (x : Vec F S24x4096 .f32) (a : Vec F S24x16x16 .f32) (E : Set ℕ) (K : PUnit → sProp 𝕄) :
    iprop(owns (c : Thread nD τ) arg2 fullShare x ∗ owns (c : Thread nD τ) arg4 fullShare a ∗ (∃ d, owns (c : Thread nD τ) arg3 fullShare d)
        ∗ (iprop(owns (c : Thread nD τ) arg2 fullShare x ∗ owns (c : Thread nD τ) arg4 fullShare (k1_pay3 x a)
              ∗ owns (c : Thread nD τ) arg3 fullShare (k1_pay1 (k1_pay3 x a))) -∗ K ⟨⟩))
      ⊢ wp frame (wpE (defs₀ (F := F)) Variants.none c none) E (cc1__hist_kernel i arg2 harg2 arg3 harg3 arg4 harg4) K := by
  simp only [cc1__hist_kernel_eq_skeleton]; unfold cc1__hist_kernel_skel
  simp only [k1_part1_eq_skeleton]; unfold k1_part1_skel
  unfold owns
  iintro ⟨⟨%f2, %hf2, H2⟩, ⟨%f4, %hf4, H4⟩, ⟨%d, %f3, %hf3, H3⟩, Hk⟩
  obtain rfl := harg2.eq_unread hf2; obtain rfl := harg4.eq_unread hf4; obtain rfl := harg3.eq_unread hf3
  sl_exec (disch := first | exact hf | exact hl)
  sl_step
  iapply Hk
  have hz3 : (![0, 0, 0] : Fin S24x16x16.rank → Nat) = fun _ => 0 := by funext j; fin_cases j <;> rfl
  have hz2 : (![0, 0] : Fin S24x4096.rank → Nat) = fun _ => 0 := by funext j; fin_cases j <;> rfl
  have hz2' : (![0, 0] : Fin S24x256.rank → Nat) = fun _ => 0 := by funext j; fin_cases j <;> rfl
  isplitl [H2]
  · iexists _; isplitr; · ipureintro; exact harg2.read_unread _
    iexact H2
  isplitl [H4]
  · iexists _; isplitr; swap; · iexact H4
    ipureintro
    -- the scratch, stored whole once, reads that payload
    sl_unfold_words
    refine (read_writes_cons_unit_zero (S := S24x16x16) _ _ hz3 _ _ _).trans ?_
    simp only [View.readAt_eq_ld, harg2.read_unread, harg4.read_unread, View.ld_unit_zero (S := S24x4096) hz2,
      View.ld_unit_zero (S := S24x16x16) hz3]
  iexists _; isplitr; swap; · iexact H3
  ipureintro
  -- the output block, stored whole once, reads its payload: the scaled re-laid counts of what the scratch was
  -- loaded at after its store, that is of the store's payload
  sl_unfold_words
  refine (read_writes_cons_unit_zero (S := S24x256) _ _ hz2' _ _ _).trans ?_
  refine congrArg k1_pay1 ?_
  refine (View.readCov_unit_zero (S := S24x16x16) arg4.view hz3 _ _).trans ?_
  simp only [View.readAt_eq_ld, harg2.read_unread, harg4.read_unread, View.ld_unit_zero (S := S24x4096) hz2,
    View.ld_unit_zero (S := S24x16x16) hz3]

end Cert.Kernel.Hand

end
-- ==== Proof.KBInv1.lean ====
/-
  What the launch hands pallas_call 1's region besides its windows: the core's scoped buffers that are not that call's
  staging buffers, each whole at some contents, and the generator register.  One of them is the call's scratch
  (the last of the list); the region's invariant names its contents point by point, so the bundle is opened here, once, into
  "the scratch owned at some contents" beside the rest, and closed again.
-/
import proofs.«154098_j40140764348889_1_alg».proof.Proof.Gen.Kernel.Launch
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch as a whole memref. -/
abbrev scM1 : Memref sig .tc .vmem S24x16x16 .f32 := Memref.whole cc1_scratch0

/-- The core's scoped buffers other than this region's staging buffers and scratch, each whole at some contents. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- Everything of the launch's invariant but the scratch: the other scoped buffers at anything, the generator register. -/
def rest1 (c : Dev nD) : sProp 𝕄 := iprop(otherScoped1 (F := F) c ∗ (∃ r, prngReg c r))

/-- What the launch hands the region is the scratch owned at some contents beside that rest, -/
theorem PhiA1_open (c : Dev nD) :
    (Pipeline.ΦA spec1 c : sProp 𝕄) ⊢ iprop((∃ d, owns (c : Thread nD τ) scM1 fullShare d) ∗ rest1 (F := F) c) := by
  unfold Pipeline.ΦA rest1 otherScoped1; rw [scopedRest1_eq]; simp only [scM1, owns_whole]
  iintro ⟨⟨H1, H2, H3, H4, H5, HS⟩, Hg⟩
  isplitl [HS]; · iexact HS
  isplitl [H1 H2 H3 H4 H5]
  · isplitl [H1]; · iexact H1
    isplitl [H2]; · iexact H2
    isplitl [H3]; · iexact H3
    isplitl [H4]; · iexact H4
    iexact H5
  iexact Hg

/-- and conversely. -/
theorem PhiA1_close (c : Dev nD) :
    iprop((∃ d, owns (c : Thread nD τ) scM1 fullShare d) ∗ rest1 (F := F) c) ⊢ (Pipeline.ΦA spec1 c : sProp 𝕄) := by
  unfold Pipeline.ΦA rest1 otherScoped1; rw [scopedRest1_eq]; simp only [scM1, owns_whole]
  iintro ⟨HS, ⟨H1, H2, H3, H4, H5⟩, Hg⟩
  isplitl [HS H1 H2 H3 H4 H5]
  · isplitl [H1]; · iexact H1
    isplitl [H2]; · iexact H2
    isplitl [H3]; · iexact H3
    isplitl [H4]; · iexact H4
    isplitl [H5]; · iexact H5
    iexact HS
  iexact Hg

end Cert.Kernel.Hand

end
-- ==== Proof.KBRegion1.lean ====
/-
  The second pallas_call as a pipeline region, at any float instance: its proof data and its body obligation.

  The grid is 4 × 64, walked in row-major order, so point `t` is row tile `t / 64` and pixel block `k = t % 64`.  The scratch
  after point `t` holds the counts accumulated since the row tile's first block (`accAt1`): at a first block the block's
  counts over a cleared scratch, otherwise the block's counts added to what the point before left.  The input window's
  buffer holds the input's block; the output window's buffer is written only at a last block (`k = 63`), with the scaled
  re-laid counts of the scratch, and is written back to its array only there.  The region's invariant before a point is
  "the scratch at what the point before left" (anything before the first point), beside the other scoped buffers at
  anything and the generator register.
-/
import proofs.«154098_j40140764348889_1_alg».proof.Proof.KBBody1
import proofs.«154098_j40140764348889_1_alg».proof.Proof.KBInv1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered, per core.
variable (V : (c : Dev nD) → (b : Ref sig .tc) → Buf (Elt F) ((c : Thread nD τ).loc b))

/-! ## Blocks, memrefs, schedule facts -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current buffer holds the input's block at every point (it is fetched at every point), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it, and the scratch. -/
abbrev ms1_0 (t : Fin cfg1.N) : Memref sig .tc .vmem S24x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S24x256 .f32 := win1_1.stage (cfg1.slots t 1)
abbrev hs1_1 (t : Fin cfg1.N) : (ms1_1 t).IsWhole := hstage1_1 ((cfg1.slots t 1).cast nbuf1_1)

/-- The input window is never idle. -/
theorem liveAt1_0 : ∀ t : Fin cfg1.N, cfg1.idle 0 (grid1.coords t) = false := by decide +kernel
/-- Away from a last block the output window is idle and is not written back; -/
theorem idleAt1_1 : ∀ t : Fin cfg1.N, ¬ last1 (grid1.coords t) → cfg1.idle 1 (grid1.coords t) = true := by decide +kernel
theorem noFlush1_1 : ∀ t : Fin cfg1.N, ¬ last1 (grid1.coords t) → (cfg1.win 1).flush t = false := by decide +kernel
/-- at a last block it is live. -/
theorem liveAt1_1 : ∀ t : Fin cfg1.N, last1 (grid1.coords t) → cfg1.idle 1 (grid1.coords t) = false := by decide +kernel

/-! ## The scratch, point by point -/

/-- What the scratch holds after point `n`. -/
def accAt1 (c : Dev nD) : (n : ℕ) → n < cfg1.N → Vec F S24x16x16 .f32
  | 0, hn => k1_pay3 (iblk1 V c 0 ⟨0, hn⟩) (k1_pay2 (F := F))
  | n + 1, hn =>
    if (n + 1) % 64 = 0 then k1_pay3 (iblk1 V c 0 ⟨n + 1, hn⟩) (k1_pay2 (F := F))
    else k1_pay3 (iblk1 V c 0 ⟨n + 1, hn⟩) (accAt1 c n (Nat.lt_of_succ_lt hn))

/-- At a first block: the block's counts over a cleared scratch. -/
theorem accAt1_first (c : Dev nD) (t : Fin cfg1.N) (h : t.val % 64 = 0) :
    accAt1 V c t.val t.isLt = k1_pay3 (iblk1 V c 0 t) (k1_pay2 (F := F)) := by
  obtain ⟨n, hn⟩ := t
  cases n with
  | zero => rfl
  | succ n => exact if_pos h

/-- Elsewhere: the block's counts added to what the point before left. -/
theorem accAt1_next (c : Dev nD) (t : Fin cfg1.N) (h : ¬ t.val % 64 = 0) :
    accAt1 V c t.val t.isLt = k1_pay3 (iblk1 V c 0 t) (accAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The invariant before position `n`: what the launch hands over before the first point; afterwards the scratch at
    what the point before left. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ rest1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt1 V c n hn) ∗ rest1 (F := F) c) := rfl
theorem PhiS1_pos (c : Dev nD) (n : ℕ) (h : n ≤ cfg1.N) (hz : n ≠ 0) :
    PhiS1 V c n h = iprop(owns (c : Thread nD τ) scM1 fullShare (accAt1 V c (n - 1) (by omega)) ∗ rest1 (F := F) c) := by
  cases n with
  | zero => exact absurd rfl hz
  | succ n => rfl

/-! ## The proof data -/

/-- The region's proof data on core `c`: the arrays as found; after the body the input's buffer at its block and the
    output's at the scaled counts of the scratch; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay1 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = k1_pay1 (accAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4000000 in
/-- The body at any point, by the block's place in its row tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  by_cases hl : t.val % 64 = 63
  · -- a last block: never a first one
    have hf : ¬ t.val % 64 = 0 := by omega
    have hz : t.val ≠ 0 := by intro h; rw [h] at hl; omega
    rw [show (dat1 V c).leavesExact 1 t = owns (c : Thread nD τ) (ms1_1 t) fullShare ((dat1 V c).after 1 t) from by
      unfold Dat.leavesExact; rw [liveAt1_1 t ((hlast1 t).mpr hl)], after1_1]
    rw [accAt1_next V c t hf, PhiS1_castSucc V c t, PhiS1_pos V c _ _ hz]
    iintro ⟨⟨HS, Hr⟩, Ho, ⟨%d0, H0⟩, ⟨%d1, H1⟩⟩
    iapply (body1_last c (grid1.coords t) _ _ _ _ _ _ (fun h => hf ((hfirst1 t).mp h)) ((hlast1 t).mpr hl) (iblk1 V c 0 t) _ Set.univ _)
    isplitl [H0]; · iexact H0
    isplitl [HS]; · iexact HS
    isplitl [H1]; · iexists _; iexact H1
    iintro ⟨H0, HS, H1⟩
    isplitl [HS Hr]
    · isplitl [HS]; · iexact HS
      iexact Hr
    isplitl [Ho]; · iexact Ho
    isplitl [H0]; · iexact H0
    iexact H1
  · rw [Dat.leavesExact_idle (dat1 V c) 1 t (idleAt1_1 t (fun h => hl ((hlast1 t).mp h))) (noFlush1_1 t (fun h => hl ((hlast1 t).mp h)))]
    by_cases hf : t.val % 64 = 0
    · -- a first block
      rw [accAt1_first V c t hf]
      by_cases hz : t.val = 0
      · rw [PhiS1_castSucc V c t, PhiS1_zero V c _ _ hz]
        iintro ⟨HP, Ho, ⟨%d0, H0⟩, ⟨%d1, H1⟩⟩
        ihave HP2 := PhiA1_open (F := F) c $$ HP
        icases HP2 with ⟨HS, Hr⟩
        iapply (body1_first c (grid1.coords t) _ _ _ _ _ _ ((hfirst1 t).mpr hf) (fun h => hl ((hlast1 t).mp h)) (iblk1 V c 0 t) Set.univ _)
        isplitl [H0]; · iexact H0
        isplitl [HS]; · iexact HS
        iintro ⟨H0, HS⟩
        isplitl [HS Hr]
        · isplitl [HS]; · iexact HS
          iexact Hr
        isplitl [Ho]; · iexact Ho
        isplitl [H0]; · iexact H0
        iexists _; iexact H1
      · rw [PhiS1_castSucc V c t, PhiS1_pos V c _ _ hz]
        iintro ⟨⟨HS, Hr⟩, Ho, ⟨%d0, H0⟩, ⟨%d1, H1⟩⟩
        iapply (body1_first c (grid1.coords t) _ _ _ _ _ _ ((hfirst1 t).mpr hf) (fun h => hl ((hlast1 t).mp h)) (iblk1 V c 0 t) Set.univ _)
        isplitl [H0]; · iexact H0
        isplitl [HS]; · iexists _; iexact HS
        iintro ⟨H0, HS⟩
        isplitl [HS Hr]
        · isplitl [HS]; · iexact HS
          iexact Hr
        isplitl [Ho]; · iexact Ho
        isplitl [H0]; · iexact H0
        iexists _; iexact H1
    · -- neither
      have hz : t.val ≠ 0 := by intro h; rw [h] at hf; exact hf (Nat.zero_mod _)
      rw [accAt1_next V c t hf, PhiS1_castSucc V c t, PhiS1_pos V c _ _ hz]
      iintro ⟨⟨HS, Hr⟩, Ho, ⟨%d0, H0⟩, ⟨%d1, H1⟩⟩
      iapply (body1_mid c (grid1.coords t) _ _ _ _ _ _ (fun h => hf ((hfirst1 t).mp h)) (fun h => hl ((hlast1 t).mp h)) (iblk1 V c 0 t) _ Set.univ _)
      isplitl [H0]; · iexact H0
      isplitl [HS]; · iexact HS
      iintro ⟨H0, HS⟩
      isplitl [HS Hr]
      · isplitl [HS]; · iexact HS
        iexact Hr
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the launch's back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega)]
  iintro ⟨HS, Hr⟩
  iapply (PhiA1_close (F := F) c)
  isplitl [HS]; · iexists _; iexact HS
  iexact Hr

end Cert.Kernel.Hand

end
-- ==== Proof.KBVals.lean ====
/-
  The contents of the word-level program's unscoped buffers at each boundary between @main's five items (a host stretch,
  the first pallas_call, a host stretch, the second pallas_call, a host stretch), per core and as named valuations: the
  launch memory; each host stretch's operations applied; each region's arrays at what its pipeline leaves in them, the
  other buffers untouched.  And the two pipelines' proof data, each at its region's entry contents.
-/
import proofs.«154098_j40140764348889_1_alg».proof.Proof.KBRegion0
import proofs.«154098_j40140764348889_1_alg».proof.Proof.KBRegion1
import Idealize.ShloMosaic.Lib.Pipeline.Frame
import Idealize.ShloMosaic.Lib.Pipeline.FrameSuffix
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the first host stretch (the first region's entry). -/
abbrev W1 : Dev nD → Valuation τ sig (Elt F) := fun c => StableHlo.after hostOps0 (W0 m c)
/-- The same read at the TensorCore's references (what the first region's proof data take). -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the last host stretch: what @main returns from. -/
abbrev W5 : Dev nD → Valuation τ sig (Elt F) := fun c => StableHlo.after hostOps2 (W4 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-! ## The proof data family -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end Cert.Kernel.Hand

end
-- ==== Proof.KBRun.lean ====
/-
  @main of the word-level program, run from the launch to the return, at any float instance.

  @main is five items: a reshape of the first input; the first pallas_call; seven host operations (a reshape of its
  output, that input's batch mean, a reshape of the second input); the second pallas_call; twelve host operations (the
  second batch mean, the difference, the absolute value, the mean).  Between items every unscoped buffer of the core is
  held whole at a NAMED valuation: the launch memory (`W0`), then each host stretch's operations applied
  (`StableHlo.after`), then each region's arrays at what the pipeline leaves in them (`Dat.arrAt … N`, the others
  untouched).  Each region is entered from the valuation before it and left at the one after it; beside the buffers
  ride the generator register and the core owing nothing.  The run ends with every unscoped buffer at `W5`.
-/
import proofs.«154098_j40140764348889_1_alg».proof.Proof.KBVals
import proofs.«154098_j40140764348889_1_alg».proof.Proof.Gen.Kernel.Regions
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What rides beside the buffers, and the host stretches as segments -/

/-- No core owes another anything: no pair of cores is assigned a level. -/
abbrev noPairs : GSem nD τ sig → Finset Unit := fun _ => ∅
abbrev lvl0 : GSem nD τ sig → Unit → ℕ := fun _ _ => 0

/-- Beside the buffers, through every item: the core's generator register at some state, and the core owing nothing. -/
abbrev beside (c : Dev nD) : sProp 𝕄 :=
  iprop((∃ r, prngReg c r) ∗ ∃ W, owes (c : Thread nD τ) (0 : CellTallies nD τ sig Unit) W)

/-- Every unscoped buffer of core `c` held whole at the valuation `W`, beside the register and the empty debt. -/
abbrev stateAt (W : Dev nD → Valuation τ sig (Elt F)) (c : Dev nD) : sProp 𝕄 :=
  iprop(StableHlo.held (c : Thread nD τ) (Pipeline.ucRefs τ sig) (W c) ∗ beside (F := F) c)

/-- A stretch of host operations as a segment: from the unscoped buffers at `W` it runs to them at the operations
    applied to `W`; the register and the empty debt are not touched. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (beside (F := F))

/-- What the run ends holding, the empty debt aside: every unscoped buffer at the last valuation, the register. -/
abbrev atEnd (c : Dev nD) : sProp 𝕄 :=
  iprop(StableHlo.held (c : Thread nD τ) (Pipeline.ucRefs τ sig) (W5 m c) ∗ ∃ r, prngReg c r)

/-! ## The empty debt, in and out of a pipeline's proof data -/

/-- A core owing nothing, whatever pairs its waits have recorded, is what proof data that owe nothing before point `t`
    and bound the recorded pairs by nothing hold there. -/
theorem owesAt_of_nothing {cfg : Cfg sig Λ₀} {c : Dev nD} (dat : Dat τ (Elt F) Unit ℕ (UR sig nD τ) ℕ cfg c)
    (t : Fin (cfg.N + 1)) (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr, Set.univ_union]
  iintro ⟨%W, H⟩
  iexists W
  isplitr
  · ipureintro; exact Set.subset_univ _
  · iexact H

/-- Conversely such proof data give the core owing nothing back, the bound forgotten. -/
theorem nothing_of_owesAt {cfg : Cfg sig Λ₀} {c : Dev nD} (dat : Dat τ (Elt F) Unit ℕ (UR sig nD τ) ℕ cfg c)
    (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, H⟩
  iexists W
  iexact H

/-! ## The first region -/

-- a library lemma stated over the pinned configuration `pin pcfgs adm 0` meets the printed `cfg0` only when
-- unification may unfold plain definitions in a metavariable's type
set_option backward.isDefEq.respectTransparency.types false in
/-- Entering the first region: the unscoped buffers at `W1` are its two arrays as found beside the other unscoped
    buffers; there is no prefetched table; the empty debt is the proof data's first; the register goes in. -/
theorem enter0 (c : Dev nD) :
    iprop(stateAt (W1 m) c ∗ Pipeline.ownSems0 (fun k : PEmpty => k.elim) c ∗ levAts noPairs lvl0)
      ⊢ |={Set.univ}=> iprop((pdats m 0 c).arrays ((pdats m 0 c).arrAt · 0)
          ∗ Pipeline.prefHeld (pcfgs (F := F) 0).pre c (fun _ => fullShare) (adm (F := F) 0).1
          ∗ (pdats m 0 c).owesAt () 0 ∗ (∃ r, prngReg c r)
          ∗ Pipeline.unscopedRest (Ix := Unit) (Name := ℕ) (U := UR sig nD τ) (Lvl := ℕ) spec0 c (V1 m c)) := by
  have hbufs : (StableHlo.held (c : Thread nD τ) (Pipeline.ucRefs τ sig) (W1 m c) : sProp 𝕄)
      ⊢ iprop((pdats m 0 c).arrays ((pdats m 0 c).arrAt · 0) ∗ Pipeline.unscopedRest spec0 c (V1 m c)) := by
    rw [← Pipeline.unscopedBufs_held c (W1 m c)]
    exact Pipeline.arrays_of_unscopedBufs (p := 0) (pcfgs (F := F)) adm (pdats m) launch0.win launch0.arr_whole c
      ((pdats m 0 c).share_full fun _ => rfl) (V1 m c) fun _ => rfl
  have hnotab : (BI.emp : sProp 𝕄) ⊢ Pipeline.prefHeld (pcfgs (F := F) 0).pre c (fun _ => fullShare) (adm (F := F) 0).1 := by
    unfold Pipeline.prefHeld
    rw [show (Finset.univ : Finset (Fin (pcfgs (F := F) 0).pre.K)) = ∅ from rfl, BI.bigSep_empty]
  iintro ⟨⟨Hbuf, Hreg, Hdebt⟩, -, -⟩
  imodintro
  ihave Hsplit := hbufs $$ Hbuf
  icases Hsplit with ⟨Harr, Hrest⟩
  isplitl [Harr]; · iexact Harr
  isplitr
  · iapply hnotab; iempintro
  isplitl [Hdebt]
  · iapply (owesAt_of_nothing (pdats m 0 c) 0 rfl rfl); iexact Hdebt
  isplitl [Hreg]; · iexact Hreg
  iexact Hrest

-- as above
set_option backward.isDefEq.respectTransparency.types false in
/-- Leaving the first region: its arrays at what the pipeline leaves, beside the other unscoped buffers as entered,
    are the unscoped buffers at `W2`; the proof data's last debt is the empty one; the register comes out. -/
theorem leave0 (c : Dev nD) :
    iprop((pdats m 0 c).arrays ((pdats m 0 c).arrAt · cfg0.N) ∗ (pdats m 0 c).owesAt () (Fin.last cfg0.N)
        ∗ (∃ r, prngReg c r)
        ∗ Pipeline.unscopedRest (Ix := Unit) (Name := ℕ) (U := UR sig nD τ) (Lvl := ℕ) spec0 c (V1 m c))
      ⊢ |={Set.univ}=> stateAt (W2 m) c := by
  have hbufs : iprop((pdats m 0 c).arrays ((pdats m 0 c).arrAt · cfg0.N) ∗ Pipeline.unscopedRest spec0 c (V1 m c))
      ⊢ (StableHlo.held (c : Thread nD τ) (Pipeline.ucRefs τ sig) (W2 m c) : sProp 𝕄) := by
    rw [← Pipeline.unscopedBufs_held c (W2 m c)]
    exact Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl) (V1 m c) (V2 m c)
      ((pdats m 0 c).arrAt · cfg0.N) (fun w => (W2_arr m c w).symm)
      (fun b hb => W2_of_ne m c b fun w e => hb (Finset.mem_image.mpr ⟨w, Finset.mem_univ _, e⟩))
  iintro ⟨Harr, Hdebt, Hreg, Hrest⟩
  imodintro
  isplitl [Harr Hrest]
  · iapply hbufs
    isplitl [Harr]; · iexact Harr
    iexact Hrest
  isplitl [Hreg]; · iexact Hreg
  iapply (nothing_of_owesAt (pdats m 0 c) (Fin.last cfg0.N) rfl); iexact Hdebt

-- as above
set_option backward.isDefEq.respectTransparency.types false in
/-- THE FIRST REGION as a segment: entered from the unscoped buffers at `W1`, left with them at `W2`.  Into the
    pipeline's invariant goes the register beside the scoped buffers no window stages (what the class's invariant is,
    hence the region's own before its first point); out of it the same come back, the scratch's contents forgotten.
    The kernel has no semaphore of its own and the body owes nothing. -/
def reg0 : Pipeline.RegionSeg (pcfgs (F := F)) adm (pdats m) () defs₀ Variants.none noPairs lvl0 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noPairs lvl0 0 fun _ _ => rfl
  pre := stateAt (W1 m)
  post := stateAt (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry := enter0 m
  hin c := by
    rw [show (pdats m 0 c).Φ 0 = (dat0 (V1 m) c).Φ 0 from rfl]
    refine BIBase.Entails.trans ?_ (hin0 (V1 m) c)
    unfold Pipeline.ΦA
    iintro ⟨Hreg, -, Hscoped⟩
    isplitl [Hscoped]; · iexact Hscoped
    iexact Hreg
  hout c := by
    rw [Pipeline.ownSems0_none, show (pdats m 0 c).Φ (Fin.last _) = (dat0 (V1 m) c).Φ (Fin.last cfg0.N) from rfl]
    refine (hout0 (V1 m) c).trans ?_
    unfold Pipeline.ΦA
    iintro ⟨Hscoped, Hreg⟩
    isplitl [Hreg]; · iexact Hreg
    isplitr; · iempintro
    iexact Hscoped
  hexit := leave0 m

/-! ## The second region -/

-- a library lemma stated over the pinned configuration `pin pcfgs adm 1` meets the printed `cfg1` only when
-- unification may unfold plain definitions in a metavariable's type
set_option backward.isDefEq.respectTransparency.types false in
/-- Entering the second region: the unscoped buffers at `W3` are its two arrays as found beside the other unscoped
    buffers; there is no prefetched table; the empty debt is the proof data's first; the register goes in. -/
theorem enter1 (c : Dev nD) :
    iprop(stateAt (W3 m) c ∗ Pipeline.ownSems0 (fun k : PEmpty => k.elim) c ∗ levAts noPairs lvl0)
      ⊢ |={Set.univ}=> iprop((pdats m 1 c).arrays ((pdats m 1 c).arrAt · 0)
          ∗ Pipeline.prefHeld (pcfgs (F := F) 1).pre c (fun _ => fullShare) (adm (F := F) 1).1
          ∗ (pdats m 1 c).owesAt () 0 ∗ (∃ r, prngReg c r)
          ∗ Pipeline.unscopedRest (Ix := Unit) (Name := ℕ) (U := UR sig nD τ) (Lvl := ℕ) spec1 c (V3 m c)) := by
  have hbufs : (StableHlo.held (c : Thread nD τ) (Pipeline.ucRefs τ sig) (W3 m c) : sProp 𝕄)
      ⊢ iprop((pdats m 1 c).arrays ((pdats m 1 c).arrAt · 0) ∗ Pipeline.unscopedRest spec1 c (V3 m c)) := by
    rw [← Pipeline.unscopedBufs_held c (W3 m c)]
    exact Pipeline.arrays_of_unscopedBufs (p := 1) (pcfgs (F := F)) adm (pdats m) launch1.win launch1.arr_whole c
      ((pdats m 1 c).share_full fun _ => rfl) (V3 m c) fun _ => rfl
  have hnotab : (BI.emp : sProp 𝕄) ⊢ Pipeline.prefHeld (pcfgs (F := F) 1).pre c (fun _ => fullShare) (adm (F := F) 1).1 := by
    unfold Pipeline.prefHeld
    rw [show (Finset.univ : Finset (Fin (pcfgs (F := F) 1).pre.K)) = ∅ from rfl, BI.bigSep_empty]
  iintro ⟨⟨Hbuf, Hreg, Hdebt⟩, -, -⟩
  imodintro
  ihave Hsplit := hbufs $$ Hbuf
  icases Hsplit with ⟨Harr, Hrest⟩
  isplitl [Harr]; · iexact Harr
  isplitr
  · iapply hnotab; iempintro
  isplitl [Hdebt]
  · iapply (owesAt_of_nothing (pdats m 1 c) 0 rfl rfl); iexact Hdebt
  isplitl [Hreg]; · iexact Hreg
  iexact Hrest

-- as above
set_option backward.isDefEq.respectTransparency.types false in
/-- Leaving the second region: its arrays at what the pipeline leaves, beside the other unscoped buffers as entered,
    are the unscoped buffers at `W4`; the proof data's last debt is the empty one; the register comes out. -/
theorem leave1 (c : Dev nD) :
    iprop((pdats m 1 c).arrays ((pdats m 1 c).arrAt · cfg1.N) ∗ (pdats m 1 c).owesAt () (Fin.last cfg1.N)
        ∗ (∃ r, prngReg c r)
        ∗ Pipeline.unscopedRest (Ix := Unit) (Name := ℕ) (U := UR sig nD τ) (Lvl := ℕ) spec1 c (V3 m c))
      ⊢ |={Set.univ}=> stateAt (W4 m) c := by
  have hbufs : iprop((pdats m 1 c).arrays ((pdats m 1 c).arrAt · cfg1.N) ∗ Pipeline.unscopedRest spec1 c (V3 m c))
      ⊢ (StableHlo.held (c : Thread nD τ) (Pipeline.ucRefs τ sig) (W4 m c) : sProp 𝕄) := by
    rw [← Pipeline.unscopedBufs_held c (W4 m c)]
    exact Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl) (V3 m c) (V4 m c)
      ((pdats m 1 c).arrAt · cfg1.N) (fun w => (W4_arr m c w).symm)
      (fun b hb => W4_of_ne m c b fun w e => hb (Finset.mem_image.mpr ⟨w, Finset.mem_univ _, e⟩))
  iintro ⟨Harr, Hdebt, Hreg, Hrest⟩
  imodintro
  isplitl [Harr Hrest]
  · iapply hbufs
    isplitl [Harr]; · iexact Harr
    iexact Hrest
  isplitl [Hreg]; · iexact Hreg
  iapply (nothing_of_owesAt (pdats m 1 c) (Fin.last cfg1.N) rfl); iexact Hdebt

-- as above
set_option backward.isDefEq.respectTransparency.types false in
/-- THE SECOND REGION as a segment: entered from the unscoped buffers at `W3`, left with them at `W4`.  Into the
    pipeline's invariant goes the register beside the scoped buffers no window stages (what the class's invariant is,
    hence the region's own before its first point); out of it the same come back, the scratch's contents forgotten.
    The kernel has no semaphore of its own and the body owes nothing. -/
def reg1 : Pipeline.RegionSeg (pcfgs (F := F)) adm (pdats m) () defs₀ Variants.none noPairs lvl0 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noPairs lvl0 1 fun _ _ => rfl
  pre := stateAt (W3 m)
  post := stateAt (W4 m)
  X c := iprop(∃ r, prngReg c r)
  Y c := iprop(∃ r, prngReg c r)
  Z c := Pipeline.unscopedRest (Ix := Unit) (Name := ℕ) (U := UR sig nD τ) (Lvl := ℕ) spec1 c (V3 m c)
  hentry := enter1 m
  hin c := by
    rw [show (pdats m 1 c).Φ 0 = (dat1 (V3 m) c).Φ 0 from rfl]
    refine BIBase.Entails.trans ?_ (hin1 (V3 m) c)
    unfold Pipeline.ΦA
    iintro ⟨Hreg, -, Hscoped⟩
    isplitl [Hscoped]; · iexact Hscoped
    iexact Hreg
  hout c := by
    rw [Pipeline.ownSems0_none, show (pdats m 1 c).Φ (Fin.last _) = (dat1 (V3 m) c).Φ (Fin.last cfg1.N) from rfl]
    refine (hout1 (V3 m) c).trans ?_
    unfold Pipeline.ΦA
    iintro ⟨Hscoped, Hreg⟩
    isplitl [Hreg]; · iexact Hreg
    isplitr; · iempintro
    iexact Hscoped
  hexit := leave1 m

/-! ## @main as five items, the launch and the return -/

/-- @main's five items in order, each host stretch from the valuation its boundary names. -/
abbrev items : List (Pipeline.Seg (pcfgs (F := F)) adm (pdats m) () defs₀ Variants.none noPairs lvl0) :=
  [ .host (hostItem hostOps0 hostOps0_sub hostOps0_fresh (W0 m)),
    .region (reg0 m),
    .host (hostItem hostOps1 hostOps1_sub hostOps1_fresh (W2 m)),
    .region (reg1 m),
    .host (hostItem hostOps2 hostOps2_sub hostOps2_fresh (W4 m)) ]

/-- @main is the run of its items: each host item's program is its stretch's operations in sequence. -/
theorem main_items (c : Dev nD) : main (F := F) c = Pipeline.Seg.run (items m) :=
  main_segs adm (pdats m) () Variants.none noPairs lvl0 _ _ _ (reg0 m) (reg1 m) rfl rfl rfl c

/-- What the launch deals a core makes the first state: its unscoped buffers at the launch memory, the register at
    its launch state, the empty debt with nothing recorded. -/
theorem launch_state (c : Dev nD) :
    iprop(iprop(unscopedBufs c (fun b => m ((c : Thread nD τ).loc b)) ∗ unscopedSems0 c
        ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))
        ∗ levAts noPairs lvl0)
      ⊢ |={Set.univ}=> stateAt (W0 m) c := by
  rw [show unscopedBufs c (fun b => m ((c : Thread nD τ).loc b))
      = StableHlo.held (c : Thread nD τ) (Pipeline.ucRefs τ sig) (W0 m c) from Pipeline.unscopedBufs_held c (W0 m c)]
  iintro ⟨⟨Hbuf, -, Hdebt, -, Hreg, -⟩, -⟩
  imodintro
  isplitl [Hbuf]; · iexact Hbuf
  isplitl [Hreg]
  · iexists (ρ c); iexact Hreg
  iexists ∅; iexact Hdebt

/-- What the run ends holding, read against a final state: its memory has every unscoped buffer at `W5`. -/
theorem read_end (c : Dev nD) (s' : Phys nD τ sig (Elt F)) :
    iprop(atEnd m c ∗ SI s')
      ⊢ |={Set.univ}=> iprop(⌜∀ b ∈ Pipeline.ucRefs τ sig, s'.mem.mem (((c : Thread nD τ)).1, b) = W5 m c b⌝ ∗ SI s') := by
  unfold atEnd StableHlo.held
  iintro ⟨⟨Hbuf, -⟩, Hsi⟩
  imodintro
  iapply (pointsTo_read_all (Pipeline.ucRefs τ sig) (fun b => (((c : Thread nD τ)).1, b)) (W5 m c) s')
  isplitl [Hbuf]; · iexact Hbuf
  iexact Hsi

/-- The last item's state is what the run ends holding, the empty debt set apart. -/
theorem end_state (c : Dev nD) :
    stateAt (W5 m) c ⊢ iprop(atEnd m c ∗ ∃ W, owes (c : Thread nD τ) (0 : CellTallies nD τ sig Unit) W) := by
  iintro ⟨Hbuf, Hreg, Hdebt⟩
  isplitl [Hbuf Hreg]
  · isplitl [Hbuf]; · iexact Hbuf
    iexact Hreg
  · iexact Hdebt

/-! ## The run -/

-- the launch theorem's implicit arguments are found by unifying its conclusion with this one, which takes
-- unfolding plain definitions in a metavariable's type
set_option backward.isDefEq.respectTransparency.types false in
/-- THE RUN.  From any memory with zero counters every weakly fair execution of @main terminates, nothing faulting,
    with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ Variants.none noPairs lvl0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own; no ghost resource is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := stateAt (W0 m)) (Tₙ := atEnd m)
    (hch := ⟨fun _ => .rfl, fun _ => .rfl, fun _ => .rfl, fun _ => .rfl, fun _ => .rfl, end_state m⟩)
    (hinit := Pipeline.initEach noPairs lvl0 (launch_state m ρ))
    (QY := fun c s => ∀ b ∈ Pipeline.ucRefs τ sig, s.mem (((c : Thread nD τ)).1, b) = W5 m c b)
    (hfin := read_end m)
    (hQ := fun s h c => h c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A reference no item writes and no region's window reads through holds at the end what it held at launch: each
    host stretch leaves alone what its operations do not write, each region what is none of its arrays. -/
theorem W5_of_untouched (c : Dev nD) (r : Ref sig .tc) (h0 : r ∉ hostOps0_W) (h1 : r ∉ hostOps1_W) (h2 : r ∉ hostOps2_W)
    (hr0 : ∀ w, Pipeline.arrRef spec0 w ≠ r) (hr1 : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hr1
    _ = W2 m c (Proc.devRef .tc r) := StableHlo.after_of_writes_sub hostOps1 _ hostOps1_writes h1
    _ = W1 m c (Proc.devRef .tc r) := W2_of_ne m c r hr0
    _ = W0 m c (Proc.devRef .tc r) := StableHlo.after_of_writes_sub hostOps0 _ hostOps0_writes h0
    _ = m ((c : Thread nD τ).loc r) := rfl

/-- No item writes the first argument, -/
theorem W5_main_arg0 (c : Dev nD) : W5 m c (Proc.devRef .tc main_arg0) = m ((c : Thread nD τ).loc main_arg0) :=
  W5_of_untouched m c main_arg0 (by decide) (by decide) (by decide) (by decide) (by decide)
/-- nor the second. -/
theorem W5_main_arg1 (c : Dev nD) : W5 m c (Proc.devRef .tc main_arg1) = m ((c : Thread nD τ).loc main_arg1) :=
  W5_of_untouched m c main_arg1 (by decide) (by decide) (by decide) (by decide) (by decide)

/-- THE FRAME, at any float instance: the run ends with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_all m ρ)

/-- THE RESULT: the run ends with the result buffer at the last boundary's contents, the arguments as launched. -/
theorem run_result : θ_run defs (onTc (τ := τ) (main (F := F))) ⟨m, fun _ => 0, ρ⟩ (fun r => ∀ c : Dev nD,
      r.2.mem ((c.tc : Thread nD τ).loc main_v15) = W5 m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v15 (by decide)),
     (h c _ (mem_uc main_arg0 (by decide))).trans (W5_main_arg0 m c),
     (h c _ (mem_uc main_arg1 (by decide))).trans (W5_main_arg1 m c)⟩) (run_all m ρ)

end Cert.Kernel.Hand

end
-- ==== Proof.KIBody0.lean ====
/-
  The histogram kernel's body at one grid point (first pallas_call), on whole staging memrefs, at any float instance.

  A grid point `(i, k)` handles rows `24·i … 24·i+23` and pixels `4096·k … 4096·k+4095`.  The scratch `arg4` carries the
  running radix-16 counts of those rows.  At the first `k` the body clears it before accumulating; at every `k` it adds
  this block's counts (`k0_pay3`: the block's one-hot matmul added to what the scratch held); at the last `k` it also
  writes the scaled, re-laid counts (`k0_pay1`) to the output block `arg3`.  Three cases, by the two conditions.
-/
import proofs.«154098_j40140764348889_1_alg».proof.Proof.Gen.KernelIdeal.Launch
import proofs.«154098_j40140764348889_1_alg».proof.Proof.Gen.KernelIdeal.Skeleton
import proofs.«154098_j40140764348889_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

/-- "This is the first block along the pixel axis" (`k = 0`), as the body tests it. -/
abbrev first0 (i : grid0.Coords) : Prop :=
  (Scalar.cmpi .ne (Scalar.extui (Scalar.cmpi .eq (BitVec.ofNat 32 (i 1).val) 0#32)) 0#32) = 1#1
/-- "This is the last block along the pixel axis" (`k = 63`), as the body tests it. -/
abbrev last0 (i : grid0.Coords) : Prop := k0_cond2 i = 1#1

/-- In the linear order of the 4 × 64 grid the first blocks are the multiples of 64, -/
theorem hfirst0 : ∀ t : Fin cfg0.N, first0 (grid0.coords t) ↔ t.val % 64 = 0 :=
  (by decide +kernel : ∀ t : Fin grid0.N, first0 (grid0.coords t) ↔ t.val % 64 = 0)
/-- and the last blocks those ≡ 63. -/
theorem hlast0 : ∀ t : Fin cfg0.N, last0 (grid0.coords t) ↔ t.val % 64 = 63 :=
  (by decide +kernel : ∀ t : Fin grid0.N, last0 (grid0.coords t) ↔ t.val % 64 = 63)

/-- A store through the whole-shape rectangle at zero offsets, made last, read back through the view: its payload,
    whatever the buffer held and whatever was stored before. -/
private theorem read_writes_cons_unit_zero {Val : EltTy → Type} [∀ e, Nonempty (Val e)] {sg : RefSig} {κ : Kind} {sp : Space}
    {S : Shape} {e : EltTy} (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

set_option maxHeartbeats 1000000 in
/-- FIRST, NOT LAST: whatever the scratch held, it ends at this block's counts over a cleared scratch; the input
    block is read only; the output block is not touched. -/
theorem body0_first (c : Dev nD) (i : grid0.Coords)
    (arg2 : Memref sig .tc .vmem S24x4096 .f32) (harg2 : arg2.IsWhole) (arg3 : Memref sig .tc .vmem S24x256 .f32) (harg3 : arg3.IsWhole)
    (arg4 : Memref sig .tc .vmem S24x16x16 .f32) (harg4 : arg4.IsWhole) (hf : first0 i) (hl : ¬ last0 i)
    (x : Vec F S24x4096 .f32) (E : Set ℕ) (K : PUnit → sProp 𝕄) :
    iprop(owns (c : Thread nD τ) arg2 fullShare x ∗ (∃ d, owns (c : Thread nD τ) arg4 fullShare d)
        ∗ (iprop(owns (c : Thread nD τ) arg2 fullShare x ∗ owns (c : Thread nD τ) arg4 fullShare (k0_pay3 x (k0_pay2 (F := F)))) -∗ K ⟨⟩))
      ⊢ wp frame (wpE (defs₀ (F := F)) Variants.none c none) E (cc0__hist_kernel i arg2 harg2 arg3 harg3 arg4 harg4) K := by
  simp only [cc0__hist_kernel_eq_skeleton]; unfold cc0__hist_kernel_skel
  simp only [k0_part1_eq_skeleton]; unfold k0_part1_skel
  unfold owns
  iintro ⟨⟨%f2, %hf2, H2⟩, ⟨%d, %f4, %hf4, H4⟩, Hk⟩
  obtain rfl := harg2.eq_unread hf2; obtain rfl := harg4.eq_unread hf4
  sl_exec (disch := first | exact hf | exact hl)
  sl_step
  iapply Hk
  have hz3 : (![0, 0, 0] : Fin S24x16x16.rank → Nat) = fun _ => 0 := by funext j; fin_cases j <;> rfl
  have hz2 : (![0, 0] : Fin S24x4096.rank → Nat) = fun _ => 0 := by funext j; fin_cases j <;> rfl
  isplitl [H2]
  · iexists _; isplitr; · ipureintro; exact harg2.read_unread _
    iexact H2
  iexists _; isplitr; swap; · iexact H4
  ipureintro
  -- the scratch was stored whole twice: the later store's payload is what it reads, and the load between the two
  -- stores read the earlier store's payload, the cleared counts
  sl_unfold_words
  refine (read_writes_cons_unit_zero (S := S24x16x16) _ _ hz3 _ _ _).trans ?_
  simp only [View.readAt_eq_ld, harg2.read_unread, View.ld_unit_zero (S := S24x4096) hz2,
    View.readCov_unit_zero (S := S24x16x16) _ hz3]

set_option maxHeartbeats 1000000 in
/-- NEITHER FIRST NOR LAST: the scratch, at `a`, ends at `a` plus this block's counts. -/
theorem body0_mid (c : Dev nD) (i : grid0.Coords)
    (arg2 : Memref sig .tc .vmem S24x4096 .f32) (harg2 : arg2.IsWhole) (arg3 : Memref sig .tc .vmem S24x256 .f32) (harg3 : arg3.IsWhole)
    (arg4 : Memref sig .tc .vmem S24x16x16 .f32) (harg4 : arg4.IsWhole) (hf : ¬ first0 i) (hl : ¬ last0 i)
    (x : Vec F S24x4096 .f32) (a : Vec F S24x16x16 .f32) (E : Set ℕ) (K : PUnit → sProp 𝕄) :
    iprop(owns (c : Thread nD τ) arg2 fullShare x ∗ owns (c : Thread nD τ) arg4 fullShare a
        ∗ (iprop(owns (c : Thread nD τ) arg2 fullShare x ∗ owns (c : Thread nD τ) arg4 fullShare (k0_pay3 x a)) -∗ K ⟨⟩))
      ⊢ wp frame (wpE (defs₀ (F := F)) Variants.none c none) E (cc0__hist_kernel i arg2 harg2 arg3 harg3 arg4 harg4) K := by
  simp only [cc0__hist_kernel_eq_skeleton]; unfold cc0__hist_kernel_skel
  simp only [k0_part1_eq_skeleton]; unfold k0_part1_skel
  unfold owns
  iintro ⟨⟨%f2, %hf2, H2⟩, ⟨%f4, %hf4, H4⟩, Hk⟩
  obtain rfl := harg2.eq_unread hf2; obtain rfl := harg4.eq_unread hf4
  sl_exec (disch := first | exact hf | exact hl)
  sl_step
  iapply Hk
  have hz3 : (![0, 0, 0] : Fin S24x16x16.rank → Nat) = fun _ => 0 := by funext j; fin_cases j <;> rfl
  have hz2 : (![0, 0] : Fin S24x4096.rank → Nat) = fun _ => 0 := by funext j; fin_cases j <;> rfl
  isplitl [H2]
  · iexists _; isplitr; · ipureintro; exact harg2.read_unread _
    iexact H2
  iexists _; isplitr; swap; · iexact H4
  ipureintro
  -- the scratch was stored whole once: it reads that payload, computed from the whole input block and the whole
  -- scratch as they were
  sl_unfold_words
  refine (read_writes_cons_unit_zero (S := S24x16x16) _ _ hz3 _ _ _).trans ?_
  simp only [View.readAt_eq_ld, harg2.read_unread, harg4.read_unread, View.ld_unit_zero (S := S24x4096) hz2,
    View.ld_unit_zero (S := S24x16x16) hz3]

set_option maxHeartbeats 1000000 in
/-- LAST, NOT FIRST: the scratch ends at `a` plus this block's counts, and the output block, whatever it held, at the
    scaled re-laid counts of that. -/
theorem body0_last (c : Dev nD) (i : grid0.Coords)
    (arg2 : Memref sig .tc .vmem S24x4096 .f32) (harg2 : arg2.IsWhole) (arg3 : Memref sig .tc .vmem S24x256 .f32) (harg3 : arg3.IsWhole)
    (arg4 : Memref sig .tc .vmem S24x16x16 .f32) (harg4 : arg4.IsWhole) (hf : ¬ first0 i) (hl : last0 i)
    (x : Vec F S24x4096 .f32) (a : Vec F S24x16x16 .f32) (E : Set ℕ) (K : PUnit → sProp 𝕄) :
    iprop(owns (c : Thread nD τ) arg2 fullShare x ∗ owns (c : Thread nD τ) arg4 fullShare a ∗ (∃ d, owns (c : Thread nD τ) arg3 fullShare d)
        ∗ (iprop(owns (c : Thread nD τ) arg2 fullShare x ∗ owns (c : Thread nD τ) arg4 fullShare (k0_pay3 x a)
              ∗ owns (c : Thread nD τ) arg3 fullShare (k0_pay1 (k0_pay3 x a))) -∗ K ⟨⟩))
      ⊢ wp frame (wpE (defs₀ (F := F)) Variants.none c none) E (cc0__hist_kernel i arg2 harg2 arg3 harg3 arg4 harg4) K := by
  simp only [cc0__hist_kernel_eq_skeleton]; unfold cc0__hist_kernel_skel
  simp only [k0_part1_eq_skeleton]; unfold k0_part1_skel
  unfold owns
  iintro ⟨⟨%f2, %hf2, H2⟩, ⟨%f4, %hf4, H4⟩, ⟨%d, %f3, %hf3, H3⟩, Hk⟩
  obtain rfl := harg2.eq_unread hf2; obtain rfl := harg4.eq_unread hf4; obtain rfl := harg3.eq_unread hf3
  sl_exec (disch := first | exact hf | exact hl)
  sl_step
  iapply Hk
  have hz3 : (![0, 0, 0] : Fin S24x16x16.rank → Nat) = fun _ => 0 := by funext j; fin_cases j <;> rfl
  have hz2 : (![0, 0] : Fin S24x4096.rank → Nat) = fun _ => 0 := by funext j; fin_cases j <;> rfl
  have hz2' : (![0, 0] : Fin S24x256.rank → Nat) = fun _ => 0 := by funext j; fin_cases j <;> rfl
  isplitl [H2]
  · iexists _; isplitr; · ipureintro; exact harg2.read_unread _
    iexact H2
  isplitl [H4]
  · iexists _; isplitr; swap; · iexact H4
    ipureintro
    -- the scratch, stored whole once, reads that payload
    sl_unfold_words
    refine (read_writes_cons_unit_zero (S := S24x16x16) _ _ hz3 _ _ _).trans ?_
    simp only [View.readAt_eq_ld, harg2.read_unread, harg4.read_unread, View.ld_unit_zero (S := S24x4096) hz2,
      View.ld_unit_zero (S := S24x16x16) hz3]
  iexists _; isplitr; swap; · iexact H3
  ipureintro
  -- the output block, stored whole once, reads its payload: the scaled re-laid counts of what the scratch was
  -- loaded at after its store, that is of the store's payload
  sl_unfold_words
  refine (read_writes_cons_unit_zero (S := S24x256) _ _ hz2' _ _ _).trans ?_
  refine congrArg k0_pay1 ?_
  refine (View.readCov_unit_zero (S := S24x16x16) arg4.view hz3 _ _).trans ?_
  simp only [View.readAt_eq_ld, harg2.read_unread, harg4.read_unread, View.ld_unit_zero (S := S24x4096) hz2,
    View.ld_unit_zero (S := S24x16x16) hz3]

end Cert.KernelIdeal.Hand

end
-- ==== Proof.KIInv0.lean ====
/-
  What the launch hands pallas_call 0's region besides its windows: the core's scoped buffers that are not that call's
  staging buffers, each whole at some contents, and the generator register.  One of them is the call's scratch
  (the first of the list); the region's invariant names its contents point by point, so the bundle is opened here, once, into
  "the scratch owned at some contents" beside the rest, and closed again.
-/
import proofs.«154098_j40140764348889_1_alg».proof.Proof.Gen.KernelIdeal.Launch
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch as a whole memref. -/
abbrev scM0 : Memref sig .tc .vmem S24x16x16 .f32 := Memref.whole cc0_scratch0

/-- The core's scoped buffers other than this region's staging buffers and scratch, each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

/-- Everything of the launch's invariant but the scratch: the other scoped buffers at anything, the generator register. -/
def rest0 (c : Dev nD) : sProp 𝕄 := iprop(otherScoped0 (F := F) c ∗ (∃ r, prngReg c r))

/-- What the launch hands the region is the scratch owned at some contents beside that rest, -/
theorem PhiA0_open (c : Dev nD) :
    (Pipeline.ΦA spec0 c : sProp 𝕄) ⊢ iprop((∃ d, owns (c : Thread nD τ) scM0 fullShare d) ∗ rest0 (F := F) c) := by
  unfold Pipeline.ΦA rest0 otherScoped0; rw [scopedRest0_eq]; simp only [scM0, owns_whole]
  iintro ⟨⟨HS, H1, H2, H3, H4, H5⟩, Hg⟩
  isplitl [HS]; · iexact HS
  isplitl [H1 H2 H3 H4 H5]
  · isplitl [H1]; · iexact H1
    isplitl [H2]; · iexact H2
    isplitl [H3]; · iexact H3
    isplitl [H4]; · iexact H4
    iexact H5
  iexact Hg

/-- and conversely. -/
theorem PhiA0_close (c : Dev nD) :
    iprop((∃ d, owns (c : Thread nD τ) scM0 fullShare d) ∗ rest0 (F := F) c) ⊢ (Pipeline.ΦA spec0 c : sProp 𝕄) := by
  unfold Pipeline.ΦA rest0 otherScoped0; rw [scopedRest0_eq]; simp only [scM0, owns_whole]
  iintro ⟨HS, ⟨H1, H2, H3, H4, H5⟩, Hg⟩
  isplitl [HS H1 H2 H3 H4 H5]
  · isplitl [HS]; · iexact HS
    isplitl [H1]; · iexact H1
    isplitl [H2]; · iexact H2
    isplitl [H3]; · iexact H3
    isplitl [H4]; · iexact H4
    iexact H5
  iexact Hg

end Cert.KernelIdeal.Hand

end
-- ==== Proof.KIRegion0.lean ====
/-
  The first pallas_call as a pipeline region, at any float instance: its proof data and its body obligation.

  The grid is 4 × 64, walked in row-major order, so point `t` is row tile `t / 64` and pixel block `k = t % 64`.  The scratch
  after point `t` holds the counts accumulated since the row tile's first block (`accAt0`): at a first block the block's
  counts over a cleared scratch, otherwise the block's counts added to what the point before left.  The input window's
  buffer holds the input's block; the output window's buffer is written only at a last block (`k = 63`), with the scaled
  re-laid counts of the scratch, and is written back to its array only there.  The region's invariant before a point is
  "the scratch at what the point before left" (anything before the first point), beside the other scoped buffers at
  anything and the generator register.
-/
import proofs.«154098_j40140764348889_1_alg».proof.Proof.KIBody0
import proofs.«154098_j40140764348889_1_alg».proof.Proof.KIInv0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered, per core.
variable (V : (c : Dev nD) → (b : Ref sig .tc) → Buf (Elt F) ((c : Thread nD τ).loc b))

/-! ## Blocks, memrefs, schedule facts -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds the input's block at every point (it is fetched at every point), for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it, and the scratch. -/
abbrev ms0_0 (t : Fin cfg0.N) : Memref sig .tc .vmem S24x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S24x256 .f32 := win0_1.stage (cfg0.slots t 1)
abbrev hs0_1 (t : Fin cfg0.N) : (ms0_1 t).IsWhole := hstage0_1 ((cfg0.slots t 1).cast nbuf0_1)

/-- The input window is never idle. -/
theorem liveAt0_0 : ∀ t : Fin cfg0.N, cfg0.idle 0 (grid0.coords t) = false := by decide +kernel
/-- Away from a last block the output window is idle and is not written back; -/
theorem idleAt0_1 : ∀ t : Fin cfg0.N, ¬ last0 (grid0.coords t) → cfg0.idle 1 (grid0.coords t) = true := by decide +kernel
theorem noFlush0_1 : ∀ t : Fin cfg0.N, ¬ last0 (grid0.coords t) → (cfg0.win 1).flush t = false := by decide +kernel
/-- at a last block it is live. -/
theorem liveAt0_1 : ∀ t : Fin cfg0.N, last0 (grid0.coords t) → cfg0.idle 1 (grid0.coords t) = false := by decide +kernel

/-! ## The scratch, point by point -/

/-- What the scratch holds after point `n`. -/
def accAt0 (c : Dev nD) : (n : ℕ) → n < cfg0.N → Vec F S24x16x16 .f32
  | 0, hn => k0_pay3 (iblk0 V c 0 ⟨0, hn⟩) (k0_pay2 (F := F))
  | n + 1, hn =>
    if (n + 1) % 64 = 0 then k0_pay3 (iblk0 V c 0 ⟨n + 1, hn⟩) (k0_pay2 (F := F))
    else k0_pay3 (iblk0 V c 0 ⟨n + 1, hn⟩) (accAt0 c n (Nat.lt_of_succ_lt hn))

/-- At a first block: the block's counts over a cleared scratch. -/
theorem accAt0_first (c : Dev nD) (t : Fin cfg0.N) (h : t.val % 64 = 0) :
    accAt0 V c t.val t.isLt = k0_pay3 (iblk0 V c 0 t) (k0_pay2 (F := F)) := by
  obtain ⟨n, hn⟩ := t
  cases n with
  | zero => rfl
  | succ n => exact if_pos h

/-- Elsewhere: the block's counts added to what the point before left. -/
theorem accAt0_next (c : Dev nD) (t : Fin cfg0.N) (h : ¬ t.val % 64 = 0) :
    accAt0 V c t.val t.isLt = k0_pay3 (iblk0 V c 0 t) (accAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The invariant before position `n`: what the launch hands over before the first point; afterwards the scratch at
    what the point before left. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ rest0 (F := F) c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (accAt0 V c n hn) ∗ rest0 (F := F) c) := rfl
theorem PhiS0_pos (c : Dev nD) (n : ℕ) (h : n ≤ cfg0.N) (hz : n ≠ 0) :
    PhiS0 V c n h = iprop(owns (c : Thread nD τ) scM0 fullShare (accAt0 V c (n - 1) (by omega)) ∗ rest0 (F := F) c) := by
  cases n with
  | zero => exact absurd rfl hz
  | succ n => rfl

/-! ## The proof data -/

/-- The region's proof data on core `c`: the arrays as found; after the body the input's buffer at its block and the
    output's at the scaled counts of the scratch; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = k0_pay1 (accAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point, by the block's place in its row tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  by_cases hl : t.val % 64 = 63
  · -- a last block: never a first one
    have hf : ¬ t.val % 64 = 0 := by omega
    have hz : t.val ≠ 0 := by intro h; rw [h] at hl; omega
    rw [show (dat0 V c).leavesExact 1 t = owns (c : Thread nD τ) (ms0_1 t) fullShare ((dat0 V c).after 1 t) from by
      unfold Dat.leavesExact; rw [liveAt0_1 t ((hlast0 t).mpr hl)], after0_1]
    rw [accAt0_next V c t hf, PhiS0_castSucc V c t, PhiS0_pos V c _ _ hz]
    iintro ⟨⟨HS, Hr⟩, Ho, ⟨%d0, H0⟩, ⟨%d1, H1⟩⟩
    iapply (body0_last c (grid0.coords t) _ _ _ _ _ _ (fun h => hf ((hfirst0 t).mp h)) ((hlast0 t).mpr hl) (iblk0 V c 0 t) _ Set.univ _)
    isplitl [H0]; · iexact H0
    isplitl [HS]; · iexact HS
    isplitl [H1]; · iexists _; iexact H1
    iintro ⟨H0, HS, H1⟩
    isplitl [HS Hr]
    · isplitl [HS]; · iexact HS
      iexact Hr
    isplitl [Ho]; · iexact Ho
    isplitl [H0]; · iexact H0
    iexact H1
  · rw [Dat.leavesExact_idle (dat0 V c) 1 t (idleAt0_1 t (fun h => hl ((hlast0 t).mp h))) (noFlush0_1 t (fun h => hl ((hlast0 t).mp h)))]
    by_cases hf : t.val % 64 = 0
    · -- a first block
      rw [accAt0_first V c t hf]
      by_cases hz : t.val = 0
      · rw [PhiS0_castSucc V c t, PhiS0_zero V c _ _ hz]
        iintro ⟨HP, Ho, ⟨%d0, H0⟩, ⟨%d1, H1⟩⟩
        ihave HP2 := PhiA0_open (F := F) c $$ HP
        icases HP2 with ⟨HS, Hr⟩
        iapply (body0_first c (grid0.coords t) _ _ _ _ _ _ ((hfirst0 t).mpr hf) (fun h => hl ((hlast0 t).mp h)) (iblk0 V c 0 t) Set.univ _)
        isplitl [H0]; · iexact H0
        isplitl [HS]; · iexact HS
        iintro ⟨H0, HS⟩
        isplitl [HS Hr]
        · isplitl [HS]; · iexact HS
          iexact Hr
        isplitl [Ho]; · iexact Ho
        isplitl [H0]; · iexact H0
        iexists _; iexact H1
      · rw [PhiS0_castSucc V c t, PhiS0_pos V c _ _ hz]
        iintro ⟨⟨HS, Hr⟩, Ho, ⟨%d0, H0⟩, ⟨%d1, H1⟩⟩
        iapply (body0_first c (grid0.coords t) _ _ _ _ _ _ ((hfirst0 t).mpr hf) (fun h => hl ((hlast0 t).mp h)) (iblk0 V c 0 t) Set.univ _)
        isplitl [H0]; · iexact H0
        isplitl [HS]; · iexists _; iexact HS
        iintro ⟨H0, HS⟩
        isplitl [HS Hr]
        · isplitl [HS]; · iexact HS
          iexact Hr
        isplitl [Ho]; · iexact Ho
        isplitl [H0]; · iexact H0
        iexists _; iexact H1
    · -- neither
      have hz : t.val ≠ 0 := by intro h; rw [h] at hf; exact hf (Nat.zero_mod _)
      rw [accAt0_next V c t hf, PhiS0_castSucc V c t, PhiS0_pos V c _ _ hz]
      iintro ⟨⟨HS, Hr⟩, Ho, ⟨%d0, H0⟩, ⟨%d1, H1⟩⟩
      iapply (body0_mid c (grid0.coords t) _ _ _ _ _ _ (fun h => hf ((hfirst0 t).mp h)) (fun h => hl ((hlast0 t).mp h)) (iblk0 V c 0 t) _ Set.univ _)
      isplitl [H0]; · iexact H0
      isplitl [HS]; · iexact HS
      iintro ⟨H0, HS⟩
      isplitl [HS Hr]
      · isplitl [HS]; · iexact HS
        iexact Hr
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the launch's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega)]
  iintro ⟨HS, Hr⟩
  iapply (PhiA0_close (F := F) c)
  isplitl [HS]; · iexists _; iexact HS
  iexact Hr

end Cert.KernelIdeal.Hand

end
-- ==== Proof.KIBody1.lean ====
/-
  The histogram kernel's body at one grid point (second pallas_call), on whole staging memrefs, at any float instance.

  A grid point `(i, k)` handles rows `24·i … 24·i+23` and pixels `4096·k … 4096·k+4095`.  The scratch `arg4` carries the
  running radix-16 counts of those rows.  At the first `k` the body clears it before accumulating; at every `k` it adds
  this block's counts (`k1_pay3`: the block's one-hot matmul added to what the scratch held); at the last `k` it also
  writes the scaled, re-laid counts (`k1_pay1`) to the output block `arg3`.  Three cases, by the two conditions.
-/
import proofs.«154098_j40140764348889_1_alg».proof.Proof.Gen.KernelIdeal.Launch
import proofs.«154098_j40140764348889_1_alg».proof.Proof.Gen.KernelIdeal.Skeleton
import proofs.«154098_j40140764348889_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

/-- "This is the first block along the pixel axis" (`k = 0`), as the body tests it. -/
abbrev first1 (i : grid1.Coords) : Prop :=
  (Scalar.cmpi .ne (Scalar.extui (Scalar.cmpi .eq (BitVec.ofNat 32 (i 1).val) 0#32)) 0#32) = 1#1
/-- "This is the last block along the pixel axis" (`k = 63`), as the body tests it. -/
abbrev last1 (i : grid1.Coords) : Prop := k1_cond2 i = 1#1

/-- In the linear order of the 4 × 64 grid the first blocks are the multiples of 64, -/
theorem hfirst1 : ∀ t : Fin cfg1.N, first1 (grid1.coords t) ↔ t.val % 64 = 0 :=
  (by decide +kernel : ∀ t : Fin grid1.N, first1 (grid1.coords t) ↔ t.val % 64 = 0)
/-- and the last blocks those ≡ 63. -/
theorem hlast1 : ∀ t : Fin cfg1.N, last1 (grid1.coords t) ↔ t.val % 64 = 63 :=
  (by decide +kernel : ∀ t : Fin grid1.N, last1 (grid1.coords t) ↔ t.val % 64 = 63)

/-- A store through the whole-shape rectangle at zero offsets, made last, read back through the view: its payload,
    whatever the buffer held and whatever was stored before. -/
private theorem read_writes_cons_unit_zero {Val : EltTy → Type} [∀ e, Nonempty (Val e)] {sg : RefSig} {κ : Kind} {sp : Space}
    {S : Shape} {e : EltTy} (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

set_option maxHeartbeats 1000000 in
/-- FIRST, NOT LAST: whatever the scratch held, it ends at this block's counts over a cleared scratch; the input
    block is read only; the output block is not touched. -/
theorem body1_first (c : Dev nD) (i : grid1.Coords)
    (arg2 : Memref sig .tc .vmem S24x4096 .f32) (harg2 : arg2.IsWhole) (arg3 : Memref sig .tc .vmem S24x256 .f32) (harg3 : arg3.IsWhole)
    (arg4 : Memref sig .tc .vmem S24x16x16 .f32) (harg4 : arg4.IsWhole) (hf : first1 i) (hl : ¬ last1 i)
    (x : Vec F S24x4096 .f32) (E : Set ℕ) (K : PUnit → sProp 𝕄) :
    iprop(owns (c : Thread nD τ) arg2 fullShare x ∗ (∃ d, owns (c : Thread nD τ) arg4 fullShare d)
        ∗ (iprop(owns (c : Thread nD τ) arg2 fullShare x ∗ owns (c : Thread nD τ) arg4 fullShare (k1_pay3 x (k1_pay2 (F := F)))) -∗ K ⟨⟩))
      ⊢ wp frame (wpE (defs₀ (F := F)) Variants.none c none) E (cc1__hist_kernel i arg2 harg2 arg3 harg3 arg4 harg4) K := by
  simp only [cc1__hist_kernel_eq_skeleton]; unfold cc1__hist_kernel_skel
  simp only [k1_part1_eq_skeleton]; unfold k1_part1_skel
  unfold owns
  iintro ⟨⟨%f2, %hf2, H2⟩, ⟨%d, %f4, %hf4, H4⟩, Hk⟩
  obtain rfl := harg2.eq_unread hf2; obtain rfl := harg4.eq_unread hf4
  sl_exec (disch := first | exact hf | exact hl)
  sl_step
  iapply Hk
  have hz3 : (![0, 0, 0] : Fin S24x16x16.rank → Nat) = fun _ => 0 := by funext j; fin_cases j <;> rfl
  have hz2 : (![0, 0] : Fin S24x4096.rank → Nat) = fun _ => 0 := by funext j; fin_cases j <;> rfl
  isplitl [H2]
  · iexists _; isplitr; · ipureintro; exact harg2.read_unread _
    iexact H2
  iexists _; isplitr; swap; · iexact H4
  ipureintro
  -- the scratch was stored whole twice: the later store's payload is what it reads, and the load between the two
  -- stores read the earlier store's payload, the cleared counts
  sl_unfold_words
  refine (read_writes_cons_unit_zero (S := S24x16x16) _ _ hz3 _ _ _).trans ?_
  simp only [View.readAt_eq_ld, harg2.read_unread, View.ld_unit_zero (S := S24x4096) hz2,
    View.readCov_unit_zero (S := S24x16x16) _ hz3]

set_option maxHeartbeats 1000000 in
/-- NEITHER FIRST NOR LAST: the scratch, at `a`, ends at `a` plus this block's counts. -/
theorem body1_mid (c : Dev nD) (i : grid1.Coords)
    (arg2 : Memref sig .tc .vmem S24x4096 .f32) (harg2 : arg2.IsWhole) (arg3 : Memref sig .tc .vmem S24x256 .f32) (harg3 : arg3.IsWhole)
    (arg4 : Memref sig .tc .vmem S24x16x16 .f32) (harg4 : arg4.IsWhole) (hf : ¬ first1 i) (hl : ¬ last1 i)
    (x : Vec F S24x4096 .f32) (a : Vec F S24x16x16 .f32) (E : Set ℕ) (K : PUnit → sProp 𝕄) :
    iprop(owns (c : Thread nD τ) arg2 fullShare x ∗ owns (c : Thread nD τ) arg4 fullShare a
        ∗ (iprop(owns (c : Thread nD τ) arg2 fullShare x ∗ owns (c : Thread nD τ) arg4 fullShare (k1_pay3 x a)) -∗ K ⟨⟩))
      ⊢ wp frame (wpE (defs₀ (F := F)) Variants.none c none) E (cc1__hist_kernel i arg2 harg2 arg3 harg3 arg4 harg4) K := by
  simp only [cc1__hist_kernel_eq_skeleton]; unfold cc1__hist_kernel_skel
  simp only [k1_part1_eq_skeleton]; unfold k1_part1_skel
  unfold owns
  iintro ⟨⟨%f2, %hf2, H2⟩, ⟨%f4, %hf4, H4⟩, Hk⟩
  obtain rfl := harg2.eq_unread hf2; obtain rfl := harg4.eq_unread hf4
  sl_exec (disch := first | exact hf | exact hl)
  sl_step
  iapply Hk
  have hz3 : (![0, 0, 0] : Fin S24x16x16.rank → Nat) = fun _ => 0 := by funext j; fin_cases j <;> rfl
  have hz2 : (![0, 0] : Fin S24x4096.rank → Nat) = fun _ => 0 := by funext j; fin_cases j <;> rfl
  isplitl [H2]
  · iexists _; isplitr; · ipureintro; exact harg2.read_unread _
    iexact H2
  iexists _; isplitr; swap; · iexact H4
  ipureintro
  -- the scratch was stored whole once: it reads that payload, computed from the whole input block and the whole
  -- scratch as they were
  sl_unfold_words
  refine (read_writes_cons_unit_zero (S := S24x16x16) _ _ hz3 _ _ _).trans ?_
  simp only [View.readAt_eq_ld, harg2.read_unread, harg4.read_unread, View.ld_unit_zero (S := S24x4096) hz2,
    View.ld_unit_zero (S := S24x16x16) hz3]

set_option maxHeartbeats 1000000 in
/-- LAST, NOT FIRST: the scratch ends at `a` plus this block's counts, and the output block, whatever it held, at the
    scaled re-laid counts of that. -/
theorem body1_last (c : Dev nD) (i : grid1.Coords)
    (arg2 : Memref sig .tc .vmem S24x4096 .f32) (harg2 : arg2.IsWhole) (arg3 : Memref sig .tc .vmem S24x256 .f32) (harg3 : arg3.IsWhole)
    (arg4 : Memref sig .tc .vmem S24x16x16 .f32) (harg4 : arg4.IsWhole) (hf : ¬ first1 i) (hl : last1 i)
    (x : Vec F S24x4096 .f32) (a : Vec F S24x16x16 .f32) (E : Set ℕ) (K : PUnit → sProp 𝕄) :
    iprop(owns (c : Thread nD τ) arg2 fullShare x ∗ owns (c : Thread nD τ) arg4 fullShare a ∗ (∃ d, owns (c : Thread nD τ) arg3 fullShare d)
        ∗ (iprop(owns (c : Thread nD τ) arg2 fullShare x ∗ owns (c : Thread nD τ) arg4 fullShare (k1_pay3 x a)
              ∗ owns (c : Thread nD τ) arg3 fullShare (k1_pay1 (k1_pay3 x a))) -∗ K ⟨⟩))
      ⊢ wp frame (wpE (defs₀ (F := F)) Variants.none c none) E (cc1__hist_kernel i arg2 harg2 arg3 harg3 arg4 harg4) K := by
  simp only [cc1__hist_kernel_eq_skeleton]; unfold cc1__hist_kernel_skel
  simp only [k1_part1_eq_skeleton]; unfold k1_part1_skel
  unfold owns
  iintro ⟨⟨%f2, %hf2, H2⟩, ⟨%f4, %hf4, H4⟩, ⟨%d, %f3, %hf3, H3⟩, Hk⟩
  obtain rfl := harg2.eq_unread hf2; obtain rfl := harg4.eq_unread hf4; obtain rfl := harg3.eq_unread hf3
  sl_exec (disch := first | exact hf | exact hl)
  sl_step
  iapply Hk
  have hz3 : (![0, 0, 0] : Fin S24x16x16.rank → Nat) = fun _ => 0 := by funext j; fin_cases j <;> rfl
  have hz2 : (![0, 0] : Fin S24x4096.rank → Nat) = fun _ => 0 := by funext j; fin_cases j <;> rfl
  have hz2' : (![0, 0] : Fin S24x256.rank → Nat) = fun _ => 0 := by funext j; fin_cases j <;> rfl
  isplitl [H2]
  · iexists _; isplitr; · ipureintro; exact harg2.read_unread _
    iexact H2
  isplitl [H4]
  · iexists _; isplitr; swap; · iexact H4
    ipureintro
    -- the scratch, stored whole once, reads that payload
    sl_unfold_words
    refine (read_writes_cons_unit_zero (S := S24x16x16) _ _ hz3 _ _ _).trans ?_
    simp only [View.readAt_eq_ld, harg2.read_unread, harg4.read_unread, View.ld_unit_zero (S := S24x4096) hz2,
      View.ld_unit_zero (S := S24x16x16) hz3]
  iexists _; isplitr; swap; · iexact H3
  ipureintro
  -- the output block, stored whole once, reads its payload: the scaled re-laid counts of what the scratch was
  -- loaded at after its store, that is of the store's payload
  sl_unfold_words
  refine (read_writes_cons_unit_zero (S := S24x256) _ _ hz2' _ _ _).trans ?_
  refine congrArg k1_pay1 ?_
  refine (View.readCov_unit_zero (S := S24x16x16) arg4.view hz3 _ _).trans ?_
  simp only [View.readAt_eq_ld, harg2.read_unread, harg4.read_unread, View.ld_unit_zero (S := S24x4096) hz2,
    View.ld_unit_zero (S := S24x16x16) hz3]

end Cert.KernelIdeal.Hand

end
-- ==== Proof.KIInv1.lean ====
/-
  What the launch hands pallas_call 1's region besides its windows: the core's scoped buffers that are not that call's
  staging buffers, each whole at some contents, and the generator register.  One of them is the call's scratch
  (the last of the list); the region's invariant names its contents point by point, so the bundle is opened here, once, into
  "the scratch owned at some contents" beside the rest, and closed again.
-/
import proofs.«154098_j40140764348889_1_alg».proof.Proof.Gen.KernelIdeal.Launch
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch as a whole memref. -/
abbrev scM1 : Memref sig .tc .vmem S24x16x16 .f32 := Memref.whole cc1_scratch0

/-- The core's scoped buffers other than this region's staging buffers and scratch, each whole at some contents. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- Everything of the launch's invariant but the scratch: the other scoped buffers at anything, the generator register. -/
def rest1 (c : Dev nD) : sProp 𝕄 := iprop(otherScoped1 (F := F) c ∗ (∃ r, prngReg c r))

/-- What the launch hands the region is the scratch owned at some contents beside that rest, -/
theorem PhiA1_open (c : Dev nD) :
    (Pipeline.ΦA spec1 c : sProp 𝕄) ⊢ iprop((∃ d, owns (c : Thread nD τ) scM1 fullShare d) ∗ rest1 (F := F) c) := by
  unfold Pipeline.ΦA rest1 otherScoped1; rw [scopedRest1_eq]; simp only [scM1, owns_whole]
  iintro ⟨⟨H1, H2, H3, H4, H5, HS⟩, Hg⟩
  isplitl [HS]; · iexact HS
  isplitl [H1 H2 H3 H4 H5]
  · isplitl [H1]; · iexact H1
    isplitl [H2]; · iexact H2
    isplitl [H3]; · iexact H3
    isplitl [H4]; · iexact H4
    iexact H5
  iexact Hg

/-- and conversely. -/
theorem PhiA1_close (c : Dev nD) :
    iprop((∃ d, owns (c : Thread nD τ) scM1 fullShare d) ∗ rest1 (F := F) c) ⊢ (Pipeline.ΦA spec1 c : sProp 𝕄) := by
  unfold Pipeline.ΦA rest1 otherScoped1; rw [scopedRest1_eq]; simp only [scM1, owns_whole]
  iintro ⟨HS, ⟨H1, H2, H3, H4, H5⟩, Hg⟩
  isplitl [HS H1 H2 H3 H4 H5]
  · isplitl [H1]; · iexact H1
    isplitl [H2]; · iexact H2
    isplitl [H3]; · iexact H3
    isplitl [H4]; · iexact H4
    isplitl [H5]; · iexact H5
    iexact HS
  iexact Hg

end Cert.KernelIdeal.Hand

end
-- ==== Proof.KIRegion1.lean ====
/-
  The second pallas_call as a pipeline region, at any float instance: its proof data and its body obligation.

  The grid is 4 × 64, walked in row-major order, so point `t` is row tile `t / 64` and pixel block `k = t % 64`.  The scratch
  after point `t` holds the counts accumulated since the row tile's first block (`accAt1`): at a first block the block's
  counts over a cleared scratch, otherwise the block's counts added to what the point before left.  The input window's
  buffer holds the input's block; the output window's buffer is written only at a last block (`k = 63`), with the scaled
  re-laid counts of the scratch, and is written back to its array only there.  The region's invariant before a point is
  "the scratch at what the point before left" (anything before the first point), beside the other scoped buffers at
  anything and the generator register.
-/
import proofs.«154098_j40140764348889_1_alg».proof.Proof.KIBody1
import proofs.«154098_j40140764348889_1_alg».proof.Proof.KIInv1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered, per core.
variable (V : (c : Dev nD) → (b : Ref sig .tc) → Buf (Elt F) ((c : Thread nD τ).loc b))

/-! ## Blocks, memrefs, schedule facts -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current buffer holds the input's block at every point (it is fetched at every point), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it, and the scratch. -/
abbrev ms1_0 (t : Fin cfg1.N) : Memref sig .tc .vmem S24x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S24x256 .f32 := win1_1.stage (cfg1.slots t 1)
abbrev hs1_1 (t : Fin cfg1.N) : (ms1_1 t).IsWhole := hstage1_1 ((cfg1.slots t 1).cast nbuf1_1)

/-- The input window is never idle. -/
theorem liveAt1_0 : ∀ t : Fin cfg1.N, cfg1.idle 0 (grid1.coords t) = false := by decide +kernel
/-- Away from a last block the output window is idle and is not written back; -/
theorem idleAt1_1 : ∀ t : Fin cfg1.N, ¬ last1 (grid1.coords t) → cfg1.idle 1 (grid1.coords t) = true := by decide +kernel
theorem noFlush1_1 : ∀ t : Fin cfg1.N, ¬ last1 (grid1.coords t) → (cfg1.win 1).flush t = false := by decide +kernel
/-- at a last block it is live. -/
theorem liveAt1_1 : ∀ t : Fin cfg1.N, last1 (grid1.coords t) → cfg1.idle 1 (grid1.coords t) = false := by decide +kernel

/-! ## The scratch, point by point -/

/-- What the scratch holds after point `n`. -/
def accAt1 (c : Dev nD) : (n : ℕ) → n < cfg1.N → Vec F S24x16x16 .f32
  | 0, hn => k1_pay3 (iblk1 V c 0 ⟨0, hn⟩) (k1_pay2 (F := F))
  | n + 1, hn =>
    if (n + 1) % 64 = 0 then k1_pay3 (iblk1 V c 0 ⟨n + 1, hn⟩) (k1_pay2 (F := F))
    else k1_pay3 (iblk1 V c 0 ⟨n + 1, hn⟩) (accAt1 c n (Nat.lt_of_succ_lt hn))

/-- At a first block: the block's counts over a cleared scratch. -/
theorem accAt1_first (c : Dev nD) (t : Fin cfg1.N) (h : t.val % 64 = 0) :
    accAt1 V c t.val t.isLt = k1_pay3 (iblk1 V c 0 t) (k1_pay2 (F := F)) := by
  obtain ⟨n, hn⟩ := t
  cases n with
  | zero => rfl
  | succ n => exact if_pos h

/-- Elsewhere: the block's counts added to what the point before left. -/
theorem accAt1_next (c : Dev nD) (t : Fin cfg1.N) (h : ¬ t.val % 64 = 0) :
    accAt1 V c t.val t.isLt = k1_pay3 (iblk1 V c 0 t) (accAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The invariant before position `n`: what the launch hands over before the first point; afterwards the scratch at
    what the point before left. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ rest1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt1 V c n hn) ∗ rest1 (F := F) c) := rfl
theorem PhiS1_pos (c : Dev nD) (n : ℕ) (h : n ≤ cfg1.N) (hz : n ≠ 0) :
    PhiS1 V c n h = iprop(owns (c : Thread nD τ) scM1 fullShare (accAt1 V c (n - 1) (by omega)) ∗ rest1 (F := F) c) := by
  cases n with
  | zero => exact absurd rfl hz
  | succ n => rfl

/-! ## The proof data -/

/-- The region's proof data on core `c`: the arrays as found; after the body the input's buffer at its block and the
    output's at the scaled counts of the scratch; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay1 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = k1_pay1 (accAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4000000 in
/-- The body at any point, by the block's place in its row tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  by_cases hl : t.val % 64 = 63
  · -- a last block: never a first one
    have hf : ¬ t.val % 64 = 0 := by omega
    have hz : t.val ≠ 0 := by intro h; rw [h] at hl; omega
    rw [show (dat1 V c).leavesExact 1 t = owns (c : Thread nD τ) (ms1_1 t) fullShare ((dat1 V c).after 1 t) from by
      unfold Dat.leavesExact; rw [liveAt1_1 t ((hlast1 t).mpr hl)], after1_1]
    rw [accAt1_next V c t hf, PhiS1_castSucc V c t, PhiS1_pos V c _ _ hz]
    iintro ⟨⟨HS, Hr⟩, Ho, ⟨%d0, H0⟩, ⟨%d1, H1⟩⟩
    iapply (body1_last c (grid1.coords t) _ _ _ _ _ _ (fun h => hf ((hfirst1 t).mp h)) ((hlast1 t).mpr hl) (iblk1 V c 0 t) _ Set.univ _)
    isplitl [H0]; · iexact H0
    isplitl [HS]; · iexact HS
    isplitl [H1]; · iexists _; iexact H1
    iintro ⟨H0, HS, H1⟩
    isplitl [HS Hr]
    · isplitl [HS]; · iexact HS
      iexact Hr
    isplitl [Ho]; · iexact Ho
    isplitl [H0]; · iexact H0
    iexact H1
  · rw [Dat.leavesExact_idle (dat1 V c) 1 t (idleAt1_1 t (fun h => hl ((hlast1 t).mp h))) (noFlush1_1 t (fun h => hl ((hlast1 t).mp h)))]
    by_cases hf : t.val % 64 = 0
    · -- a first block
      rw [accAt1_first V c t hf]
      by_cases hz : t.val = 0
      · rw [PhiS1_castSucc V c t, PhiS1_zero V c _ _ hz]
        iintro ⟨HP, Ho, ⟨%d0, H0⟩, ⟨%d1, H1⟩⟩
        ihave HP2 := PhiA1_open (F := F) c $$ HP
        icases HP2 with ⟨HS, Hr⟩
        iapply (body1_first c (grid1.coords t) _ _ _ _ _ _ ((hfirst1 t).mpr hf) (fun h => hl ((hlast1 t).mp h)) (iblk1 V c 0 t) Set.univ _)
        isplitl [H0]; · iexact H0
        isplitl [HS]; · iexact HS
        iintro ⟨H0, HS⟩
        isplitl [HS Hr]
        · isplitl [HS]; · iexact HS
          iexact Hr
        isplitl [Ho]; · iexact Ho
        isplitl [H0]; · iexact H0
        iexists _; iexact H1
      · rw [PhiS1_castSucc V c t, PhiS1_pos V c _ _ hz]
        iintro ⟨⟨HS, Hr⟩, Ho, ⟨%d0, H0⟩, ⟨%d1, H1⟩⟩
        iapply (body1_first c (grid1.coords t) _ _ _ _ _ _ ((hfirst1 t).mpr hf) (fun h => hl ((hlast1 t).mp h)) (iblk1 V c 0 t) Set.univ _)
        isplitl [H0]; · iexact H0
        isplitl [HS]; · iexists _; iexact HS
        iintro ⟨H0, HS⟩
        isplitl [HS Hr]
        · isplitl [HS]; · iexact HS
          iexact Hr
        isplitl [Ho]; · iexact Ho
        isplitl [H0]; · iexact H0
        iexists _; iexact H1
    · -- neither
      have hz : t.val ≠ 0 := by intro h; rw [h] at hf; exact hf (Nat.zero_mod _)
      rw [accAt1_next V c t hf, PhiS1_castSucc V c t, PhiS1_pos V c _ _ hz]
      iintro ⟨⟨HS, Hr⟩, Ho, ⟨%d0, H0⟩, ⟨%d1, H1⟩⟩
      iapply (body1_mid c (grid1.coords t) _ _ _ _ _ _ (fun h => hf ((hfirst1 t).mp h)) (fun h => hl ((hlast1 t).mp h)) (iblk1 V c 0 t) _ Set.univ _)
      isplitl [H0]; · iexact H0
      isplitl [HS]; · iexact HS
      iintro ⟨H0, HS⟩
      isplitl [HS Hr]
      · isplitl [HS]; · iexact HS
        iexact Hr
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the launch's back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega)]
  iintro ⟨HS, Hr⟩
  iapply (PhiA1_close (F := F) c)
  isplitl [HS]; · iexists _; iexact HS
  iexact Hr

end Cert.KernelIdeal.Hand

end
-- ==== Proof.KIVals.lean ====
/-
  The contents of the idealized program's unscoped buffers at each boundary between @main's five items (a host stretch,
  the first pallas_call, a host stretch, the second pallas_call, a host stretch), per core and as named valuations: the
  launch memory; each host stretch's operations applied; each region's arrays at what its pipeline leaves in them, the
  other buffers untouched.  And the two pipelines' proof data, each at its region's entry contents.
-/
import proofs.«154098_j40140764348889_1_alg».proof.Proof.KIRegion0
import proofs.«154098_j40140764348889_1_alg».proof.Proof.KIRegion1
import Idealize.ShloMosaic.Lib.Pipeline.Frame
import Idealize.ShloMosaic.Lib.Pipeline.FrameSuffix
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the first host stretch (the first region's entry). -/
abbrev W1 : Dev nD → Valuation τ sig (Elt F) := fun c => StableHlo.after hostOps0 (W0 m c)
/-- The same read at the TensorCore's references (what the first region's proof data take). -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the last host stretch: what @main returns from. -/
abbrev W5 : Dev nD → Valuation τ sig (Elt F) := fun c => StableHlo.after hostOps2 (W4 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-! ## The proof data family -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end Cert.KernelIdeal.Hand

end
-- ==== Proof.KIRun.lean ====
/-
  @main of the idealized program, run from the launch to the return, at any float instance.

  @main is five items: a reshape of the first input; the first pallas_call; seven host operations (a reshape of its
  output, that input's batch mean, a reshape of the second input); the second pallas_call; twelve host operations (the
  second batch mean, the difference, the absolute value, the mean).  Between items every unscoped buffer of the core is
  held whole at a NAMED valuation: the launch memory (`W0`), then each host stretch's operations applied
  (`StableHlo.after`), then each region's arrays at what the pipeline leaves in them (`Dat.arrAt … N`, the others
  untouched).  Each region is entered from the valuation before it and left at the one after it; beside the buffers
  ride the generator register and the core owing nothing.  The run ends with every unscoped buffer at `W5`.
-/
import proofs.«154098_j40140764348889_1_alg».proof.Proof.KIVals
import proofs.«154098_j40140764348889_1_alg».proof.Proof.Gen.KernelIdeal.Regions
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What rides beside the buffers, and the host stretches as segments -/

/-- No core owes another anything: no pair of cores is assigned a level. -/
abbrev noPairs : GSem nD τ sig → Finset Unit := fun _ => ∅
abbrev lvl0 : GSem nD τ sig → Unit → ℕ := fun _ _ => 0

/-- Beside the buffers, through every item: the core's generator register at some state, and the core owing nothing. -/
abbrev beside (c : Dev nD) : sProp 𝕄 :=
  iprop((∃ r, prngReg c r) ∗ ∃ W, owes (c : Thread nD τ) (0 : CellTallies nD τ sig Unit) W)

/-- Every unscoped buffer of core `c` held whole at the valuation `W`, beside the register and the empty debt. -/
abbrev stateAt (W : Dev nD → Valuation τ sig (Elt F)) (c : Dev nD) : sProp 𝕄 :=
  iprop(StableHlo.held (c : Thread nD τ) (Pipeline.ucRefs τ sig) (W c) ∗ beside (F := F) c)

/-- A stretch of host operations as a segment: from the unscoped buffers at `W` it runs to them at the operations
    applied to `W`; the register and the empty debt are not touched. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (beside (F := F))

/-- What the run ends holding, the empty debt aside: every unscoped buffer at the last valuation, the register. -/
abbrev atEnd (c : Dev nD) : sProp 𝕄 :=
  iprop(StableHlo.held (c : Thread nD τ) (Pipeline.ucRefs τ sig) (W5 m c) ∗ ∃ r, prngReg c r)

/-! ## The empty debt, in and out of a pipeline's proof data -/

/-- A core owing nothing, whatever pairs its waits have recorded, is what proof data that owe nothing before point `t`
    and bound the recorded pairs by nothing hold there. -/
theorem owesAt_of_nothing {cfg : Cfg sig Λ₀} {c : Dev nD} (dat : Dat τ (Elt F) Unit ℕ (UR sig nD τ) ℕ cfg c)
    (t : Fin (cfg.N + 1)) (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr, Set.univ_union]
  iintro ⟨%W, H⟩
  iexists W
  isplitr
  · ipureintro; exact Set.subset_univ _
  · iexact H

/-- Conversely such proof data give the core owing nothing back, the bound forgotten. -/
theorem nothing_of_owesAt {cfg : Cfg sig Λ₀} {c : Dev nD} (dat : Dat τ (Elt F) Unit ℕ (UR sig nD τ) ℕ cfg c)
    (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, H⟩
  iexists W
  iexact H

/-! ## The first region -/

-- a library lemma stated over the pinned configuration `pin pcfgs adm 0` meets the printed `cfg0` only when
-- unification may unfold plain definitions in a metavariable's type
set_option backward.isDefEq.respectTransparency.types false in
/-- Entering the first region: the unscoped buffers at `W1` are its two arrays as found beside the other unscoped
    buffers; there is no prefetched table; the empty debt is the proof data's first; the register goes in. -/
theorem enter0 (c : Dev nD) :
    iprop(stateAt (W1 m) c ∗ Pipeline.ownSems0 (fun k : PEmpty => k.elim) c ∗ levAts noPairs lvl0)
      ⊢ |={Set.univ}=> iprop((pdats m 0 c).arrays ((pdats m 0 c).arrAt · 0)
          ∗ Pipeline.prefHeld (pcfgs (F := F) 0).pre c (fun _ => fullShare) (adm (F := F) 0).1
          ∗ (pdats m 0 c).owesAt () 0 ∗ (∃ r, prngReg c r)
          ∗ Pipeline.unscopedRest (Ix := Unit) (Name := ℕ) (U := UR sig nD τ) (Lvl := ℕ) spec0 c (V1 m c)) := by
  have hbufs : (StableHlo.held (c : Thread nD τ) (Pipeline.ucRefs τ sig) (W1 m c) : sProp 𝕄)
      ⊢ iprop((pdats m 0 c).arrays ((pdats m 0 c).arrAt · 0) ∗ Pipeline.unscopedRest spec0 c (V1 m c)) := by
    rw [← Pipeline.unscopedBufs_held c (W1 m c)]
    exact Pipeline.arrays_of_unscopedBufs (p := 0) (pcfgs (F := F)) adm (pdats m) launch0.win launch0.arr_whole c
      ((pdats m 0 c).share_full fun _ => rfl) (V1 m c) fun _ => rfl
  have hnotab : (BI.emp : sProp 𝕄) ⊢ Pipeline.prefHeld (pcfgs (F := F) 0).pre c (fun _ => fullShare) (adm (F := F) 0).1 := by
    unfold Pipeline.prefHeld
    rw [show (Finset.univ : Finset (Fin (pcfgs (F := F) 0).pre.K)) = ∅ from rfl, BI.bigSep_empty]
  iintro ⟨⟨Hbuf, Hreg, Hdebt⟩, -, -⟩
  imodintro
  ihave Hsplit := hbufs $$ Hbuf
  icases Hsplit with ⟨Harr, Hrest⟩
  isplitl [Harr]; · iexact Harr
  isplitr
  · iapply hnotab; iempintro
  isplitl [Hdebt]
  · iapply (owesAt_of_nothing (pdats m 0 c) 0 rfl rfl); iexact Hdebt
  isplitl [Hreg]; · iexact Hreg
  iexact Hrest

-- as above
set_option backward.isDefEq.respectTransparency.types false in
/-- Leaving the first region: its arrays at what the pipeline leaves, beside the other unscoped buffers as entered,
    are the unscoped buffers at `W2`; the proof data's last debt is the empty one; the register comes out. -/
theorem leave0 (c : Dev nD) :
    iprop((pdats m 0 c).arrays ((pdats m 0 c).arrAt · cfg0.N) ∗ (pdats m 0 c).owesAt () (Fin.last cfg0.N)
        ∗ (∃ r, prngReg c r)
        ∗ Pipeline.unscopedRest (Ix := Unit) (Name := ℕ) (U := UR sig nD τ) (Lvl := ℕ) spec0 c (V1 m c))
      ⊢ |={Set.univ}=> stateAt (W2 m) c := by
  have hbufs : iprop((pdats m 0 c).arrays ((pdats m 0 c).arrAt · cfg0.N) ∗ Pipeline.unscopedRest spec0 c (V1 m c))
      ⊢ (StableHlo.held (c : Thread nD τ) (Pipeline.ucRefs τ sig) (W2 m c) : sProp 𝕄) := by
    rw [← Pipeline.unscopedBufs_held c (W2 m c)]
    exact Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl) (V1 m c) (V2 m c)
      ((pdats m 0 c).arrAt · cfg0.N) (fun w => (W2_arr m c w).symm)
      (fun b hb => W2_of_ne m c b fun w e => hb (Finset.mem_image.mpr ⟨w, Finset.mem_univ _, e⟩))
  iintro ⟨Harr, Hdebt, Hreg, Hrest⟩
  imodintro
  isplitl [Harr Hrest]
  · iapply hbufs
    isplitl [Harr]; · iexact Harr
    iexact Hrest
  isplitl [Hreg]; · iexact Hreg
  iapply (nothing_of_owesAt (pdats m 0 c) (Fin.last cfg0.N) rfl); iexact Hdebt

-- as above
set_option backward.isDefEq.respectTransparency.types false in
/-- THE FIRST REGION as a segment: entered from the unscoped buffers at `W1`, left with them at `W2`.  Into the
    pipeline's invariant goes the register beside the scoped buffers no window stages (what the class's invariant is,
    hence the region's own before its first point); out of it the same come back, the scratch's contents forgotten.
    The kernel has no semaphore of its own and the body owes nothing. -/
def reg0 : Pipeline.RegionSeg (pcfgs (F := F)) adm (pdats m) () defs₀ Variants.none noPairs lvl0 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noPairs lvl0 0 fun _ _ => rfl
  pre := stateAt (W1 m)
  post := stateAt (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry := enter0 m
  hin c := by
    rw [show (pdats m 0 c).Φ 0 = (dat0 (V1 m) c).Φ 0 from rfl]
    refine BIBase.Entails.trans ?_ (hin0 (V1 m) c)
    unfold Pipeline.ΦA
    iintro ⟨Hreg, -, Hscoped⟩
    isplitl [Hscoped]; · iexact Hscoped
    iexact Hreg
  hout c := by
    rw [Pipeline.ownSems0_none, show (pdats m 0 c).Φ (Fin.last _) = (dat0 (V1 m) c).Φ (Fin.last cfg0.N) from rfl]
    refine (hout0 (V1 m) c).trans ?_
    unfold Pipeline.ΦA
    iintro ⟨Hscoped, Hreg⟩
    isplitl [Hreg]; · iexact Hreg
    isplitr; · iempintro
    iexact Hscoped
  hexit := leave0 m

/-! ## The second region -/

-- a library lemma stated over the pinned configuration `pin pcfgs adm 1` meets the printed `cfg1` only when
-- unification may unfold plain definitions in a metavariable's type
set_option backward.isDefEq.respectTransparency.types false in
/-- Entering the second region: the unscoped buffers at `W3` are its two arrays as found beside the other unscoped
    buffers; there is no prefetched table; the empty debt is the proof data's first; the register goes in. -/
theorem enter1 (c : Dev nD) :
    iprop(stateAt (W3 m) c ∗ Pipeline.ownSems0 (fun k : PEmpty => k.elim) c ∗ levAts noPairs lvl0)
      ⊢ |={Set.univ}=> iprop((pdats m 1 c).arrays ((pdats m 1 c).arrAt · 0)
          ∗ Pipeline.prefHeld (pcfgs (F := F) 1).pre c (fun _ => fullShare) (adm (F := F) 1).1
          ∗ (pdats m 1 c).owesAt () 0 ∗ (∃ r, prngReg c r)
          ∗ Pipeline.unscopedRest (Ix := Unit) (Name := ℕ) (U := UR sig nD τ) (Lvl := ℕ) spec1 c (V3 m c)) := by
  have hbufs : (StableHlo.held (c : Thread nD τ) (Pipeline.ucRefs τ sig) (W3 m c) : sProp 𝕄)
      ⊢ iprop((pdats m 1 c).arrays ((pdats m 1 c).arrAt · 0) ∗ Pipeline.unscopedRest spec1 c (V3 m c)) := by
    rw [← Pipeline.unscopedBufs_held c (W3 m c)]
    exact Pipeline.arrays_of_unscopedBufs (p := 1) (pcfgs (F := F)) adm (pdats m) launch1.win launch1.arr_whole c
      ((pdats m 1 c).share_full fun _ => rfl) (V3 m c) fun _ => rfl
  have hnotab : (BI.emp : sProp 𝕄) ⊢ Pipeline.prefHeld (pcfgs (F := F) 1).pre c (fun _ => fullShare) (adm (F := F) 1).1 := by
    unfold Pipeline.prefHeld
    rw [show (Finset.univ : Finset (Fin (pcfgs (F := F) 1).pre.K)) = ∅ from rfl, BI.bigSep_empty]
  iintro ⟨⟨Hbuf, Hreg, Hdebt⟩, -, -⟩
  imodintro
  ihave Hsplit := hbufs $$ Hbuf
  icases Hsplit with ⟨Harr, Hrest⟩
  isplitl [Harr]; · iexact Harr
  isplitr
  · iapply hnotab; iempintro
  isplitl [Hdebt]
  · iapply (owesAt_of_nothing (pdats m 1 c) 0 rfl rfl); iexact Hdebt
  isplitl [Hreg]; · iexact Hreg
  iexact Hrest

-- as above
set_option backward.isDefEq.respectTransparency.types false in
/-- Leaving the second region: its arrays at what the pipeline leaves, beside the other unscoped buffers as entered,
    are the unscoped buffers at `W4`; the proof data's last debt is the empty one; the register comes out. -/
theorem leave1 (c : Dev nD) :
    iprop((pdats m 1 c).arrays ((pdats m 1 c).arrAt · cfg1.N) ∗ (pdats m 1 c).owesAt () (Fin.last cfg1.N)
        ∗ (∃ r, prngReg c r)
        ∗ Pipeline.unscopedRest (Ix := Unit) (Name := ℕ) (U := UR sig nD τ) (Lvl := ℕ) spec1 c (V3 m c))
      ⊢ |={Set.univ}=> stateAt (W4 m) c := by
  have hbufs : iprop((pdats m 1 c).arrays ((pdats m 1 c).arrAt · cfg1.N) ∗ Pipeline.unscopedRest spec1 c (V3 m c))
      ⊢ (StableHlo.held (c : Thread nD τ) (Pipeline.ucRefs τ sig) (W4 m c) : sProp 𝕄) := by
    rw [← Pipeline.unscopedBufs_held c (W4 m c)]
    exact Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl) (V3 m c) (V4 m c)
      ((pdats m 1 c).arrAt · cfg1.N) (fun w => (W4_arr m c w).symm)
      (fun b hb => W4_of_ne m c b fun w e => hb (Finset.mem_image.mpr ⟨w, Finset.mem_univ _, e⟩))
  iintro ⟨Harr, Hdebt, Hreg, Hrest⟩
  imodintro
  isplitl [Harr Hrest]
  · iapply hbufs
    isplitl [Harr]; · iexact Harr
    iexact Hrest
  isplitl [Hreg]; · iexact Hreg
  iapply (nothing_of_owesAt (pdats m 1 c) (Fin.last cfg1.N) rfl); iexact Hdebt

-- as above
set_option backward.isDefEq.respectTransparency.types false in
/-- THE SECOND REGION as a segment: entered from the unscoped buffers at `W3`, left with them at `W4`.  Into the
    pipeline's invariant goes the register beside the scoped buffers no window stages (what the class's invariant is,
    hence the region's own before its first point); out of it the same come back, the scratch's contents forgotten.
    The kernel has no semaphore of its own and the body owes nothing. -/
def reg1 : Pipeline.RegionSeg (pcfgs (F := F)) adm (pdats m) () defs₀ Variants.none noPairs lvl0 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noPairs lvl0 1 fun _ _ => rfl
  pre := stateAt (W3 m)
  post := stateAt (W4 m)
  X c := iprop(∃ r, prngReg c r)
  Y c := iprop(∃ r, prngReg c r)
  Z c := Pipeline.unscopedRest (Ix := Unit) (Name := ℕ) (U := UR sig nD τ) (Lvl := ℕ) spec1 c (V3 m c)
  hentry := enter1 m
  hin c := by
    rw [show (pdats m 1 c).Φ 0 = (dat1 (V3 m) c).Φ 0 from rfl]
    refine BIBase.Entails.trans ?_ (hin1 (V3 m) c)
    unfold Pipeline.ΦA
    iintro ⟨Hreg, -, Hscoped⟩
    isplitl [Hscoped]; · iexact Hscoped
    iexact Hreg
  hout c := by
    rw [Pipeline.ownSems0_none, show (pdats m 1 c).Φ (Fin.last _) = (dat1 (V3 m) c).Φ (Fin.last cfg1.N) from rfl]
    refine (hout1 (V3 m) c).trans ?_
    unfold Pipeline.ΦA
    iintro ⟨Hscoped, Hreg⟩
    isplitl [Hreg]; · iexact Hreg
    isplitr; · iempintro
    iexact Hscoped
  hexit := leave1 m

/-! ## @main as five items, the launch and the return -/

/-- @main's five items in order, each host stretch from the valuation its boundary names. -/
abbrev items : List (Pipeline.Seg (pcfgs (F := F)) adm (pdats m) () defs₀ Variants.none noPairs lvl0) :=
  [ .host (hostItem hostOps0 hostOps0_sub hostOps0_fresh (W0 m)),
    .region (reg0 m),
    .host (hostItem hostOps1 hostOps1_sub hostOps1_fresh (W2 m)),
    .region (reg1 m),
    .host (hostItem hostOps2 hostOps2_sub hostOps2_fresh (W4 m)) ]

/-- @main is the run of its items: each host item's program is its stretch's operations in sequence. -/
theorem main_items (c : Dev nD) : main (F := F) c = Pipeline.Seg.run (items m) :=
  main_segs adm (pdats m) () Variants.none noPairs lvl0 _ _ _ (reg0 m) (reg1 m) rfl rfl rfl c

/-- What the launch deals a core makes the first state: its unscoped buffers at the launch memory, the register at
    its launch state, the empty debt with nothing recorded. -/
theorem launch_state (c : Dev nD) :
    iprop(iprop(unscopedBufs c (fun b => m ((c : Thread nD τ).loc b)) ∗ unscopedSems0 c
        ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))
        ∗ levAts noPairs lvl0)
      ⊢ |={Set.univ}=> stateAt (W0 m) c := by
  rw [show unscopedBufs c (fun b => m ((c : Thread nD τ).loc b))
      = StableHlo.held (c : Thread nD τ) (Pipeline.ucRefs τ sig) (W0 m c) from Pipeline.unscopedBufs_held c (W0 m c)]
  iintro ⟨⟨Hbuf, -, Hdebt, -, Hreg, -⟩, -⟩
  imodintro
  isplitl [Hbuf]; · iexact Hbuf
  isplitl [Hreg]
  · iexists (ρ c); iexact Hreg
  iexists ∅; iexact Hdebt

/-- What the run ends holding, read against a final state: its memory has every unscoped buffer at `W5`. -/
theorem read_end (c : Dev nD) (s' : Phys nD τ sig (Elt F)) :
    iprop(atEnd m c ∗ SI s')
      ⊢ |={Set.univ}=> iprop(⌜∀ b ∈ Pipeline.ucRefs τ sig, s'.mem.mem (((c : Thread nD τ)).1, b) = W5 m c b⌝ ∗ SI s') := by
  unfold atEnd StableHlo.held
  iintro ⟨⟨Hbuf, -⟩, Hsi⟩
  imodintro
  iapply (pointsTo_read_all (Pipeline.ucRefs τ sig) (fun b => (((c : Thread nD τ)).1, b)) (W5 m c) s')
  isplitl [Hbuf]; · iexact Hbuf
  iexact Hsi

/-- The last item's state is what the run ends holding, the empty debt set apart. -/
theorem end_state (c : Dev nD) :
    stateAt (W5 m) c ⊢ iprop(atEnd m c ∗ ∃ W, owes (c : Thread nD τ) (0 : CellTallies nD τ sig Unit) W) := by
  iintro ⟨Hbuf, Hreg, Hdebt⟩
  isplitl [Hbuf Hreg]
  · isplitl [Hbuf]; · iexact Hbuf
    iexact Hreg
  · iexact Hdebt

/-! ## The run -/

-- the launch theorem's implicit arguments are found by unifying its conclusion with this one, which takes
-- unfolding plain definitions in a metavariable's type
set_option backward.isDefEq.respectTransparency.types false in
/-- THE RUN.  From any memory with zero counters every weakly fair execution of @main terminates, nothing faulting,
    with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ Variants.none noPairs lvl0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own; no ghost resource is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := stateAt (W0 m)) (Tₙ := atEnd m)
    (hch := ⟨fun _ => .rfl, fun _ => .rfl, fun _ => .rfl, fun _ => .rfl, fun _ => .rfl, end_state m⟩)
    (hinit := Pipeline.initEach noPairs lvl0 (launch_state m ρ))
    (QY := fun c s => ∀ b ∈ Pipeline.ucRefs τ sig, s.mem (((c : Thread nD τ)).1, b) = W5 m c b)
    (hfin := read_end m)
    (hQ := fun s h c => h c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A reference no item writes and no region's window reads through holds at the end what it held at launch: each
    host stretch leaves alone what its operations do not write, each region what is none of its arrays. -/
theorem W5_of_untouched (c : Dev nD) (r : Ref sig .tc) (h0 : r ∉ hostOps0_W) (h1 : r ∉ hostOps1_W) (h2 : r ∉ hostOps2_W)
    (hr0 : ∀ w, Pipeline.arrRef spec0 w ≠ r) (hr1 : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hr1
    _ = W2 m c (Proc.devRef .tc r) := StableHlo.after_of_writes_sub hostOps1 _ hostOps1_writes h1
    _ = W1 m c (Proc.devRef .tc r) := W2_of_ne m c r hr0
    _ = W0 m c (Proc.devRef .tc r) := StableHlo.after_of_writes_sub hostOps0 _ hostOps0_writes h0
    _ = m ((c : Thread nD τ).loc r) := rfl

/-- No item writes the first argument, -/
theorem W5_main_arg0 (c : Dev nD) : W5 m c (Proc.devRef .tc main_arg0) = m ((c : Thread nD τ).loc main_arg0) :=
  W5_of_untouched m c main_arg0 (by decide) (by decide) (by decide) (by decide) (by decide)
/-- nor the second. -/
theorem W5_main_arg1 (c : Dev nD) : W5 m c (Proc.devRef .tc main_arg1) = m ((c : Thread nD τ).loc main_arg1) :=
  W5_of_untouched m c main_arg1 (by decide) (by decide) (by decide) (by decide) (by decide)

/-- THE FRAME, at any float instance: the run ends with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_all m ρ)

/-- THE RESULT: the run ends with the result buffer at the last boundary's contents, the arguments as launched. -/
theorem run_result : θ_run defs (onTc (τ := τ) (main (F := F))) ⟨m, fun _ => 0, ρ⟩ (fun r => ∀ c : Dev nD,
      r.2.mem ((c.tc : Thread nD τ).loc main_v15) = W5 m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v15 (by decide)),
     (h c _ (mem_uc main_arg0 (by decide))).trans (W5_main_arg0 m c),
     (h c _ (mem_uc main_arg1 (by decide))).trans (W5_main_arg1 m c)⟩) (run_all m ρ)

end Cert.KernelIdeal.Hand

end
-- ==== Proof.HistSpec.lean ====
/-
  The mathematics both programs share, with no program imported.

  A pixel value `x` (an extended real) falls in the bin `binW x`: the word `min 255 (max 0 (toInt (x · 256)))`, signed,
  which always lies in `[0, 256)`.  The histogram of a row of pixels counts, per bin `n`, the pixels whose bin is `n`
  (`cnt`).  The kernel counts by splitting a bin into its high and low radix-16 digits and summing, over the pixels, the
  product of two indicator values; the reference counts by adding `1` at the bin's slot once per pixel.  Both are the
  natural number `cnt`, and a row's counts sum to the row's length.  The kernel then multiplies a count by `2⁻¹⁸`; the
  reference divides it by `max (row length) ε` with the row length `2¹⁸`: equal on every natural number.
-/
import Idealize.ShloMosaic.PureOps.Ideal
import Idealize.ShloMosaic.PureOps.Ideal.Laws

noncomputable section

namespace Hist

open Idealize.ShloMosaic

/-- The bin word of a pixel: `min 255 (max 0 (toInt (x · 256)))` on signed 32-bit words, in the very operations both
    programs print (the float product, the float-to-signed conversion, the signed maximum and minimum). -/
def binW (x : Ideal .f32) : BitVec 32 :=
  IntOp.minsi 255#32 (IntOp.maxsi 0#32 (FloatOps.fptosi 32 (FloatOps.mulf x (FloatOps.ofBits (F := Ideal) .f32 0x43800000#32))))

/-- The bin as a natural number. -/
def bin (x : Ideal .f32) : ℕ := (binW x).toNat

/-- Clamping ANY signed word `v` into `[0, 255]` leaves a word whose unsigned reading is below 256: if `v < 0` the
    maximum is `0`; otherwise the maximum is `v ≥ 0`, and the minimum with 255 is 255 or a `v` in `[0, 255]`, where the signed and
    unsigned readings agree. -/
theorem clampW_toNat_lt (v : BitVec 32) : (IntOp.minsi 255#32 (IntOp.maxsi 0#32 v)).toNat < 256 := by
  have hv := BitVec.toInt_eq_toNat_cond v
  have hlt := v.isLt
  have e0 : (0#32 : BitVec 32).toInt = 0 := by decide
  have e255 : (255#32 : BitVec 32).toInt = 255 := by decide
  simp only [IntOp.minsi, IntOp.maxsi, BitVec.slt, e0, e255]
  by_cases h1 : v.toInt < 0
  · simp [h1]
  · simp only [h1, decide_false, Bool.false_eq_true, if_false]
    by_cases h2 : 255 < v.toInt
    · simp [h2]
    · simp only [h2, decide_false, Bool.false_eq_true, if_false]
      split at hv <;> omega

/-- A word below 256 unsigned is below `2³¹`, so its signed reading is its unsigned one. -/
theorem clampW_toInt (v : BitVec 32) :
    (IntOp.minsi 255#32 (IntOp.maxsi 0#32 v)).toInt = ((IntOp.minsi 255#32 (IntOp.maxsi 0#32 v)).toNat : ℤ) := by
  have h := clampW_toNat_lt v
  rw [BitVec.toInt_eq_toNat_cond]
  split
  · rfl
  · omega

/-- The clamp keeps the bin word in `[0, 256)` as a signed (hence also unsigned) number. -/
theorem bin_lt (x : Ideal .f32) : bin x < 256 := by
  unfold bin binW
  exact clampW_toNat_lt _

/-- The signed reading of the bin word is the bin. -/
theorem binW_toInt (x : Ideal .f32) : (binW x).toInt = (bin x : ℤ) := by
  unfold bin binW
  exact clampW_toInt _

/-- High radix-16 digit of the bin word, as the kernel computes it (arithmetic shift right by 4), -/
def hiW (x : Ideal .f32) : BitVec 32 := IntOp.shrsi .vector (binW x) 4#32
/-- and the low digit (mask 15). -/
def loW (x : Ideal .f32) : BitVec 32 := IntOp.andi (binW x) 15#32

/-- On a word below 256 the arithmetic shift right by 4 is the quotient by 16 (the sign bit is clear, so the shift brings
    in zeros): checked on each of the 256 words. -/
theorem shrsi4_toNat (w : BitVec 32) (h : w.toNat < 256) : (IntOp.shrsi .vector w 4#32).toNat = w.toNat / 16 := by
  have hw : w = BitVec.ofNat 32 w.toNat := by simp
  rw [hw]
  generalize w.toNat = n at h
  have all : ∀ n : Fin 256,
      (IntOp.shrsi .vector (BitVec.ofNat 32 n.val) 4#32).toNat = (BitVec.ofNat 32 n.val).toNat / 16 := by decide +kernel
  exact all ⟨n, h⟩

/-- Masking with `15 = 2⁴ − 1` is the remainder by 16. -/
theorem andi15_toNat (w : BitVec 32) : (IntOp.andi w 15#32).toNat = w.toNat % 16 := by
  simp only [IntOp.andi, BitVec.toNat_and]
  show w.toNat &&& (2 ^ 4 - 1) = w.toNat % 16
  rw [Nat.and_two_pow_sub_one_eq_mod]

theorem hiW_toNat (x : Ideal .f32) : (hiW x).toNat = bin x / 16 := by
  unfold hiW
  exact shrsi4_toNat _ (bin_lt x)
theorem loW_toNat (x : Ideal .f32) : (loW x).toNat = bin x % 16 := by
  unfold loW
  exact andi15_toNat _

/-- The indicator the kernel builds for "digit word `d` equals the lane's number `h`": compare for equality, widen the bit
    to 32 bits unsigned, convert the signed word to a float (exact at Ideal), narrow to bf16 (the identity at Ideal). -/
def ind (d : BitVec 32) (h : ℕ) : EReal :=
  (((( (IntOp.cmpi .eq d (BitVec.ofNat 32 h)).setWidth 32 : BitVec 32).toInt : ℝ)) : EReal)

theorem ind_eq (d : BitVec 32) (h : ℕ) (hd : d.toNat < 16) (hh : h < 16) :
    ind d h = if d.toNat = h then 1 else 0 := by
  unfold ind
  have t1 : ((BitVec.ofBool true).setWidth 32 : BitVec 32).toInt = 1 := by decide
  have t0 : ((BitVec.ofBool false).setWidth 32 : BitVec 32).toInt = 0 := by decide
  by_cases e : d.toNat = h
  · have hd' : d = BitVec.ofNat 32 h := by rw [← e]; simp
    have hb : (d == BitVec.ofNat 32 h) = true := by rw [← hd']; simp
    simp only [IntOp.cmpi, hb, t1, e, if_true]
    norm_num
  · have hb : (d == BitVec.ofNat 32 h) = false := by
      rw [beq_eq_false_iff_ne]
      intro hc; apply e; rw [hc]; simp; omega
    simp only [IntOp.cmpi, hb, t0, e, if_false]
    norm_num

/-- How many of the `P` pixels of a row fall in bin `n`. -/
def cnt {P : ℕ} (row : Fin P → Ideal .f32) (n : ℕ) : ℕ :=
  (Finset.univ.filter fun p : Fin P => bin (row p) = n).card

/-- THE KERNEL'S COUNT.  Summing over the pixels the product of the high-digit and low-digit indicators counts the
    pixels of bin `16·h + l`. -/
theorem sum_ind_mul_ind {P : ℕ} (row : Fin P → Ideal .f32) (h l : ℕ) (hh : h < 16) (hl : l < 16) :
    (∑ p : Fin P, ind (hiW (row p)) h * ind (loW (row p)) l) = ((cnt row (16 * h + l) : ℕ) : EReal) := by
  have key : ∀ p : Fin P, ind (hiW (row p)) h * ind (loW (row p)) l
      = if bin (row p) = 16 * h + l then (1 : EReal) else 0 := by
    intro p
    have hb := bin_lt (row p)
    rw [ind_eq _ _ (by rw [hiW_toNat]; omega) hh, ind_eq _ _ (by rw [loW_toNat]; omega) hl,
      hiW_toNat, loW_toNat]
    by_cases c1 : bin (row p) / 16 = h <;> by_cases c2 : bin (row p) % 16 = l
    · rw [if_pos c1, if_pos c2, if_pos (by omega), mul_one]
    · rw [if_pos c1, if_neg c2, if_neg (by omega), mul_zero]
    · rw [if_neg c1, if_pos c2, if_neg (by omega), zero_mul]
    · rw [if_neg c1, if_neg c2, if_neg (by omega), zero_mul]
  rw [Finset.sum_congr rfl fun p _ => key p, Finset.sum_ite, Finset.sum_const_zero, add_zero,
    Finset.sum_const, nsmul_one]
  rfl

/-- Counting a row in two halves. -/
theorem cnt_append {P Q : ℕ} (row : Fin (P + Q) → Ideal .f32) (n : ℕ) :
    cnt row n = cnt (fun p : Fin P => row (Fin.castAdd Q p)) n + cnt (fun q : Fin Q => row (Fin.natAdd P q)) n := by
  simp only [cnt, Finset.card_filter]
  exact Fin.sum_univ_add _

/-- THE REFERENCE'S COUNT.  A sum of ones over the pixels that land in slot `n` is the count, as an extended real. -/
theorem sum_ones_filter {P : ℕ} (row : Fin P → Ideal .f32) (n : ℕ) :
    (∑ _p ∈ Finset.univ.filter (fun p : Fin P => bin (row p) = n), (1 : EReal)) = ((cnt row n : ℕ) : EReal) := by
  rw [Finset.sum_const, nsmul_one]; rfl

/-- The same fact among the natural numbers: the pixels split into the fibres of the map "pixel ↦ its bin", which lands
    below 256. -/
theorem sum_cnt_nat {P : ℕ} (row : Fin P → Ideal .f32) : (∑ n : Fin 256, cnt row n.val) = P := by
  have key := Finset.card_eq_sum_card_fiberwise (s := (Finset.univ : Finset (Fin P))) (t := (Finset.univ : Finset (Fin 256)))
    (f := fun p => (⟨bin (row p), bin_lt _⟩ : Fin 256)) (fun _ _ => Finset.mem_univ _)
  rw [Finset.card_univ, Fintype.card_fin] at key
  refine Eq.trans ?_ key.symm
  refine Finset.sum_congr rfl fun n _ => ?_
  unfold cnt
  refine congrArg Finset.card ?_
  ext p
  simp only [Finset.mem_filter, Finset.mem_univ, true_and, Fin.ext_iff]

/-- A row's counts over the 256 bins add up to the row's length: every pixel has exactly one bin below 256. -/
theorem sum_cnt {P : ℕ} (row : Fin P → Ideal .f32) :
    (∑ n : Fin 256, ((cnt row n.val : ℕ) : EReal)) = ((P : ℕ) : EReal) := by
  have h := congrArg (Nat.cast : ℕ → EReal) (sum_cnt_nat row)
  rw [Nat.cast_sum] at h
  exact h

/-! ## The literals -/

/-- `0x36800000` is `2⁻¹⁸`. -/
theorem ofBits_inv : Ideal.ofBits .f32 0x36800000#32 = (((1 / 262144 : ℝ)) : EReal) := by
  simp [Ideal.ofBits, Ideal.ieee, -EReal.coe_mul]; norm_num
/-- `0x3F800000` is `1`. -/
theorem ofBits_one : Ideal.ofBits .f32 0x3F800000#32 = 1 := by
  simp [Ideal.ofBits, Ideal.ieee, -EReal.coe_mul]; norm_num
/-- The reference's guard `ε` (`0x2B8CBCCC`, about `10⁻¹²`) is below `2¹⁸`. -/
theorem ofBits_eps_le : Ideal.ofBits .f32 0x2B8CBCCC#32 ≤ ((262144 : ℕ) : EReal) := by
  have e : ((262144 : ℕ) : EReal) = ((262144 : ℝ) : EReal) := by norm_cast
  rw [e]
  -- exponent field 87, fraction field 834764: the value is (2²³ + 834764) · 2⁻⁶³ = 2305843 / 2⁶¹
  have v : Ideal.ofBits .f32 0x2B8CBCCC#32 = (((2305843 / 2305843009213693952 : ℝ)) : EReal) := by
    simp [Ideal.ofBits, Ideal.ieee, -EReal.coe_mul]; norm_num
  rw [v, EReal.coe_le_coe_iff]
  norm_num

/-- THE NORMALISATION.  Dividing a count by `max 2¹⁸ ε` is multiplying it by `2⁻¹⁸`. -/
theorem div_max_eq (k : ℕ) :
    Ideal.div ((k : ℕ) : EReal) (max (((262144 : ℕ)) : EReal) (Ideal.ofBits .f32 0x2B8CBCCC#32))
      = ((k : ℕ) : EReal) * Ideal.ofBits .f32 0x36800000#32 := by
  rw [max_eq_left ofBits_eps_le, ofBits_inv]
  have e : ((262144 : ℕ) : EReal) = ((262144 : ℝ) : EReal) := by norm_cast
  rw [e, Ideal.div_coe (by norm_num)]

end Hist

end
-- ==== Proof.KIPayload.lean ====
/-
  The kernel body's three stored values, read index by index at the ideal instance.

  `k0_pay3 x a` is the scratch `a` plus the batched product of two one-hot arrays built from the block `x` of 24 rows by
  4096 pixels: entry `(r, h, l)` adds, over the 4096 pixels `p` of row `r`, the product of "the high radix-16 digit of the
  pixel's bin is `h`" and "its low digit is `l`", i.e. the number of the row's pixels in bin `16·h + l`.
  `k0_pay2` is the zero array.  `k0_pay1 a` re-lays `a · 2⁻¹⁸` from `24 × 16 × 16` to `24 × 256`: entry `(r, n)` is
  `a (r, n / 16, n % 16) · 2⁻¹⁸`.  The second pallas_call's payloads are the same terms.
-/
import proofs.«154098_j40140764348889_1_alg».proof.Proof.Gen.KernelIdeal.Skeleton
import proofs.«154098_j40140764348889_1_alg».proof.Proof.HistSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen
open Idealize.ShloMosaic Idealize.ShloMosaic.ValueIdx

/-- The cleared scratch is zero everywhere. -/
theorem pay2_apply (j : S24x16x16.Idx) : k0_pay2 (F := Ideal) j = 0 := by
  unfold k0_pay2
  show shapeCast S24x16x16 (broadcast S24x16x16 (Scalar.ofBits (F := Ideal) .f32 0x00000000#32)) shapeCasts_S24x16x16_S24x16x16 j = 0
  rw [shapeCast_self]
  exact Ideal.ofBits_zero_f32

/-- A block of 24 rows by 4096 columns, given a unit middle axis and repeated 16 times along it, reads at
    `(r, h, p)` what the block holds at `(r, p)`. -/
theorem row_bcast_apply {α : Type} (v : S24x4096.Idx → α) (r : Fin 24) (h : Fin 16) (p : Fin 4096) :
    broadcastTo S24x16x4096 (shapeCast S24x1x4096 v shapeCasts_S24x4096_S24x1x4096) broadcasts_S24x1x4096_S24x16x4096 (ix3 r h p)
      = v (ix2 r p) := by
  rw [broadcastTo_apply _ _ (ix3 r h p) (ix3 r (0 : Fin 1) p) (fun ax => by
    match ax with
    | ⟨0, _⟩ => rfl
    | ⟨1, _⟩ => rfl
    | ⟨2, _⟩ => rfl)]
  exact shapeCast_apply _ _ (ix3 r (0 : Fin 1) p) (ix2 r p) (by
    rw [Shape.rowMajor_val_two, Shape.rowMajor_val_three]
    show r.val * 4096 + p.val = (r.val * 1 + 0) * 4096 + p.val
    omega)

/-- The lane numbers along the middle axis: at `(r, h, p)` the word `h`. -/
theorem iota_mid_apply (r : Fin 24) (h : Fin 16) (p : Fin 4096) :
    iota .tc S24x16x4096 32 [1] iota_S24x16x4096_d1_w32 (ix3 r h p) = BitVec.ofNat 32 h.val :=
  iota_single_apply .tc S24x16x4096 32 1 iota_S24x16x4096_d1_w32 (ix3 r h p)

/-- The one-hot array of a block of digit words `d`: at `(r, h, p)` it is the indicator of "the digit at `(r, p)` is `h`". -/
theorem onehot_apply (d : IVec S24x4096 32) (r : Fin 24) (h : Fin 16) (p : Fin 4096) :
    truncf (F := Ideal) .bf16 (sitofp .f32 (extui 32 (cmpi .eq
        (broadcastTo S24x16x4096 (shapeCast S24x1x4096 d shapeCasts_S24x4096_S24x1x4096) broadcasts_S24x1x4096_S24x16x4096)
        (iota .tc S24x16x4096 32 [1] iota_S24x16x4096_d1_w32)) natLt_1_32)) bitsLt_bf16_f32 (ix3 r h p)
      = Hist.ind (d (ix2 r p)) h.val := by
  show (((((IntOp.cmpi .eq
      (broadcastTo S24x16x4096 (shapeCast S24x1x4096 d shapeCasts_S24x4096_S24x1x4096) broadcasts_S24x1x4096_S24x16x4096 (ix3 r h p))
      (iota .tc S24x16x4096 32 [1] iota_S24x16x4096_d1_w32 (ix3 r h p))).setWidth 32 : BitVec 32).toInt : ℝ)) : EReal) = _
  rw [row_bcast_apply, iota_mid_apply]
  rfl

/-- The accumulated scratch: what it held plus the block's count of bin `16·h + l` in row `r`. -/
theorem pay3_apply (x : Vec Ideal S24x4096 .f32) (a : Vec Ideal S24x16x16 .f32) (r : Fin 24) (h l : Fin 16) :
    k0_pay3 (F := Ideal) x a (ix3 r h l)
      = a (ix3 r h l) + ((Hist.cnt (fun p : Fin 4096 => x (ix2 r p)) (16 * h.val + l.val) : ℕ) : EReal) := by
  unfold k0_pay3
  -- the outer cast keeps the shape; the sum reads pointwise; the product accumulates into zero
  refine (congrFun (shapeCast_self _ _) (ix3 r h l)).trans ?_
  refine (addf_apply _ _ _).trans ?_
  refine congrArg (a (ix3 r h l) + ·) ?_
  refine (Ideal.matmul_constant_zero_apply _ none _ _ _).trans ?_
  -- the contracted index is the pixel's column; the count is the sum of the indicator products
  rw [← Equiv.sum_comp (contrEquiv1 dot_S24x16x4096_S24x16x4096_S24x16x16_2_2_1_1_0_0 4096 rfl rfl).symm]
  rw [← Hist.sum_ind_mul_ind (fun p : Fin 4096 => x (ix2 r p)) h.val l.val h.isLt l.isLt]
  refine Finset.sum_congr rfl fun p _ => ?_
  have c3 := contrEquiv1_symm_val dot_S24x16x4096_S24x16x4096_S24x16x16_2_2_1_1_0_0 4096 rfl rfl p
  -- batch axis 0, free axis 1, contracted axis 2 on both operands: the left reads (r, h, p), the right (r, l, p)
  have l3 : dot_S24x16x4096_S24x16x4096_S24x16x16_2_2_1_1_0_0.lhsIdx (ix3 r h l)
      ((contrEquiv1 dot_S24x16x4096_S24x16x4096_S24x16x16_2_2_1_1_0_0 4096 rfl rfl).symm p) = ix3 r h p := by
    funext ax; apply Fin.ext
    match ax with
    | ⟨0, _⟩ => simp [DotDims.lhsIdx, dot_S24x16x4096_S24x16x4096_S24x16x16_2_2_1_1_0_0]; rfl
    | ⟨1, _⟩ => simp [DotDims.lhsIdx, dot_S24x16x4096_S24x16x4096_S24x16x16_2_2_1_1_0_0]; rfl
    | ⟨2, _⟩ => simp [DotDims.lhsIdx, dot_S24x16x4096_S24x16x4096_S24x16x16_2_2_1_1_0_0]; exact c3
  have r3 : dot_S24x16x4096_S24x16x4096_S24x16x16_2_2_1_1_0_0.rhsIdx (ix3 r h l)
      ((contrEquiv1 dot_S24x16x4096_S24x16x4096_S24x16x16_2_2_1_1_0_0 4096 rfl rfl).symm p) = ix3 r l p := by
    funext ax; apply Fin.ext
    match ax with
    | ⟨0, _⟩ => simp [DotDims.rhsIdx, dot_S24x16x4096_S24x16x4096_S24x16x16_2_2_1_1_0_0]; rfl
    | ⟨1, _⟩ => simp [DotDims.rhsIdx, dot_S24x16x4096_S24x16x4096_S24x16x16_2_2_1_1_0_0]; rfl
    | ⟨2, _⟩ => simp [DotDims.rhsIdx, dot_S24x16x4096_S24x16x4096_S24x16x16_2_2_1_1_0_0]; exact c3
  rw [l3, r3, onehot_apply, onehot_apply, shapeCast_self]
  rfl

/-- The output block: the scratch scaled by `2⁻¹⁸`, bin `n` read at digits `(n / 16, n % 16)`. -/
theorem pay1_apply (a : Vec Ideal S24x16x16 .f32) (r : Fin 24) (n : Fin 256) :
    k0_pay1 (F := Ideal) a (ix2 r n)
      = a (ix3 r ⟨n.val / 16, by have := n.isLt; omega⟩ ⟨n.val % 16, Nat.mod_lt _ (by norm_num)⟩) * Ideal.ofBits .f32 0x36800000#32 := by
  unfold k0_pay1
  show shapeCast S24x256 (mulf a (broadcast S24x16x16 (Scalar.ofBits (F := Ideal) .f32 0x36800000#32))) shapeCasts_S24x16x16_S24x256 (ix2 r n) = _
  -- row-major position: (r · 16 + n / 16) · 16 + n % 16 = r · 256 + n
  rw [shapeCast_apply _ _ (ix2 r n) (ix3 r ⟨n.val / 16, by have := n.isLt; omega⟩ ⟨n.val % 16, Nat.mod_lt _ (by norm_num)⟩) (by
    rw [Shape.rowMajor_val_three, Shape.rowMajor_val_two]
    show (r.val * 16 + n.val / 16) * 16 + n.val % 16 = r.val * 256 + n.val
    omega)]
  rfl

/-- The second pallas_call's payloads are the first's. -/
theorem k1_pay1_eq : @k1_pay1 = @k0_pay1 := rfl
theorem k1_pay2_eq : @k1_pay2 = @k0_pay2 := rfl
theorem k1_pay3_eq : @k1_pay3 = @k0_pay3 := rfl

/-! ## The rows' normalised histograms as one array -/

/-- The normalised histogram of every row of a `96 × 262144` array: at `(R, n)` the number of row `R`'s pixels in bin `n`
    times `2⁻¹⁸`.  What each pallas_call leaves in its output array. -/
def rowHist (X : Vec Ideal S96x262144 .f32) : FVec Ideal S96x256 .f32 :=
  fun j => ((Hist.cnt (fun p : Fin 262144 => X (ix2 (j 0) p)) (j 1).val : ℕ) : EReal) * Ideal.ofBits .f32 0x36800000#32

theorem rowHist_apply (X : Vec Ideal S96x262144 .f32) (R : Fin 96) (n : Fin 256) :
    rowHist X (ix2 R n) = ((Hist.cnt (fun p : Fin 262144 => X (ix2 R p)) n.val : ℕ) : EReal) * Ideal.ofBits .f32 0x36800000#32 := rfl

/-! ## The payload readings under each pallas_call's names -/

theorem pay2_apply0 (j : S24x16x16.Idx) : k0_pay2 (F := Ideal) j = 0 := pay2_apply j
theorem pay3_apply0 (x : Vec Ideal S24x4096 .f32) (a : Vec Ideal S24x16x16 .f32) (r : Fin 24) (h l : Fin 16) :
    k0_pay3 (F := Ideal) x a (ix3 r h l)
      = a (ix3 r h l) + ((Hist.cnt (fun p : Fin 4096 => x (ix2 r p)) (16 * h.val + l.val) : ℕ) : EReal) := pay3_apply x a r h l
theorem pay1_apply0 (a : Vec Ideal S24x16x16 .f32) (r : Fin 24) (n : Fin 256) :
    k0_pay1 (F := Ideal) a (ix2 r n)
      = a (ix3 r ⟨n.val / 16, by have := n.isLt; omega⟩ ⟨n.val % 16, Nat.mod_lt _ (by norm_num)⟩) * Ideal.ofBits .f32 0x36800000#32 := pay1_apply a r n
theorem pay2_apply1 (j : S24x16x16.Idx) : k1_pay2 (F := Ideal) j = 0 := pay2_apply j
theorem pay3_apply1 (x : Vec Ideal S24x4096 .f32) (a : Vec Ideal S24x16x16 .f32) (r : Fin 24) (h l : Fin 16) :
    k1_pay3 (F := Ideal) x a (ix3 r h l)
      = a (ix3 r h l) + ((Hist.cnt (fun p : Fin 4096 => x (ix2 r p)) (16 * h.val + l.val) : ℕ) : EReal) := pay3_apply x a r h l
theorem pay1_apply1 (a : Vec Ideal S24x16x16 .f32) (r : Fin 24) (n : Fin 256) :
    k1_pay1 (F := Ideal) a (ix2 r n)
      = a (ix3 r ⟨n.val / 16, by have := n.isLt; omega⟩ ⟨n.val % 16, Nat.mod_lt _ (by norm_num)⟩) * Ideal.ofBits .f32 0x36800000#32 := pay1_apply a r n

end Cert.KernelIdeal.KVal

end
-- ==== Proof.KIRows.lean ====
/-
  Rows of the input array as functions of a natural column number, and how a count over a prefix of a row splits.

  To add up the counts of a row's pixels prefix by prefix without carrying bounds in the types, the `96 × 262144` array is
  read at natural-number coordinates (reduced modulo the extents, which changes nothing in range).  Counting does not see
  how the number of pixels is written, nor which of two pointwise equal rows is counted; and the count over the first
  `P + Q` pixels of a row is the count over its first `P` pixels plus the count over the next `Q`.
-/
import proofs.«154098_j40140764348889_1_alg».proof.Proof.KIPayload
import proofs.«154098_j40140764348889_1_alg».proof.Proof.HistSpec

noncomputable section

namespace Cert.KernelIdeal.KVal

open Cert.KernelIdeal Cert.KernelIdeal.Gen
open Idealize.ShloMosaic Idealize.ShloMosaic.ValueIdx

/-- The array's entry at natural coordinates. -/
def ent (X : Vec Ideal S96x262144 .f32) (i j : ℕ) : Ideal .f32 :=
  X (ix2 ⟨i % 96, Nat.mod_lt _ (by norm_num)⟩ ⟨j % 262144, Nat.mod_lt _ (by norm_num)⟩)

theorem ent_of_lt (X : Vec Ideal S96x262144 .f32) (i j : ℕ) (hi : i < 96) (hj : j < 262144) :
    ent X i j = X (ix2 ⟨i, hi⟩ ⟨j, hj⟩) := by
  unfold ent
  have e1 : (⟨i % 96, Nat.mod_lt _ (by norm_num)⟩ : Fin 96) = ⟨i, hi⟩ := Fin.ext (Nat.mod_eq_of_lt hi)
  have e2 : (⟨j % 262144, Nat.mod_lt _ (by norm_num)⟩ : Fin 262144) = ⟨j, hj⟩ := Fin.ext (Nat.mod_eq_of_lt hj)
  rw [e1, e2]

/-- Counting does not see how the number of pixels is written, nor which of two pointwise equal rows is counted. -/
theorem cnt_congr {P Q : ℕ} (hPQ : P = Q) (row : Fin P → Ideal .f32) (row' : Fin Q → Ideal .f32)
    (h : ∀ p : Fin P, row p = row' (Fin.cast hPQ p)) (n : ℕ) : Hist.cnt row n = Hist.cnt row' n := by
  subst hPQ
  have e : row = row' := funext fun p => h p
  rw [e]

/-- A prefix of `P + Q` pixels is the prefix of `P` pixels and the next `Q`. -/
theorem cnt_prefix_split (f : ℕ → Ideal .f32) (P Q T : ℕ) (hT : T = P + Q) (n : ℕ) :
    Hist.cnt (fun p : Fin T => f p.val) n
      = Hist.cnt (fun p : Fin P => f p.val) n + Hist.cnt (fun q : Fin Q => f (P + q.val)) n := by
  subst hT
  exact Hist.cnt_append (fun p : Fin (P + Q) => f p.val) n

end Cert.KernelIdeal.KVal

end
-- ==== Proof.KIBlock0.lean ====
/-
  The first pallas_call's scratch and output block, read index by index at the ideal instance.

  Point `t` of the 4 × 64 grid is row tile `i = t / 64`, pixel block `k = t % 64`.  The input window's block there is rows
  `24·i … 24·i+23`, pixels `4096·k … 4096·k+4095` of the `96 × 262144` array.  After point `t` the scratch holds, at
  `(r, h, l)`, the number of pixels of bin `16·h + l` among the FIRST `4096·(k+1)` pixels of row `24·i + r`: a cleared
  scratch plus the first block's count at `k = 0`, one more block's count added at each later `k` (a row's count splits
  over a prefix and the next block).  At `k = 63` the prefix is the whole row, so the stored output block is the rows'
  normalised histogram read through the block.
-/
import proofs.«154098_j40140764348889_1_alg».proof.Proof.KIRegion0
import proofs.«154098_j40140764348889_1_alg».proof.Proof.KIPayload
import proofs.«154098_j40140764348889_1_alg».proof.Proof.KIRows

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem

-- The buffers' contents when the region is entered, per core.
variable (V : (c : Dev nD) → (b : Ref sig .tc) → Buf (Elt Ideal) ((c : Thread nD τ).loc b))

/-- The region's input array, at its literal type. -/
abbrev xarr0 (c : Dev nD) : Vec Ideal S96x262144 .f32 := V c main_v0

/-- The grid has 256 points. -/
theorem blk0_N : cfg0.N = 256 := N_0
/-- So a point's number is below 256. -/
theorem blk0_lt (t : Fin cfg0.N) : t.val < 256 := lt_of_lt_of_eq t.isLt blk0_N

/-- Point `t` of the grid reads the input's block `(t / 64, t % 64)`: checked on each of the 256 points. -/
theorem idx0 : ∀ t : Fin cfg0.N, win0_0.index t (0 : Fin 2) = t.val / 64 ∧ win0_0.index t (1 : Fin 2) = t.val % 64 :=
  (by decide +kernel : ∀ t : Fin grid0.N, _)

/-- The input window's block at point `t`, entry `(r, p)`, is the array's entry `(24·(t/64) + r, 4096·(t%64) + p)`. -/
theorem blk0_apply (c : Dev nD) (t : Fin cfg0.N) (r : Fin 24) (p : Fin 4096) :
    (iblk0 V c 0 t : Vec Ideal S24x4096 .f32) (ix2 r p)
      = xarr0 V c (ix2 ⟨24 * (t.val / 64) + r.val, by have := blk0_lt t; omega⟩
                     ⟨4096 * (t.val % 64) + p.val, by have := Nat.mod_lt t.val (show 0 < 64 by norm_num); omega⟩) := by
  have hi := idx0 t
  unfold iblk0
  rw [View.read_apply]
  show V c main_v0 _ = V c main_v0 _
  congr 1
  funext a
  apply Fin.ext
  match a with
  | ⟨0, _⟩ => show win0_0.index t 0 * 24 + 1 * r.val = 24 * (t.val / 64) + r.val; rw [hi.1]; omega
  | ⟨1, _⟩ => show win0_0.index t 1 * 4096 + 1 * p.val = 4096 * (t.val % 64) + p.val; rw [hi.2]; omega

/-- The scratch after point `n`, with the array read at natural coordinates. -/
theorem acc0_ent (c : Dev nD) : ∀ (n : ℕ) (hn : n < cfg0.N) (r : Fin 24) (h l : Fin 16),
    accAt0 V c n hn (ix3 r h l)
      = ((Hist.cnt (fun p : Fin (4096 * (n % 64 + 1)) => ent (xarr0 V c) (24 * (n / 64) + r.val) p.val)
          (16 * h.val + l.val) : ℕ) : EReal) := by
  intro n
  induction n using Nat.strong_induction_on with
  | _ n ih =>
    intro hn r h l
    have hn256 : n < 256 := lt_of_lt_of_eq hn blk0_N
    have hk64 : n % 64 < 64 := Nat.mod_lt _ (by norm_num)
    have hr := r.isLt
    -- the block's pixels of row r are the array's at columns 4096·(n % 64) + p
    have hblk : (fun p : Fin 4096 => (iblk0 V c 0 ⟨n, hn⟩ : Vec Ideal S24x4096 .f32) (ix2 r p))
        = fun p : Fin 4096 => ent (xarr0 V c) (24 * (n / 64) + r.val) (4096 * (n % 64) + p.val) := by
      funext p
      have hp := p.isLt
      rw [blk0_apply V c ⟨n, hn⟩ r p]
      exact (ent_of_lt (xarr0 V c) (24 * (n / 64) + r.val) (4096 * (n % 64) + p.val) (by omega) (by omega)).symm
    by_cases hk : n % 64 = 0
    · -- a first block: nothing before it
      have e : accAt0 V c n hn = k0_pay3 (iblk0 V c 0 ⟨n, hn⟩) (k0_pay2 (F := Ideal)) := accAt0_first V c ⟨n, hn⟩ hk
      rw [e, pay3_apply0, pay2_apply0, zero_add, hblk]
      refine congrArg (Nat.cast : ℕ → EReal) ?_
      refine cnt_congr (by omega) _ _ (fun p => ?_) _
      show ent (xarr0 V c) (24 * (n / 64) + r.val) (4096 * (n % 64) + p.val) = ent (xarr0 V c) (24 * (n / 64) + r.val) p.val
      rw [hk, Nat.mul_zero, Nat.zero_add]
    · -- a later block: the prefix before it, and the block
      have hn1 : n - 1 < n := by omega
      have hn1' : n - 1 < cfg0.N := lt_trans hn1 hn
      have hdiv : (n - 1) / 64 = n / 64 := by omega
      have e : accAt0 V c n hn = k0_pay3 (iblk0 V c 0 ⟨n, hn⟩) (accAt0 V c (n - 1) hn1') := accAt0_next V c ⟨n, hn⟩ hk
      have hA : Hist.cnt (fun p : Fin (4096 * ((n - 1) % 64 + 1)) => ent (xarr0 V c) (24 * ((n - 1) / 64) + r.val) p.val) (16 * h.val + l.val)
          = Hist.cnt (fun p : Fin (4096 * (n % 64)) => ent (xarr0 V c) (24 * (n / 64) + r.val) p.val) (16 * h.val + l.val) :=
        cnt_congr (by omega) _ _ (fun p => by
          show ent (xarr0 V c) (24 * ((n - 1) / 64) + r.val) p.val = ent (xarr0 V c) (24 * (n / 64) + r.val) p.val
          rw [hdiv]) _
      rw [e, pay3_apply0, ih (n - 1) hn1 hn1' r h l, hblk, ← Nat.cast_add, hA]
      refine congrArg (Nat.cast : ℕ → EReal) ?_
      exact (cnt_prefix_split (ent (xarr0 V c) (24 * (n / 64) + r.val)) (4096 * (n % 64)) 4096 (4096 * (n % 64 + 1)) (by omega) _).symm

/-- The scratch after point `t`: the counts over the first `4096·(t%64 + 1)` pixels of the tile's rows. -/
theorem acc0_apply (c : Dev nD) (t : Fin cfg0.N) (r : Fin 24) (h l : Fin 16) :
    accAt0 V c t.val t.isLt (ix3 r h l)
      = ((Hist.cnt (fun p : Fin (4096 * (t.val % 64 + 1)) =>
            xarr0 V c (ix2 ⟨24 * (t.val / 64) + r.val, by have := blk0_lt t; omega⟩
                           ⟨p.val, by have := p.isLt; have := Nat.mod_lt t.val (show 0 < 64 by norm_num); omega⟩))
          (16 * h.val + l.val) : ℕ) : EReal) := by
  rw [acc0_ent V c t.val t.isLt r h l]
  refine congrArg (Nat.cast : ℕ → EReal) ?_
  refine cnt_congr rfl _ _ (fun p => ?_) _
  exact ent_of_lt _ _ _ _ _

/-- At a last block the stored output block is the rows' normalised histogram, read at the tile's rows. -/
theorem out0_apply (c : Dev nD) (t : Fin cfg0.N) (ht : t.val % 64 = 63) (r : Fin 24) (n : Fin 256) :
    k0_pay1 (F := Ideal) (accAt0 V c t.val t.isLt) (ix2 r n)
      = rowHist (xarr0 V c) (ix2 ⟨24 * (t.val / 64) + r.val, by have := blk0_lt t; omega⟩ n) := by
  have ht256 := blk0_lt t
  have hm : 16 * (n.val / 16) + n.val % 16 = n.val := Nat.div_add_mod _ _
  rw [pay1_apply0, acc0_ent V c t.val t.isLt, rowHist_apply]
  refine congrArg (· * _) ?_
  refine congrArg (Nat.cast : ℕ → EReal) ?_
  show Hist.cnt _ (16 * (n.val / 16) + n.val % 16) = _
  rw [hm]
  refine cnt_congr (by omega) _ _ (fun p => ?_) _
  exact ent_of_lt _ _ _ _ _

end Cert.KernelIdeal.KVal

end
-- ==== Proof.KIFinal0.lean ====
/-
  The first pallas_call's output array after the run, at the ideal instance: the rows' normalised histogram.

  The output window is written back at the last pixel block of each row tile (points 63, 127, 191, 255), block
  `(i, 0)` of the `96 × 256` array: rows `24·i … 24·i+23`, all 256 bins.  What is written back there is the rows'
  normalised histogram read through that block; the four blocks tile the array; so the array ends holding it.
-/
import proofs.«154098_j40140764348889_1_alg».proof.Proof.KIBlock0
import Idealize.ShloMosaic.Lib.Pipeline.Value

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- The buffers' contents when the region is entered, per core.
variable (V : (c : Dev nD) → (b : Ref sig .tc) → Buf (Elt Ideal) ((c : Thread nD τ).loc b))

/-- The output window's block index at point `t` is `(t / 64, 0)`, decided over the grid. -/
theorem oidx0 : ∀ t : Fin cfg0.N, win0_1.index t (0 : Fin 2) = t.val / 64 ∧ win0_1.index t (1 : Fin 2) = 0 :=
  (by decide +kernel : ∀ t : Fin grid0.N, win0_1.index t (0 : Fin 2) = t.val / 64 ∧ win0_1.index t (1 : Fin 2) = 0)

/-- WHAT A FLUSHING POINT WRITES BACK is its block of the rows' normalised histogram of the array the region finds. -/
theorem flushed0_eq (c : Dev nD) (t : Fin cfg0.N) (hf : (cfg0.win 1).flush t = true) :
    (dat0 V c).flushed 1 t = ((cfg0.win 1).blk t).view.read (Elt Ideal) (rowHist (xarr0 V c)) := by
  have ht : t.val % 64 = 63 := (flush0_1 t).mp hf
  show (cfg0.win 1).cut (grid0.coords t) ((dat0 V c).after 1 t) = _
  rw [after0_1]
  obtain ⟨e0, e1⟩ := oidx0 t
  funext j
  obtain ⟨r, n, rfl⟩ : ∃ (r : Fin 24) (n : Fin 256), j = ix2 r n := ⟨j 0, j 1, eq_ix2 j⟩
  rw [View.read_apply]
  show k0_pay1 (F := Ideal) (accAt0 V c t.val t.isLt) (ix2 r n) = rowHist (xarr0 V c) (((cfg0.win 1).blk t).view.emb (ix2 r n))
  rw [out0_apply V c t ht r n]
  congr 1
  funext a; apply Fin.ext
  match a with
  | ⟨0, _⟩ => show 24 * (t.val / 64) + r.val = win0_1.index t (0 : Fin 2) * 24 + 1 * r.val; rw [e0]; omega
  | ⟨1, _⟩ => show n.val = win0_1.index t (1 : Fin 2) * 256 + 1 * n.val; rw [e1]; omega

/-- An index of the array is in point `t`'s block iff each coordinate is in the block's range on its axis. -/
theorem mem_oblk0 (t : Fin cfg0.N) (i : S96x256.Idx) :
    i ∈ ((cfg0.win 1).blk t).view.set ↔ ∀ a : Fin 2, win0_1.index t a * S24x256.size a ≤ (i a).val ∧ (i a).val < win0_1.index t a * S24x256.size a + S24x256.size a := by
  show i ∈ ((View.whole main_v1).slice (win0_1.rect t)).set ↔ _
  rw [View.set_slice_whole, Rect.mem_set_unit]
  exact Iff.rfl

/-- Every index of the array is in the block some flushing point writes back: row `R` in that of point `64·(R/24) + 63`. -/
theorem ocover0 (i : S96x256.Idx) : ∃ t : Fin cfg0.N, (cfg0.win 1).flush t = true ∧ i ∈ ((cfg0.win 1).blk t).view.set := by
  have hi0 : (i 0).val < 96 := (i 0).isLt
  have hi1 : (i 1).val < 256 := (i 1).isLt
  have hlt : 64 * ((i 0).val / 24) + 63 < cfg0.N := by rw [blk0_N]; omega
  refine ⟨⟨64 * ((i 0).val / 24) + 63, hlt⟩, (flush0_1 _).mpr (by show (64 * ((i 0).val / 24) + 63) % 64 = 63; omega), ?_⟩
  rw [mem_oblk0]
  obtain ⟨e0, e1⟩ := oidx0 ⟨64 * ((i 0).val / 24) + 63, hlt⟩
  have e0' : win0_1.index ⟨64 * ((i 0).val / 24) + 63, hlt⟩ (0 : Fin 2) = (i 0).val / 24 := by rw [e0]; show (64 * ((i 0).val / 24) + 63) / 64 = _; omega
  intro a
  match a with
  | ⟨0, _⟩ => show win0_1.index _ (0 : Fin 2) * 24 ≤ (i 0).val ∧ (i 0).val < win0_1.index _ (0 : Fin 2) * 24 + 24; rw [e0']; omega
  | ⟨1, _⟩ => show win0_1.index _ (1 : Fin 2) * 256 ≤ (i 1).val ∧ (i 1).val < win0_1.index _ (1 : Fin 2) * 256 + 256; rw [e1]; omega

/-- THE OUTPUT ARRAY after the run: the rows' normalised histogram of the input array as the region found it. -/
theorem final0 (c : Dev nD) : (dat0 V c).arrAt 1 cfg0.N = rowHist (xarr0 V c) :=
  (dat0 V c).arrAt_eq_of_cover 1 (rowHist (xarr0 V c)) (flushed0_eq V c) (ocover0)

end Cert.KernelIdeal.KVal

end
-- ==== Proof.KIBlock1.lean ====
/-
  The second pallas_call's scratch and output block, read index by index at the ideal instance.

  Point `t` of the 4 × 64 grid is row tile `i = t / 64`, pixel block `k = t % 64`.  The input window's block there is rows
  `24·i … 24·i+23`, pixels `4096·k … 4096·k+4095` of the `96 × 262144` array.  After point `t` the scratch holds, at
  `(r, h, l)`, the number of pixels of bin `16·h + l` among the FIRST `4096·(k+1)` pixels of row `24·i + r`: a cleared
  scratch plus the first block's count at `k = 0`, one more block's count added at each later `k` (a row's count splits
  over a prefix and the next block).  At `k = 63` the prefix is the whole row, so the stored output block is the rows'
  normalised histogram read through the block.
-/
import proofs.«154098_j40140764348889_1_alg».proof.Proof.KIRegion1
import proofs.«154098_j40140764348889_1_alg».proof.Proof.KIPayload
import proofs.«154098_j40140764348889_1_alg».proof.Proof.KIRows

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem

-- The buffers' contents when the region is entered, per core.
variable (V : (c : Dev nD) → (b : Ref sig .tc) → Buf (Elt Ideal) ((c : Thread nD τ).loc b))

/-- The region's input array, at its literal type. -/
abbrev xarr1 (c : Dev nD) : Vec Ideal S96x262144 .f32 := V c main_v6

/-- The grid has 256 points. -/
theorem blk1_N : cfg1.N = 256 := N_1
/-- So a point's number is below 256. -/
theorem blk1_lt (t : Fin cfg1.N) : t.val < 256 := lt_of_lt_of_eq t.isLt blk1_N

/-- Point `t` of the grid reads the input's block `(t / 64, t % 64)`: checked on each of the 256 points. -/
theorem idx1 : ∀ t : Fin cfg1.N, win1_0.index t (0 : Fin 2) = t.val / 64 ∧ win1_0.index t (1 : Fin 2) = t.val % 64 :=
  (by decide +kernel : ∀ t : Fin grid1.N, _)

/-- The input window's block at point `t`, entry `(r, p)`, is the array's entry `(24·(t/64) + r, 4096·(t%64) + p)`. -/
theorem blk1_apply (c : Dev nD) (t : Fin cfg1.N) (r : Fin 24) (p : Fin 4096) :
    (iblk1 V c 0 t : Vec Ideal S24x4096 .f32) (ix2 r p)
      = xarr1 V c (ix2 ⟨24 * (t.val / 64) + r.val, by have := blk1_lt t; omega⟩
                     ⟨4096 * (t.val % 64) + p.val, by have := Nat.mod_lt t.val (show 0 < 64 by norm_num); omega⟩) := by
  have hi := idx1 t
  unfold iblk1
  rw [View.read_apply]
  show V c main_v6 _ = V c main_v6 _
  congr 1
  funext a
  apply Fin.ext
  match a with
  | ⟨0, _⟩ => show win1_0.index t 0 * 24 + 1 * r.val = 24 * (t.val / 64) + r.val; rw [hi.1]; omega
  | ⟨1, _⟩ => show win1_0.index t 1 * 4096 + 1 * p.val = 4096 * (t.val % 64) + p.val; rw [hi.2]; omega

/-- The scratch after point `n`, with the array read at natural coordinates. -/
theorem acc1_ent (c : Dev nD) : ∀ (n : ℕ) (hn : n < cfg1.N) (r : Fin 24) (h l : Fin 16),
    accAt1 V c n hn (ix3 r h l)
      = ((Hist.cnt (fun p : Fin (4096 * (n % 64 + 1)) => ent (xarr1 V c) (24 * (n / 64) + r.val) p.val)
          (16 * h.val + l.val) : ℕ) : EReal) := by
  intro n
  induction n using Nat.strong_induction_on with
  | _ n ih =>
    intro hn r h l
    have hn256 : n < 256 := lt_of_lt_of_eq hn blk1_N
    have hk64 : n % 64 < 64 := Nat.mod_lt _ (by norm_num)
    have hr := r.isLt
    -- the block's pixels of row r are the array's at columns 4096·(n % 64) + p
    have hblk : (fun p : Fin 4096 => (iblk1 V c 0 ⟨n, hn⟩ : Vec Ideal S24x4096 .f32) (ix2 r p))
        = fun p : Fin 4096 => ent (xarr1 V c) (24 * (n / 64) + r.val) (4096 * (n % 64) + p.val) := by
      funext p
      have hp := p.isLt
      rw [blk1_apply V c ⟨n, hn⟩ r p]
      exact (ent_of_lt (xarr1 V c) (24 * (n / 64) + r.val) (4096 * (n % 64) + p.val) (by omega) (by omega)).symm
    by_cases hk : n % 64 = 0
    · -- a first block: nothing before it
      have e : accAt1 V c n hn = k1_pay3 (iblk1 V c 0 ⟨n, hn⟩) (k1_pay2 (F := Ideal)) := accAt1_first V c ⟨n, hn⟩ hk
      rw [e, pay3_apply1, pay2_apply1, zero_add, hblk]
      refine congrArg (Nat.cast : ℕ → EReal) ?_
      refine cnt_congr (by omega) _ _ (fun p => ?_) _
      show ent (xarr1 V c) (24 * (n / 64) + r.val) (4096 * (n % 64) + p.val) = ent (xarr1 V c) (24 * (n / 64) + r.val) p.val
      rw [hk, Nat.mul_zero, Nat.zero_add]
    · -- a later block: the prefix before it, and the block
      have hn1 : n - 1 < n := by omega
      have hn1' : n - 1 < cfg1.N := lt_trans hn1 hn
      have hdiv : (n - 1) / 64 = n / 64 := by omega
      have e : accAt1 V c n hn = k1_pay3 (iblk1 V c 0 ⟨n, hn⟩) (accAt1 V c (n - 1) hn1') := accAt1_next V c ⟨n, hn⟩ hk
      have hA : Hist.cnt (fun p : Fin (4096 * ((n - 1) % 64 + 1)) => ent (xarr1 V c) (24 * ((n - 1) / 64) + r.val) p.val) (16 * h.val + l.val)
          = Hist.cnt (fun p : Fin (4096 * (n % 64)) => ent (xarr1 V c) (24 * (n / 64) + r.val) p.val) (16 * h.val + l.val) :=
        cnt_congr (by omega) _ _ (fun p => by
          show ent (xarr1 V c) (24 * ((n - 1) / 64) + r.val) p.val = ent (xarr1 V c) (24 * (n / 64) + r.val) p.val
          rw [hdiv]) _
      rw [e, pay3_apply1, ih (n - 1) hn1 hn1' r h l, hblk, ← Nat.cast_add, hA]
      refine congrArg (Nat.cast : ℕ → EReal) ?_
      exact (cnt_prefix_split (ent (xarr1 V c) (24 * (n / 64) + r.val)) (4096 * (n % 64)) 4096 (4096 * (n % 64 + 1)) (by omega) _).symm

/-- The scratch after point `t`: the counts over the first `4096·(t%64 + 1)` pixels of the tile's rows. -/
theorem acc1_apply (c : Dev nD) (t : Fin cfg1.N) (r : Fin 24) (h l : Fin 16) :
    accAt1 V c t.val t.isLt (ix3 r h l)
      = ((Hist.cnt (fun p : Fin (4096 * (t.val % 64 + 1)) =>
            xarr1 V c (ix2 ⟨24 * (t.val / 64) + r.val, by have := blk1_lt t; omega⟩
                           ⟨p.val, by have := p.isLt; have := Nat.mod_lt t.val (show 0 < 64 by norm_num); omega⟩))
          (16 * h.val + l.val) : ℕ) : EReal) := by
  rw [acc1_ent V c t.val t.isLt r h l]
  refine congrArg (Nat.cast : ℕ → EReal) ?_
  refine cnt_congr rfl _ _ (fun p => ?_) _
  exact ent_of_lt _ _ _ _ _

/-- At a last block the stored output block is the rows' normalised histogram, read at the tile's rows. -/
theorem out1_apply (c : Dev nD) (t : Fin cfg1.N) (ht : t.val % 64 = 63) (r : Fin 24) (n : Fin 256) :
    k1_pay1 (F := Ideal) (accAt1 V c t.val t.isLt) (ix2 r n)
      = rowHist (xarr1 V c) (ix2 ⟨24 * (t.val / 64) + r.val, by have := blk1_lt t; omega⟩ n) := by
  have ht256 := blk1_lt t
  have hm : 16 * (n.val / 16) + n.val % 16 = n.val := Nat.div_add_mod _ _
  rw [pay1_apply1, acc1_ent V c t.val t.isLt, rowHist_apply]
  refine congrArg (· * _) ?_
  refine congrArg (Nat.cast : ℕ → EReal) ?_
  show Hist.cnt _ (16 * (n.val / 16) + n.val % 16) = _
  rw [hm]
  refine cnt_congr (by omega) _ _ (fun p => ?_) _
  exact ent_of_lt _ _ _ _ _

end Cert.KernelIdeal.KVal

end
-- ==== Proof.KIFinal1.lean ====
/-
  The second pallas_call's output array after the run, at the ideal instance: the rows' normalised histogram.

  The output window is written back at the last pixel block of each row tile (points 63, 127, 191, 255), block
  `(i, 0)` of the `96 × 256` array: rows `24·i … 24·i+23`, all 256 bins.  What is written back there is the rows'
  normalised histogram read through that block; the four blocks tile the array; so the array ends holding it.
-/
import proofs.«154098_j40140764348889_1_alg».proof.Proof.KIBlock1
import Idealize.ShloMosaic.Lib.Pipeline.Value

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- The buffers' contents when the region is entered, per core.
variable (V : (c : Dev nD) → (b : Ref sig .tc) → Buf (Elt Ideal) ((c : Thread nD τ).loc b))

/-- The output window's block index at point `t` is `(t / 64, 0)`, decided over the grid. -/
theorem oidx1 : ∀ t : Fin cfg1.N, win1_1.index t (0 : Fin 2) = t.val / 64 ∧ win1_1.index t (1 : Fin 2) = 0 :=
  (by decide +kernel : ∀ t : Fin grid1.N, win1_1.index t (0 : Fin 2) = t.val / 64 ∧ win1_1.index t (1 : Fin 2) = 0)

/-- WHAT A FLUSHING POINT WRITES BACK is its block of the rows' normalised histogram of the array the region finds. -/
theorem flushed1_eq (c : Dev nD) (t : Fin cfg1.N) (hf : (cfg1.win 1).flush t = true) :
    (dat1 V c).flushed 1 t = ((cfg1.win 1).blk t).view.read (Elt Ideal) (rowHist (xarr1 V c)) := by
  have ht : t.val % 64 = 63 := (flush1_1 t).mp hf
  show (cfg1.win 1).cut (grid1.coords t) ((dat1 V c).after 1 t) = _
  rw [after1_1]
  obtain ⟨e0, e1⟩ := oidx1 t
  funext j
  obtain ⟨r, n, rfl⟩ : ∃ (r : Fin 24) (n : Fin 256), j = ix2 r n := ⟨j 0, j 1, eq_ix2 j⟩
  rw [View.read_apply]
  show k1_pay1 (F := Ideal) (accAt1 V c t.val t.isLt) (ix2 r n) = rowHist (xarr1 V c) (((cfg1.win 1).blk t).view.emb (ix2 r n))
  rw [out1_apply V c t ht r n]
  congr 1
  funext a; apply Fin.ext
  match a with
  | ⟨0, _⟩ => show 24 * (t.val / 64) + r.val = win1_1.index t (0 : Fin 2) * 24 + 1 * r.val; rw [e0]; omega
  | ⟨1, _⟩ => show n.val = win1_1.index t (1 : Fin 2) * 256 + 1 * n.val; rw [e1]; omega

/-- An index of the array is in point `t`'s block iff each coordinate is in the block's range on its axis. -/
theorem mem_oblk1 (t : Fin cfg1.N) (i : S96x256.Idx) :
    i ∈ ((cfg1.win 1).blk t).view.set ↔ ∀ a : Fin 2, win1_1.index t a * S24x256.size a ≤ (i a).val ∧ (i a).val < win1_1.index t a * S24x256.size a + S24x256.size a := by
  show i ∈ ((View.whole main_v7).slice (win1_1.rect t)).set ↔ _
  rw [View.set_slice_whole, Rect.mem_set_unit]
  exact Iff.rfl

/-- Every index of the array is in the block some flushing point writes back: row `R` in that of point `64·(R/24) + 63`. -/
theorem ocover1 (i : S96x256.Idx) : ∃ t : Fin cfg1.N, (cfg1.win 1).flush t = true ∧ i ∈ ((cfg1.win 1).blk t).view.set := by
  have hi0 : (i 0).val < 96 := (i 0).isLt
  have hi1 : (i 1).val < 256 := (i 1).isLt
  have hlt : 64 * ((i 0).val / 24) + 63 < cfg1.N := by rw [blk1_N]; omega
  refine ⟨⟨64 * ((i 0).val / 24) + 63, hlt⟩, (flush1_1 _).mpr (by show (64 * ((i 0).val / 24) + 63) % 64 = 63; omega), ?_⟩
  rw [mem_oblk1]
  obtain ⟨e0, e1⟩ := oidx1 ⟨64 * ((i 0).val / 24) + 63, hlt⟩
  have e0' : win1_1.index ⟨64 * ((i 0).val / 24) + 63, hlt⟩ (0 : Fin 2) = (i 0).val / 24 := by rw [e0]; show (64 * ((i 0).val / 24) + 63) / 64 = _; omega
  intro a
  match a with
  | ⟨0, _⟩ => show win1_1.index _ (0 : Fin 2) * 24 ≤ (i 0).val ∧ (i 0).val < win1_1.index _ (0 : Fin 2) * 24 + 24; rw [e0']; omega
  | ⟨1, _⟩ => show win1_1.index _ (1 : Fin 2) * 256 ≤ (i 1).val ∧ (i 1).val < win1_1.index _ (1 : Fin 2) * 256 + 256; rw [e1]; omega

/-- THE OUTPUT ARRAY after the run: the rows' normalised histogram of the input array as the region found it. -/
theorem final1 (c : Dev nD) : (dat1 V c).arrAt 1 cfg1.N = rowHist (xarr1 V c) :=
  (dat1 V c).arrAt_eq_of_cover 1 (rowHist (xarr1 V c)) (flushed1_eq V c) (ocover1)

end Cert.KernelIdeal.KVal

end
-- ==== Proof.HistArr.lean ====
/-
  The array-level vocabulary both sides of the equivalence are stated in.

  An input is a batch of 32 images of 3 channels of 512 × 512 pixels.  The 262144 pixels of one channel image `(b, ch)`
  in row-major order form its ROW (`rowOf`).  Its normalised histogram has, at bin `n`, the number of the row's pixels
  in that bin times `2⁻¹⁸` (`histVal`): what the kernel's two regions leave in their output arrays, and what the
  reference's scatter, row sum, guarded maximum and quotient compute.  From the two inputs' normalised histograms
  both programs then run ONE chain of host operations (`tail`): the mean over the batch of each, the absolute difference,
  the mean over the 3 × 256 entries.
-/
import proofs.«154098_j40140764348889_1_alg».proof.Proof.HistSpec
import Idealize.ShloMosaic.Lib.ValueIdx
import Idealize.ShloMosaic.PureOps

noncomputable section

namespace Hist

open Idealize.ShloMosaic Idealize.ShloMosaic.ValueIdx

abbrev SIn : Shape := ⟨4, ![32, 3, 512, 512]⟩
abbrev SH : Shape := ⟨3, ![32, 3, 256]⟩
abbrev SM : Shape := ⟨2, ![3, 256]⟩
abbrev S0 : Shape := ⟨0, ![]⟩

/-- Pixel `p` (row-major over 512 × 512) of channel image `(b, ch)`. -/
def rowOf (x : SIn.Idx → Ideal .f32) (b : Fin 32) (ch : Fin 3) : Fin 262144 → Ideal .f32 :=
  fun p => x (ix4 b ch ⟨p.val / 512, by have := p.isLt; omega⟩ ⟨p.val % 512, Nat.mod_lt _ (by norm_num)⟩)

/-- The normalised histogram of channel image `(b, ch)` at bin `n`: the count times `2⁻¹⁸`. -/
def histVal (x : SIn.Idx → Ideal .f32) (b : Fin 32) (ch : Fin 3) (n : Fin 256) : EReal :=
  ((cnt (rowOf x b ch) n.val : ℕ) : EReal) * Ideal.ofBits .f32 0x36800000#32

/-- The normalised histograms of an input as one array. -/
def histArr (x : SIn.Idx → Ideal .f32) : FVec Ideal SH .f32 := fun j => histVal x (j 0) (j 1) (j 2)

theorem histArr_apply (x : SIn.Idx → Ideal .f32) (b : Fin 32) (ch : Fin 3) (n : Fin 256) :
    histArr x (ix3 b ch n) = histVal x b ch n := rfl

/-- An array of the histogram's shape that agrees with `histVal` at every coordinate triple is `histArr`. -/
theorem eq_histArr (x : SIn.Idx → Ideal .f32) (h : FVec Ideal SH .f32)
    (hh : ∀ (b : Fin 32) (ch : Fin 3) (n : Fin 256), h (ix3 b ch n) = histVal x b ch n) : h = histArr x := by
  funext j
  rw [eq_ix3 j]
  exact hh _ _ _

/-- The host chain both programs end with, from the two inputs' normalised histograms: each one's sum over the batch
    (from `0`) divided by `32`; the difference; its absolute value; the sum over all `3 × 256` entries (from `0`)
    divided by `768`. -/
def tail (hf hr : FVec Ideal SH .f32) : FVec Ideal S0 .f32 :=
  Host.divf
    (Host.reduceAdd (s := SM) (axes := [0, 1]) (t := S0) (u := S0)
      (Host.absf (subf
        (Host.divf (Host.reduceAdd (s := SH) (axes := [0]) (t := SM) (u := S0) hf (constant (F := Ideal) S0 .f32 0x00000000#32))
          (broadcastInDim SM ![] (by decide) (constant (F := Ideal) S0 .f32 0x42000000#32)))
        (Host.divf (Host.reduceAdd (s := SH) (axes := [0]) (t := SM) (u := S0) hr (constant (F := Ideal) S0 .f32 0x00000000#32))
          (broadcastInDim SM ![] (by decide) (constant (F := Ideal) S0 .f32 0x42000000#32)))))
      (constant (F := Ideal) S0 .f32 0x00000000#32))
    (constant (F := Ideal) S0 .f32 0x44400000#32)

end Hist

end
-- ==== Proof.KIBridge.lean ====
/-
  The two re-layings around a pallas_call, read index by index at the ideal instance.

  @main flattens an input `32 × 3 × 512 × 512` to `96 × 262144` before the call (row `3·b + ch` is channel image `(b, ch)`,
  its pixel `512·y + x` the image's `(y, x)`) and re-lays the call's `96 × 256` result to `32 × 3 × 256` after it.  Both are
  row-major re-readings, so the re-laid rows' normalised histogram is the input's normalised histogram array
  `Hist.histArr`: entry `(b, ch, n)` counts the pixels of channel image `(b, ch)` in bin `n`.
-/
import proofs.«154098_j40140764348889_1_alg».proof.Proof.KIPayload
import proofs.«154098_j40140764348889_1_alg».proof.Proof.HistArr
import Idealize.ShloMosaic.Lib.ValueIdx
import Idealize.ShloMosaic.Lib.ValueLayout
import Idealize.ShloMosaic.Lib.Pipeline.Value

noncomputable section

namespace Cert.KernelIdeal.KVal

open Cert.KernelIdeal Cert.KernelIdeal.Gen
open Idealize.ShloMosaic Idealize.ShloMosaic.ValueIdx

/-- The flattened input's row `3·b + ch`, pixel `p`, is the input at `(b, ch, p / 512, p % 512)`. -/
theorem flat_apply (x : FVec Ideal S32x3x512x512 .f32) (b : Fin 32) (ch : Fin 3) (p : Fin 262144) :
    shapeCast S96x262144 x Facts₀.shapeCasts_S32x3x512x512_S96x262144 (ix2 ⟨3 * b.val + ch.val, by have := b.isLt; have := ch.isLt; omega⟩ p)
      = Hist.rowOf x b ch p := by
  unfold Hist.rowOf
  refine shapeCast_apply x _ _ _ ?_
  rw [Shape.rowMajor_val_four, Shape.rowMajor_val_two]
  show ((b.val * 3 + ch.val) * 512 + p.val / 512) * 512 + p.val % 512 = (3 * b.val + ch.val) * 262144 + p.val
  omega

/-- The re-laid result at `(b, ch, n)` is the `96 × 256` array at `(3·b + ch, n)`. -/
theorem relay_apply (h : FVec Ideal S96x256 .f32) (b : Fin 32) (ch : Fin 3) (n : Fin 256) :
    shapeCast S32x3x256 h Facts₀.shapeCasts_S96x256_S32x3x256 (ix3 b ch n)
      = h (ix2 ⟨3 * b.val + ch.val, by have := b.isLt; have := ch.isLt; omega⟩ n) := by
  refine shapeCast_apply h _ _ _ ?_
  rw [Shape.rowMajor_val_two, Shape.rowMajor_val_three]
  show (3 * b.val + ch.val) * 256 + n.val = (b.val * 3 + ch.val) * 256 + n.val
  omega

/-- THE BRIDGE: re-laying the rows' normalised histogram of the flattened input gives the input's normalised histogram
    array. -/
theorem hist_bridge (x : FVec Ideal S32x3x512x512 .f32) :
    shapeCast S32x3x256 (rowHist (shapeCast S96x262144 x Facts₀.shapeCasts_S32x3x512x512_S96x262144)) Facts₀.shapeCasts_S96x256_S32x3x256
      = Hist.histArr x := by
  refine Hist.eq_histArr x _ fun b ch n => ?_
  rw [relay_apply, rowHist_apply]
  have hrow : (fun p : Fin 262144 => shapeCast S96x262144 x Facts₀.shapeCasts_S32x3x512x512_S96x262144
      (ix2 ⟨3 * b.val + ch.val, by have := b.isLt; have := ch.isLt; omega⟩ p)) = Hist.rowOf x b ch :=
    funext fun p => flat_apply x b ch p
  rw [hrow]
  rfl

end Cert.KernelIdeal.KVal

end
-- ==== Proof.KIResult.lean ====
/-
  The idealized program's result, read back to the shared vocabulary.

  The last host stretch computes, from the first input's batch mean (made in the stretch before it) and the second
  call's re-laid output, the mean absolute difference; the stretch before it computes the first batch mean from the first
  call's re-laid output.  Each call's output array is the rows' normalised histogram of its flattened input, and re-laid
  that is the input's normalised histogram array.  So the result buffer ends at the shared tail of the two inputs'
  normalised histogram arrays.
-/
import proofs.«154098_j40140764348889_1_alg».proof.Proof.KIVals
import proofs.«154098_j40140764348889_1_alg».proof.Proof.KIFinal0
import proofs.«154098_j40140764348889_1_alg».proof.Proof.KIFinal1
import proofs.«154098_j40140764348889_1_alg».proof.Proof.KIBridge
import proofs.«154098_j40140764348889_1_alg».proof.Proof.Gen.KernelIdeal.Regions
import Idealize.ShloMosaic.Lib.StableHlo.Run

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-- The first call's input array is the first argument flattened. -/
theorem in0_eq (c : Dev nD) :
    xarr0 (Hand.V1 m) c = shapeCast S96x262144 (m ((c : Thread nD τ).loc main_arg0)) Facts₀.shapeCasts_S32x3x512x512_S96x262144 := by
  show StableHlo.after hostOps0 (W0 m c) (Proc.devRef .tc main_v0) = _
  after_results; rfl

/-- The first call's output array after its region: the rows' normalised histogram of that. -/
theorem out0_eq (c : Dev nD) : W2 m c (Proc.devRef .tc main_v1) = rowHist (xarr0 (Hand.V1 m) c) :=
  (W2_arr m c 1).trans (final0 (Hand.V1 m) c)

/-- No item before the second call writes the second argument. -/
theorem W2_main_arg1 (c : Dev nD) : W2 m c (Proc.devRef .tc main_arg1) = m ((c : Thread nD τ).loc main_arg1) :=
  (W2_of_ne m c main_arg1 (by decide)).trans (StableHlo.after_of_writes_sub hostOps0 _ hostOps0_writes (by decide))

/-- The second call's input array is the second argument flattened. -/
theorem in1_eq (c : Dev nD) :
    xarr1 (Hand.V3 m) c = shapeCast S96x262144 (m ((c : Thread nD τ).loc main_arg1)) Facts₀.shapeCasts_S32x3x512x512_S96x262144 := by
  show StableHlo.after hostOps1 (W2 m c) (Proc.devRef .tc main_v6) = _
  after_results
  rw [W2_main_arg1]; rfl

/-- The second call's output array after its region. -/
theorem out1_eq (c : Dev nD) : W4 m c (Proc.devRef .tc main_v7) = rowHist (xarr1 (Hand.V3 m) c) :=
  (W4_arr m c 1).trans (final1 (Hand.V3 m) c)

/-- The first input's batch mean, made between the calls, survives the second call; -/
theorem W4_main_v5 (c : Dev nD) : W4 m c (Proc.devRef .tc main_v5) = W3 m c (Proc.devRef .tc main_v5) :=
  W4_of_ne m c main_v5 (by decide)

/-- it is the first call's re-laid output summed over the batch (from `0`) and divided by `32`. -/
theorem W3_main_v5 (c : Dev nD) : W3 m c (Proc.devRef .tc main_v5)
    = Host.divf (Host.reduceAdd (shapeCast S32x3x256 (W2 m c (Proc.devRef .tc main_v1)) Facts₀.shapeCasts_S96x256_S32x3x256) (constant (F := Ideal) S_ .f32 0x00000000#32) Facts₀.reducesTo_S32x3x256_S3x256_d0 Facts₀.h_S_)
        (broadcastInDim S3x256 ![] Facts₀.bcast_S_S3x256 (constant (F := Ideal) S_ .f32 0x42000000#32)) := by
  show StableHlo.after hostOps1 (W2 m c) (Proc.devRef .tc main_v5) = _
  after_results
  rfl

/-- The result buffer at the last boundary: the shared tail of the two calls' re-laid output arrays. -/
theorem result_outs (c : Dev nD) :
    W5 m c (Proc.devRef .tc main_v15)
      = Hist.tail (shapeCast S32x3x256 (W2 m c (Proc.devRef .tc main_v1)) Facts₀.shapeCasts_S96x256_S32x3x256)
                  (shapeCast S32x3x256 (W4 m c (Proc.devRef .tc main_v7)) Facts₀.shapeCasts_S96x256_S32x3x256) := by
  show StableHlo.after hostOps2 (W4 m c) (Proc.devRef .tc main_v15) = _
  after_results
  rw [W4_main_v5, W3_main_v5]
  rfl

/-- THE KERNEL'S VALUE: the result buffer at the last boundary is the shared tail of the two inputs' normalised
    histogram arrays. -/
theorem result_eq (c : Dev nD) :
    W5 m c (Proc.devRef .tc main_v15)
      = Hist.tail (Hist.histArr (m ((c : Thread nD τ).loc main_arg0))) (Hist.histArr (m ((c : Thread nD τ).loc main_arg1))) := by
  rw [result_outs, out0_eq, out1_eq, in0_eq, in1_eq, hist_bridge, hist_bridge]

end Cert.KernelIdeal.KVal

end
-- ==== Proof.RefHist.lean ====
/-
  The reference program's result, read back to the shared vocabulary.

  For each input the reference clamps `toInt (x · 256)` to `[0, 255]`, offsets it by `256 · (3·b + ch)`, flattens, and adds
  a `1` at that slot of a zeroed array of `96 · 256` slots once per pixel; re-laid as `32 × 3 × 256` this is the count of
  channel image `(b, ch)`'s pixels in each bin.  It then divides each count by `max (sum of the 256 counts) ε`, the sum
  being the row's `2¹⁸` pixels: the normalised histogram `Hist.histArr`.  The rest of the program is the shared `Hist.tail`.
-/
import proofs.«154098_j40140764348889_1_alg».proof.Proof.Gen.ReferenceIdeal.Read
import proofs.«154098_j40140764348889_1_alg».proof.Proof.HistArr
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-! ## The scatter of this program, read at an index

  The scatter has no window: update element `j` goes to the operand slot whose number is the signed reading of the
  index word at `(j, 0)`, when that lies inside the operand, and nowhere otherwise. -/

abbrev sd := scatter_S24576_S25165824x1_S25165824_n_0_0_1

theorem sd_start {w : Nat} (j : S25165824.Idx) (idx : IVec S25165824x1 w) (a : Fin S24576.rank) :
    sd.start j idx a = (idx (ix2 (n0 := 25165824) (n1 := 1) (j 0) 0)).toInt := by
  obtain rfl : a = (0 : Fin 1) := Subsingleton.elim _ _
  unfold ScatterDims.start
  rw [dif_pos (by show (0 : Fin 1) ∈ [(0 : Fin 1)]; decide)]
  refine congrArg (fun k => (idx k).toInt) (funext fun b => ?_)
  match b with
  | ⟨0, _⟩ =>
    unfold ScatterDims.siIdx
    rw [dif_neg (by show ¬ (0 : Nat) = 1; decide)]
    apply Fin.ext
    show (j _).val = (j 0).val
    exact congrArg (fun k => (j k).val) (Subsingleton.elim _ _)
  | ⟨1, _⟩ =>
    unfold ScatterDims.siIdx
    rw [dif_pos (by show (1 : Nat) = 1; rfl)]
    apply Fin.ext
    rfl

theorem sd_window (j : S25165824.Idx) (a : Fin S24576.rank) : sd.window j a = 0 := by
  obtain rfl : a = (0 : Fin 1) := Subsingleton.elim _ _
  unfold ScatterDims.window
  rw [dif_neg (by show ¬ (0 : Fin 1) ∈ ([] : List (Fin 1)); decide)]

/-- Update element `j` lands on slot `i` exactly when the signed reading of its index word is `i`'s number. -/
theorem sd_resultIdx {w : Nat} (j : S25165824.Idx) (idx : IVec S25165824x1 w) (i : S24576.Idx) :
    sd.resultIdx? j idx = some i ↔ (idx (ix2 (n0 := 25165824) (n1 := 1) (j 0) 0)).toInt = ((i 0).val : ℤ) := by
  unfold ScatterDims.resultIdx?
  constructor
  · intro h
    split at h
    · rename_i hc
      have h0 := congrArg Fin.val (congrFun (Option.some.inj h) 0)
      have h1 := hc 0
      rw [sd_start, sd_window] at h1
      simp only [sd_start, sd_window] at h0
      omega
    · cases h
  · intro h
    have hc : ∀ a, 0 ≤ sd.start j idx a + sd.window j a ∧ sd.start j idx a + sd.window j a < S24576.size a := by
      intro a
      obtain rfl : a = (0 : Fin 1) := Subsingleton.elim _ _
      rw [sd_start, sd_window, h]
      have := (i 0).isLt
      constructor
      · omega
      · show ((i 0).val : ℤ) + ((0 : ℕ) : ℤ) < ((24576 : ℕ) : ℤ)
        have : (i 0).val < 24576 := (i 0).isLt
        omega
    rw [dif_pos hc]
    refine congrArg some (funext fun a => ?_)
    obtain rfl : a = (0 : Fin 1) := Subsingleton.elim _ _
    apply Fin.ext
    show (sd.start j idx 0 + sd.window j 0).toNat = (i 0).val
    rw [sd_start, sd_window, h]
    simp

/-- The host's scatter-add at the ideal instance, read at one slot: the operand's element plus the sum of the update
    elements that land there. -/
theorem scatterAdd_apply {s si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

/-! ## The flat index word -/

/-- The four coordinates of the flat pixel number `j0` (row-major over 32 × 3 × 512 × 512). -/
def pix (j0 : Fin 25165824) : S32x3x512x512.Idx :=
  ix4 (n0 := 32) (n1 := 3) (n2 := 512) (n3 := 512) ⟨j0.val / 786432, by omega⟩ ⟨j0.val / 262144 % 3, by omega⟩
    ⟨j0.val / 512 % 512, by omega⟩ ⟨j0.val % 512, by omega⟩

/-- The word `bin + 256 · c` for a channel-image number `c < 96` does not wrap, and is nonnegative as a signed word. -/
theorem flat_toInt (v : Ideal .f32) (c : ℕ) (hc : c < 96) :
    (IntOp.addi (Hist.binW v) (IntOp.muli (BitVec.ofNat 32 c) 256#32)).toInt = ((Hist.bin v + 256 * c : ℕ) : ℤ) := by
  have hb := Hist.bin_lt v
  have hn : (IntOp.addi (Hist.binW v) (IntOp.muli (BitVec.ofNat 32 c) 256#32)).toNat = Hist.bin v + 256 * c := by
    simp only [IntOp.addi, IntOp.muli, BitVec.toNat_add, BitVec.toNat_mul, BitVec.toNat_ofNat]
    unfold Hist.bin at hb ⊢
    omega
  rw [BitVec.toInt_eq_toNat_cond, hn]
  split <;> omega

/-- A pixel of channel image `(b, ch)`: its coordinates. -/
theorem pix_of_chan (j0 : Fin 25165824) (b : Fin 32) (ch : Fin 3) (h : j0.val / 262144 = b.val * 3 + ch.val) :
    pix j0 = ix4 b ch ⟨j0.val % 262144 / 512, by omega⟩ ⟨j0.val % 262144 % 512, Nat.mod_lt _ (by norm_num)⟩ := by
  have hb := b.isLt
  have hch := ch.isLt
  funext a
  match a with
  | ⟨0, _⟩ => exact Fin.ext (by show j0.val / 786432 = b.val; omega)
  | ⟨1, _⟩ => exact Fin.ext (by show j0.val / 262144 % 3 = ch.val; omega)
  | ⟨2, _⟩ => exact Fin.ext (by show j0.val / 512 % 512 = j0.val % 262144 / 512; omega)
  | ⟨3, _⟩ => exact Fin.ext (by show j0.val % 512 = j0.val % 262144 % 512; omega)

theorem rowOf_pix (x : Hist.SIn.Idx → Ideal .f32) (j0 : Fin 25165824) (b : Fin 32) (ch : Fin 3)
    (h : j0.val / 262144 = b.val * 3 + ch.val) :
    Hist.rowOf x b ch ⟨j0.val % 262144, Nat.mod_lt _ (by norm_num)⟩ = x (pix j0) := by
  rw [pix_of_chan j0 b ch h]
  rfl

/-- THE COUNT OF LANDINGS.  The flat pixels of channel image `(b, ch)` whose bin is `n` are as many as the row's count. -/
theorem card_land (x : Hist.SIn.Idx → Ideal .f32) (b : Fin 32) (ch : Fin 3) (n : Fin 256) :
    (Finset.univ.filter fun j : S25165824.Idx =>
        (j 0).val / 262144 = b.val * 3 + ch.val ∧ Hist.bin (x (pix (j 0))) = n.val).card
      = Hist.cnt (Hist.rowOf x b ch) n.val := by
  have hb := b.isLt
  have hch := ch.isLt
  unfold Hist.cnt
  refine Finset.card_nbij'
    (fun j => (⟨(j 0).val % 262144, Nat.mod_lt _ (by norm_num)⟩ : Fin 262144))
    (fun p => ix1 (n := 25165824) ⟨(b.val * 3 + ch.val) * 262144 + p.val, by have := p.isLt; omega⟩) ?_ ?_ ?_ ?_
  · intro j hj
    rw [Finset.mem_coe, Finset.mem_filter] at hj ⊢
    refine ⟨Finset.mem_univ _, ?_⟩
    obtain ⟨_, h1, h2⟩ := hj
    show Hist.bin (Hist.rowOf x b ch ⟨(j 0).val % 262144, _⟩) = n.val
    rw [rowOf_pix x (j 0) b ch h1]
    exact h2
  · intro p hp
    rw [Finset.mem_coe, Finset.mem_filter] at hp ⊢
    have hpl := p.isLt
    have hc : ((b.val * 3 + ch.val) * 262144 + p.val) / 262144 = b.val * 3 + ch.val := by omega
    refine ⟨Finset.mem_univ _, hc, ?_⟩
    show Hist.bin (x (pix ⟨(b.val * 3 + ch.val) * 262144 + p.val, _⟩)) = n.val
    rw [← rowOf_pix x ⟨(b.val * 3 + ch.val) * 262144 + p.val, by omega⟩ b ch hc]
    have : (⟨((b.val * 3 + ch.val) * 262144 + p.val) % 262144, Nat.mod_lt _ (by norm_num)⟩ : Fin 262144) = p :=
      Fin.ext (by show ((b.val * 3 + ch.val) * 262144 + p.val) % 262144 = p.val; omega)
    rw [this]
    exact hp.2
  · intro j hj
    rw [Finset.mem_coe, Finset.mem_filter] at hj
    obtain ⟨_, h1, _⟩ := hj
    have hjl : (j 0).val < 25165824 := (j 0).isLt
    funext a
    match a with
    | ⟨0, _⟩ => exact Fin.ext (by show (b.val * 3 + ch.val) * 262144 + (j 0).val % 262144 = (j 0).val; omega)
  · intro p hp
    have hpl := p.isLt
    exact Fin.ext (by show ((b.val * 3 + ch.val) * 262144 + p.val) % 262144 = p.val; omega)

/-! ## The first input's chain -/

/-- The clamped word is the pixel's bin word. -/
theorem binw0 (x0 : FVec Ideal S32x3x512x512 .f32) (I : S32x3x512x512.Idx) :
    val_main_v3 (F := Ideal) x0 I = Hist.binW (x0 I) := by
  rw [val_main_v3_apply, val_main_call0_v4_apply, val_main_call0_v3_apply, val_main_c_0_apply, val_main_call0_v2_apply,
    val_main_call0_v1_apply, val_main_call0_v0_apply, val_main_c_apply, val_main_v2_apply, val_main_v1_apply,
    val_main_v0_apply, val_main_cst_apply]
  rfl

/-- The offset word at a pixel of channel image `(b, ch)` is `(3·b + ch) · 256`. -/
theorem off0 (I : S32x3x512x512.Idx) :
    val_main_v8 (F := Ideal) I = IntOp.muli (BitVec.ofNat 32 ((I 0).val * 3 + (I 1).val)) 256#32 := by
  rw [val_main_v8_apply, val_main_v7_apply, val_main_v6_apply, val_main_v4_apply, val_main_v5_apply,
    val_main_c_1_apply]
  have h : (idx_main_v7 (idx_main_v8 I) 0).val = (I 0).val * 3 + (I 1).val := by
    show (((I 0).val * 3 + (I 1).val) * 1 + 0) * 1 + 0 = _
    omega
  rw [h]

/-- The index word of flat pixel `j0`: its bin word plus `256` times its channel-image number. -/
theorem flat0 (x0 : FVec Ideal S32x3x512x512 .f32) (j0 : Fin 25165824) :
    val_main_v13 (F := Ideal) x0 (ix2 (n0 := 25165824) (n1 := 1) j0 0)
      = IntOp.addi (Hist.binW (x0 (pix j0))) (IntOp.muli (BitVec.ofNat 32 (j0.val / 262144)) 256#32) := by
  rw [val_main_v13_apply, val_main_v10_apply, val_main_v9_apply, binw0, off0]
  have hI : idx_main_v10 (idx_main_v13 (ix2 (n0 := 25165824) (n1 := 1) j0 0)) = pix j0 :=
    funext fun a => Fin.ext (by match a with | ⟨0, _⟩ => rfl | ⟨1, _⟩ => rfl | ⟨2, _⟩ => rfl | ⟨3, _⟩ => rfl)
  rw [hI]
  have hc : (pix j0 0).val * 3 + (pix j0 1).val = j0.val / 262144 := by
    show j0.val / 786432 * 3 + j0.val / 262144 % 3 = j0.val / 262144
    omega
  rw [hc]

/-- Flat pixel `j` lands on slot `(b, ch, n)` exactly when it is a pixel of channel image `(b, ch)` whose bin is `n`. -/
theorem land0 (x0 : FVec Ideal S32x3x512x512 .f32) (b : Fin 32) (ch : Fin 3) (n : Fin 256) (j : S25165824.Idx) :
    sd.resultIdx? j (val_main_v13 (F := Ideal) x0) = some (idx_main_v15 (ix3 b ch n))
      ↔ (j 0).val / 262144 = b.val * 3 + ch.val ∧ Hist.bin (x0 (pix (j 0))) = n.val := by
  have hj : (j 0).val < 25165824 := (j 0).isLt
  rw [sd_resultIdx, flat0 x0 (j 0), flat_toInt _ _ (by omega)]
  have hb := Hist.bin_lt (x0 (pix (j 0)))
  have hn := n.isLt
  show ((Hist.bin (x0 (pix (j 0))) + 256 * ((j 0).val / 262144) : ℕ) : ℤ) = (((b.val * 3 + ch.val) * 256 + n.val : ℕ) : ℤ) ↔ _
  constructor
  · intro h
    omega
  · rintro ⟨h1, h2⟩
    omega

/-- The scattered array at slot `(b, ch, n)`: the row's count, a sum of ones over the pixels that land there. -/
theorem scat0 (x0 : FVec Ideal S32x3x512x512 .f32) (b : Fin 32) (ch : Fin 3) (n : Fin 256) :
    val_main_v14 (F := Ideal) x0 (idx_main_v15 (ix3 b ch n)) = ((Hist.cnt (Hist.rowOf x0 b ch) n.val : ℕ) : EReal) := by
  have h1 : ∀ j, val_main_v11 (F := Ideal) j = (1 : EReal) := fun j => by
    rw [val_main_v11_apply, val_main_cst_2_apply]; exact Hist.ofBits_one
  have h0 : val_main_v12 (F := Ideal) (idx_main_v15 (ix3 b ch n)) = (0 : EReal) := by
    rw [val_main_v12_apply, val_main_cst_3_apply]; exact Ideal.ofBits_zero_f32
  have e : val_main_v14 (F := Ideal) x0
      = (Host.scatterAdd (F := Ideal) (s := S24576) (φ := .f32) sd (val_main_v12 (F := Ideal))
          (val_main_v13 (F := Ideal) x0) (val_main_v11 (F := Ideal))) := rfl
  rw [e, scatterAdd_apply, h0, zero_add, Finset.sum_congr rfl (fun j _ => h1 j),
    Finset.filter_congr (fun j _ => land0 x0 b ch n j), Finset.sum_const, nsmul_one, card_land]

/-- Re-laid as `32 × 3 × 256`. -/
theorem cnt0 (x0 : FVec Ideal S32x3x512x512 .f32) (b : Fin 32) (ch : Fin 3) (n : Fin 256) :
    val_main_v15 (F := Ideal) x0 (ix3 b ch n) = ((Hist.cnt (Hist.rowOf x0 b ch) n.val : ℕ) : EReal) := by
  rw [val_main_v15_apply]
  exact scat0 x0 b ch n

/-- The sum of a row's 256 counts is its `2¹⁸` pixels. -/
theorem tot0 (x0 : FVec Ideal S32x3x512x512 .f32) (b : Fin 32) (ch : Fin 3) :
    val_main_v16 (F := Ideal) x0 (ix2 b ch) = ((262144 : ℕ) : EReal) := by
  rw [val_main_v16_apply, val_main_cst_4_apply]
  have hk : ∀ k : Fin 256, val_main_v15 (F := Ideal) x0 (idx_main_v16 (ix2 (n0 := 32) (n1 := 3) b ch) k)
      = ((Hist.cnt (Hist.rowOf x0 b ch) k.val : ℕ) : EReal) := by
    intro k
    have e : idx_main_v16 (ix2 (n0 := 32) (n1 := 3) b ch) k = ix3 b ch k :=
      funext fun a => Fin.ext (by match a with | ⟨0, _⟩ => rfl | ⟨1, _⟩ => rfl | ⟨2, _⟩ => rfl)
    rw [e]
    exact cnt0 x0 b ch k
  rw [Finset.sum_congr rfl (fun k _ => hk k), Hist.sum_cnt]
  show Ideal.ofBits .f32 0x00000000#32 + _ = _
  rw [Ideal.ofBits_zero_f32, zero_add]

/-! ## The second input's chain -/

/-- The clamped word is the pixel's bin word. -/
theorem binw1 (x1 : FVec Ideal S32x3x512x512 .f32) (I : S32x3x512x512.Idx) :
    val_main_v25 (F := Ideal) x1 I = Hist.binW (x1 I) := by
  rw [val_main_v25_apply, val_main_call1_v4_apply, val_main_call1_v3_apply, val_main_c_8_apply, val_main_call1_v2_apply,
    val_main_call1_v1_apply, val_main_call1_v0_apply, val_main_c_7_apply, val_main_v24_apply, val_main_v23_apply,
    val_main_v22_apply, val_main_cst_6_apply]
  rfl

/-- The offset word at a pixel of channel image `(b, ch)` is `(3·b + ch) · 256`. -/
theorem off1 (I : S32x3x512x512.Idx) :
    val_main_v30 (F := Ideal) I = IntOp.muli (BitVec.ofNat 32 ((I 0).val * 3 + (I 1).val)) 256#32 := by
  rw [val_main_v30_apply, val_main_v29_apply, val_main_v28_apply, val_main_v26_apply, val_main_v27_apply,
    val_main_c_9_apply]
  have h : (idx_main_v29 (idx_main_v30 I) 0).val = (I 0).val * 3 + (I 1).val := by
    show (((I 0).val * 3 + (I 1).val) * 1 + 0) * 1 + 0 = _
    omega
  rw [h]

/-- The index word of flat pixel `j0`: its bin word plus `256` times its channel-image number. -/
theorem flat1 (x1 : FVec Ideal S32x3x512x512 .f32) (j0 : Fin 25165824) :
    val_main_v35 (F := Ideal) x1 (ix2 (n0 := 25165824) (n1 := 1) j0 0)
      = IntOp.addi (Hist.binW (x1 (pix j0))) (IntOp.muli (BitVec.ofNat 32 (j0.val / 262144)) 256#32) := by
  rw [val_main_v35_apply, val_main_v32_apply, val_main_v31_apply, binw1, off1]
  have hI : idx_main_v32 (idx_main_v35 (ix2 (n0 := 25165824) (n1 := 1) j0 0)) = pix j0 :=
    funext fun a => Fin.ext (by match a with | ⟨0, _⟩ => rfl | ⟨1, _⟩ => rfl | ⟨2, _⟩ => rfl | ⟨3, _⟩ => rfl)
  rw [hI]
  have hc : (pix j0 0).val * 3 + (pix j0 1).val = j0.val / 262144 := by
    show j0.val / 786432 * 3 + j0.val / 262144 % 3 = j0.val / 262144
    omega
  rw [hc]

/-- Flat pixel `j` lands on slot `(b, ch, n)` exactly when it is a pixel of channel image `(b, ch)` whose bin is `n`. -/
theorem land1 (x1 : FVec Ideal S32x3x512x512 .f32) (b : Fin 32) (ch : Fin 3) (n : Fin 256) (j : S25165824.Idx) :
    sd.resultIdx? j (val_main_v35 (F := Ideal) x1) = some (idx_main_v37 (ix3 b ch n))
      ↔ (j 0).val / 262144 = b.val * 3 + ch.val ∧ Hist.bin (x1 (pix (j 0))) = n.val := by
  have hj : (j 0).val < 25165824 := (j 0).isLt
  rw [sd_resultIdx, flat1 x1 (j 0), flat_toInt _ _ (by omega)]
  have hb := Hist.bin_lt (x1 (pix (j 0)))
  have hn := n.isLt
  show ((Hist.bin (x1 (pix (j 0))) + 256 * ((j 0).val / 262144) : ℕ) : ℤ) = (((b.val * 3 + ch.val) * 256 + n.val : ℕ) : ℤ) ↔ _
  constructor
  · intro h
    omega
  · rintro ⟨h1, h2⟩
    omega

/-- The scattered array at slot `(b, ch, n)`: the row's count, a sum of ones over the pixels that land there. -/
theorem scat1 (x1 : FVec Ideal S32x3x512x512 .f32) (b : Fin 32) (ch : Fin 3) (n : Fin 256) :
    val_main_v36 (F := Ideal) x1 (idx_main_v37 (ix3 b ch n)) = ((Hist.cnt (Hist.rowOf x1 b ch) n.val : ℕ) : EReal) := by
  have h1 : ∀ j, val_main_v33 (F := Ideal) j = (1 : EReal) := fun j => by
    rw [val_main_v33_apply, val_main_cst_10_apply]; exact Hist.ofBits_one
  have h0 : val_main_v34 (F := Ideal) (idx_main_v37 (ix3 b ch n)) = (0 : EReal) := by
    rw [val_main_v34_apply, val_main_cst_11_apply]; exact Ideal.ofBits_zero_f32
  have e : val_main_v36 (F := Ideal) x1
      = (Host.scatterAdd (F := Ideal) (s := S24576) (φ := .f32) sd (val_main_v34 (F := Ideal))
          (val_main_v35 (F := Ideal) x1) (val_main_v33 (F := Ideal))) := rfl
  rw [e, scatterAdd_apply, h0, zero_add, Finset.sum_congr rfl (fun j _ => h1 j),
    Finset.filter_congr (fun j _ => land1 x1 b ch n j), Finset.sum_const, nsmul_one, card_land]

/-- Re-laid as `32 × 3 × 256`. -/
theorem cnt1 (x1 : FVec Ideal S32x3x512x512 .f32) (b : Fin 32) (ch : Fin 3) (n : Fin 256) :
    val_main_v37 (F := Ideal) x1 (ix3 b ch n) = ((Hist.cnt (Hist.rowOf x1 b ch) n.val : ℕ) : EReal) := by
  rw [val_main_v37_apply]
  exact scat1 x1 b ch n

/-- The sum of a row's 256 counts is its `2¹⁸` pixels. -/
theorem tot1 (x1 : FVec Ideal S32x3x512x512 .f32) (b : Fin 32) (ch : Fin 3) :
    val_main_v38 (F := Ideal) x1 (ix2 b ch) = ((262144 : ℕ) : EReal) := by
  rw [val_main_v38_apply, val_main_cst_12_apply]
  have hk : ∀ k : Fin 256, val_main_v37 (F := Ideal) x1 (idx_main_v38 (ix2 (n0 := 32) (n1 := 3) b ch) k)
      = ((Hist.cnt (Hist.rowOf x1 b ch) k.val : ℕ) : EReal) := by
    intro k
    have e : idx_main_v38 (ix2 (n0 := 32) (n1 := 3) b ch) k = ix3 b ch k :=
      funext fun a => Fin.ext (by match a with | ⟨0, _⟩ => rfl | ⟨1, _⟩ => rfl | ⟨2, _⟩ => rfl)
    rw [e]
    exact cnt1 x1 b ch k
  rw [Finset.sum_congr rfl (fun k _ => hk k), Hist.sum_cnt]
  show Ideal.ofBits .f32 0x00000000#32 + _ = _
  rw [Ideal.ofBits_zero_f32, zero_add]

/-- The first input's normalised-histogram stage (`%21`), bin by bin. -/
theorem hist0_apply (x0 : FVec Ideal S32x3x512x512 .f32) (b : Fin 32) (ch : Fin 3) (n : Fin 256) :
    val_main_v21 (F := Ideal) x0 (ix3 b ch n) = Hist.histVal x0 b ch n := by
  rw [val_main_v21_apply, val_main_v20_apply, val_main_v19_apply, val_main_v17_apply, val_main_v18_apply,
    val_main_cst_5_apply, cnt0]
  have e : idx_main_v17 (idx_main_v20 (ix3 (n0 := 32) (n1 := 3) (n2 := 256) b ch n)) = ix2 b ch :=
    funext fun a => Fin.ext (by match a with | ⟨0, _⟩ => rfl | ⟨1, _⟩ => rfl)
  rw [e, tot0]
  exact Hist.div_max_eq _

/-- The second input's (`%43`). -/
theorem hist1_apply (x1 : FVec Ideal S32x3x512x512 .f32) (b : Fin 32) (ch : Fin 3) (n : Fin 256) :
    val_main_v43 (F := Ideal) x1 (ix3 b ch n) = Hist.histVal x1 b ch n := by
  rw [val_main_v43_apply, val_main_v42_apply, val_main_v41_apply, val_main_v39_apply, val_main_v40_apply,
    val_main_cst_13_apply, cnt1]
  have e : idx_main_v39 (idx_main_v42 (ix3 (n0 := 32) (n1 := 3) (n2 := 256) b ch n)) = ix2 b ch :=
    funext fun a => Fin.ext (by match a with | ⟨0, _⟩ => rfl | ⟨1, _⟩ => rfl)
  rw [e, tot1]
  exact Hist.div_max_eq _

theorem hist0_eq (x0 : FVec Ideal S32x3x512x512 .f32) : val_main_v21 (F := Ideal) x0 = Hist.histArr x0 :=
  Hist.eq_histArr x0 _ (hist0_apply x0)
theorem hist1_eq (x1 : FVec Ideal S32x3x512x512 .f32) : val_main_v43 (F := Ideal) x1 = Hist.histArr x1 :=
  Hist.eq_histArr x1 _ (hist1_apply x1)

/-- The reference's result is the shared tail of its two normalised-histogram stages. -/
theorem res_eq_stages (m : (ℓ : Loc nD τ sig) → Buf (Elt Ideal) ℓ) (c : Dev nD) :
    Cert.ReferenceIdeal.Value.res_out0 (F := Ideal) m c
      = Hist.tail (val_main_v21 (F := Ideal) (m ((c.tc : Thread nD τ).loc main_arg0)))
          (val_main_v43 (F := Ideal) (m ((c.tc : Thread nD τ).loc main_arg1))) := by
  show Cert.ReferenceIdeal.Value.res_main_v53 (F := Ideal) m c = _
  rw [val_main_v53_eq]
  generalize (m ((c.tc : Thread nD τ).loc main_arg0)) = x0
  generalize (m ((c.tc : Thread nD τ).loc main_arg1)) = x1
  unfold val_main_v53 val_main_v52 val_main_v51 val_main_v50 val_main_v46 val_main_v49 val_main_v44 val_main_v47
    val_main_v45 val_main_v48 val_main_cst_14 val_main_cst_15 val_main_cst_16 val_main_cst_17 val_main_cst_18 val_main_cst_19 Hist.tail
  rfl

/-- THE REFERENCE'S VALUE: the shared tail of the two inputs' normalised histograms. -/
theorem res_eq (m : (ℓ : Loc nD τ sig) → Buf (Elt Ideal) ℓ) (c : Dev nD) :
    Cert.ReferenceIdeal.Value.res_out0 (F := Ideal) m c
      = Hist.tail (Hist.histArr (m ((c.tc : Thread nD τ).loc main_arg0))) (Hist.histArr (m ((c.tc : Thread nD τ).loc main_arg1))) := by
  rw [res_eq_stages, hist0_eq, hist1_eq]

end Cert.ReferenceIdeal.RefValue

end
-- ==== Proof.lean ====
/-
  The certificate of the histogram-loss kernel against its jnp reference: five claims.

  Both programs bin every pixel `x` of two batches of 32 × 3 images of 512 × 512 pixels into
  `min 255 (max 0 (toInt (x · 256)))`, form each channel image's 256-bin histogram normalised by its `2¹⁸` pixels, average
  the histograms over the batch, and return the mean absolute difference of the two averages.
  The kernel counts on the chip: per pallas_call, a 4 × 64 grid over row tiles of 24 channel images and blocks of 4096
  pixels; a bin is split into its two radix-16 digits, the digits become one-hot arrays, a batched matrix product over
  the pixels counts each digit pair, a scratch accumulates the counts over a row tile's 64 blocks, and at the last block
  the counts times `2⁻¹⁸` are written out.  The reference counts by a scatter-add of ones into `96 · 256` slots, sums
  each histogram, and divides by `max sum ε`.  A count is a natural number, a histogram's counts sum to `2¹⁸`, and on a
  natural number the quotient by `2¹⁸` is the product with `2⁻¹⁸`: at the ideal instance the two normalised histogram
  arrays are one array (`Hist.histArr`), and from there the two programs run the same host operations (`Hist.tail`).
  No finiteness is needed: the float enters only through the shared conversion to an integer.

  The frames of the two kernel programs are the run of @main's five items (three host stretches, two kernel regions)
  from the launch to the return, with each region's invariant carrying the scratch's contents from point to point; the
  word-level program's is the same text at the other float instance.  The reference's frame is its run.
  The idealization rewrote nothing, so `preserves` has no conjunct.
-/
import proofs.«154098_j40140764348889_1_alg».proof.Defs
import proofs.«154098_j40140764348889_1_alg».proof.Proof.Gen.Kernel
import proofs.«154098_j40140764348889_1_alg».proof.Proof.Gen.KernelIdeal
import proofs.«154098_j40140764348889_1_alg».proof.Proof.Gen.ReferenceIdeal
import proofs.«154098_j40140764348889_1_alg».proof.Proof.Gen.Pre_finite_inputs
import proofs.«154098_j40140764348889_1_alg».proof.Proof.Gen.ReferenceIdeal.Run
import proofs.«154098_j40140764348889_1_alg».proof.Proof.Gen.ReferenceIdeal.Read
import proofs.«154098_j40140764348889_1_alg».proof.Proof.KBRun
import proofs.«154098_j40140764348889_1_alg».proof.Proof.KIRun
import proofs.«154098_j40140764348889_1_alg».proof.Proof.KIResult
import proofs.«154098_j40140764348889_1_alg».proof.Proof.RefHist
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance both programs end at the shared tail of the two inputs' normalised histogram arrays. -/
theorem algebraic : Cert.algebraic_KernelIdeal_ReferenceIdeal := by
  intro m ρ m' ρ' _ hagree
  refine ⟨fun c => Hist.tail (Hist.histArr (m ((c.tc : Thread Cert.KernelIdeal.nD Cert.KernelIdeal.τ).loc Cert.KernelIdeal.main_arg0)))
      (Hist.histArr (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.KVal.result_eq m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.res_eq m' c).trans ?_
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
